-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x768 : Shape := ⟨3, ![16, 512, 768]⟩
abbrev S16x1x1x512 : Shape := ⟨4, ![16, 1, 1, 512]⟩
abbrev S8x768x768 : Shape := ⟨3, ![8, 768, 768]⟩
abbrev S8x768 : Shape := ⟨2, ![8, 768]⟩
abbrev S16 : Shape := ⟨1, ![16]⟩
abbrev S_ : Shape := ⟨0, ![]⟩

class Facts : Prop where
  bcast_S_S16x512x768 : S_.BroadcastsInDim S16x512x768 (![] : Fin 0 → Fin S16x512x768.rank)
  reducesTo_S16x512x768_S_d0_1_2 : S16x512x768.ReducesTo [0, 1, 2] S_
  h_S_ : 0 < S_.numel
  bcast_S_S16x1x1x512 : S_.BroadcastsInDim S16x1x1x512 (![] : Fin 0 → Fin S16x1x1x512.rank)
  reducesTo_S16x1x1x512_S_d0_1_2_3 : S16x1x1x512.ReducesTo [0, 1, 2, 3] S_
  bcast_S_S8x768x768 : S_.BroadcastsInDim S8x768x768 (![] : Fin 0 → Fin S8x768x768.rank)
  reducesTo_S8x768x768_S_d0_1_2 : S8x768x768.ReducesTo [0, 1, 2] S_
  bcast_S_S8x768 : S_.BroadcastsInDim S8x768 (![] : Fin 0 → Fin S8x768.rank)
  reducesTo_S8x768_S_d0_1 : S8x768.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg7 : FVec F S8x768 .f32) (main_arg8 : IVec S16 32) (main_v33 : IVec S_ 1) : IVec S_ 1 :=
  let main_v34 : FVec F S8x768 .f32 := Host.absf main_arg7
  let main_cst_12 : FVec F S_ .f32 := constant S_ .f32 0x7F800000#32
  let main_v35 : FVec F S8x768 .f32 := broadcastInDim S8x768 ![] bcast_S_S8x768 main_cst_12
  let main_v36 : IVec S8x768 1 := cmpf .olt main_v34 main_v35
  let main_c_13 : IVec S_ 1 := constantI S_ 1 1#1
  let main_v37 : IVec S_ 1 := (fun x v => Host.reduce IntOp.andi x v reducesTo_S8x768_S_d0_1 h_S_) main_v36 main_c_13
  let main_v38 : IVec S_ 1 := andi main_v33 main_v37
  let main_c_14 : IVec S_ 32 := constantI S_ 32 0#32
  let main_v39 : IVec S16 32 := broadcastInDim S16 ![] bcast_S_S16 main_c_14
  let main_v40 : IVec S16 1 := cmpi .sge main_arg8 main_v39
  let main_c_15 : IVec S_ 1 := constantI S_ 1 1#1
  let main_v41 : IVec S_ 1 := (fun x v => Host.reduce IntOp.andi x v reducesTo_S16_S_d0 h_S_) main_v40 main_c_15
  let main_v42 : IVec S_ 1 := andi main_v38 main_v41
  let main_c_16 : IVec S_ 32 := constantI S_ 32 8#32
  let main_v43 : IVec S16 32 := broadcastInDim S16 ![] bcast_S_S16 main_c_16
  let main_v44 : IVec S16 1 := cmpi .slt main_arg8 main_v43
  let main_c_17 : IVec S_ 1 := constantI S_ 1 1#1
  let main_v45 : IVec S_ 1 := (fun x v => Host.reduce IntOp.andi x v reducesTo_S16_S_d0 h_S_) main_v44 main_c_17
  let main_v46 : IVec S_ 1 := andi main_v42 main_v45
  main_v46

def fn_part1 {F : FTy → Type} [FloatOps F] (main_arg4 : FVec F S8x768x768 .f32) (main_arg5 : FVec F S8x768 .f32) (main_arg6 : FVec F S8x768x768 .f32) (main_arg7 : FVec F S8x768 .f32) (main_arg8 : IVec S16 32) (main_v13 : IVec S_ 1) (main_v16 : IVec S8x768 1) : IVec S_ 1 :=
  let main_c_5 : IVec S_ 1 := constantI S_ 1 1#1
  let main_v17 : IVec S_ 1 := (fun x v => Host.reduce IntOp.andi x v reducesTo_S8x768_S_d0_1 h_S_) main_v16 main_c_5
  let main_v18 : IVec S_ 1 := andi main_v13 main_v17
  let main_v19 : FVec F S8x768x768 .f32 := Host.absf main_arg4
  let main_cst_6 : FVec F S_ .f32 := constant S_ .f32 0x7F800000#32
  let main_v20 : FVec F S8x768x768 .f32 := broadcastInDim S8x768x768 ![] bcast_S_S8x768x768 main_cst_6
  let main_v21 : IVec S8x768x768 1 := cmpf .olt main_v19 main_v20
  let main_c_7 : IVec S_ 1 := constantI S_ 1 1#1
  let main_v22 : IVec S_ 1 := (fun x v => Host.reduce IntOp.andi x v reducesTo_S8x768x768_S_d0_1_2 h_S_) main_v21 main_c_7
  let main_v23 : IVec S_ 1 := andi main_v18 main_v22
  let main_v24 : FVec F S8x768 .f32 := Host.absf main_arg5
  let main_cst_8 : FVec F S_ .f32 := constant S_ .f32 0x7F800000#32
  let main_v25 : FVec F S8x768 .f32 := broadcastInDim S8x768 ![] bcast_S_S8x768 main_cst_8
  let main_v26 : IVec S8x768 1 := cmpf .olt main_v24 main_v25
  let main_c_9 : IVec S_ 1 := constantI S_ 1 1#1
  let main_v27 : IVec S_ 1 := (fun x v => Host.reduce IntOp.andi x v reducesTo_S8x768_S_d0_1 h_S_) main_v26 main_c_9
  let main_v28 : IVec S_ 1 := andi main_v23 main_v27
  let main_v29 : FVec F S8x768x768 .f32 := Host.absf main_arg6
  let main_cst_10 : FVec F S_ .f32 := constant S_ .f32 0x7F800000#32
  let main_v30 : FVec F S8x768x768 .f32 := broadcastInDim S8x768x768 ![] bcast_S_S8x768x768 main_cst_10
  let main_v31 : IVec S8x768x768 1 := cmpf .olt main_v29 main_v30
  let main_c_11 : IVec S_ 1 := constantI S_ 1 1#1
  let main_v32 : IVec S_ 1 := (fun x v => Host.reduce IntOp.andi x v reducesTo_S8x768x768_S_d0_1_2 h_S_) main_v31 main_c_11
  let main_v33 : IVec S_ 1 := andi main_v28 main_v32
  fn_part2 (F := F) main_arg7 main_arg8 main_v33

def fn {F : FTy → Type} [FloatOps F] (main_arg0 : FVec F S16x512x768 .f32) (main_arg1 : FVec F S16x1x1x512 .f32) (main_arg2 : FVec F S8x768x768 .f32) (main_arg3 : FVec F S8x768 .f32) (main_arg4 : FVec F S8x768x768 .f32) (main_arg5 : FVec F S8x768 .f32) (main_arg6 : FVec F S8x768x768 .f32) (main_arg7 : FVec F S8x768 .f32) (main_arg8 : IVec S16 32) : IVec S_ 1 :=
  let main_v0 : FVec F S16x512x768 .f32 := Host.absf main_arg0
  let main_cst : FVec F S_ .f32 := constant S_ .f32 0x7F800000#32
  let main_v1 : FVec F S16x512x768 .f32 := broadcastInDim S16x512x768 ![] bcast_S_S16x512x768 main_cst
  let main_v2 : IVec S16x512x768 1 := cmpf .olt main_v0 main_v1
  let main_c : IVec S_ 1 := constantI S_ 1 1#1
  let main_v3 : IVec S_ 1 := (fun x v => Host.reduce IntOp.andi x v reducesTo_S16x512x768_S_d0_1_2 h_S_) main_v2 main_c
  let main_v4 : FVec F S16x1x1x512 .f32 := Host.absf main_arg1
  let main_cst_0 : FVec F S_ .f32 := constant S_ .f32 0x7F800000#32
  let main_v5 : FVec F S16x1x1x512 .f32 := broadcastInDim S16x1x1x512 ![] bcast_S_S16x1x1x512 main_cst_0
  let main_v6 : IVec S16x1x1x512 1 := cmpf .olt main_v4 main_v5
  let main_c_1 : IVec S_ 1 := constantI S_ 1 1#1
  let main_v7 : IVec S_ 1 := (fun x v => Host.reduce IntOp.andi x v reducesTo_S16x1x1x512_S_d0_1_2_3 h_S_) main_v6 main_c_1
  let main_v8 : IVec S_ 1 := andi main_v3 main_v7
  let main_v9 : FVec F S8x768x768 .f32 := Host.absf main_arg2
  let main_cst_2 : FVec F S_ .f32 := constant S_ .f32 0x7F800000#32
  let main_v10 : FVec F S8x768x768 .f32 := broadcastInDim S8x768x768 ![] bcast_S_S8x768x768 main_cst_2
  let main_v11 : IVec S8x768x768 1 := cmpf .olt main_v9 main_v10
  let main_c_3 : IVec S_ 1 := constantI S_ 1 1#1
  let main_v12 : IVec S_ 1 := (fun x v => Host.reduce IntOp.andi x v reducesTo_S8x768x768_S_d0_1_2 h_S_) main_v11 main_c_3
  let main_v13 : IVec S_ 1 := andi main_v8 main_v12
  let main_v14 : FVec F S8x768 .f32 := Host.absf main_arg3
  let main_cst_4 : FVec F S_ .f32 := constant S_ .f32 0x7F800000#32
  let main_v15 : FVec F S8x768 .f32 := broadcastInDim S8x768 ![] bcast_S_S8x768 main_cst_4
  let main_v16 : IVec S8x768 1 := cmpf .olt main_v14 main_v15
  fn_part1 (F := F) main_arg4 main_arg5 main_arg6 main_arg7 main_arg8 main_v13 main_v16
-- ==== Kernel.lean ====
abbrev S16x512x768 : Shape := ⟨3, ![16, 512, 768]⟩
abbrev S16x1x1x512 : Shape := ⟨4, ![16, 1, 1, 512]⟩
abbrev S8x768x768 : Shape := ⟨3, ![8, 768, 768]⟩
abbrev S8x768 : Shape := ⟨2, ![8, 768]⟩
abbrev S16 : Shape := ⟨1, ![16]⟩
abbrev S_ : Shape := ⟨0, ![]⟩
abbrev S8x1x768 : Shape := ⟨3, ![8, 1, 768]⟩
abbrev S16x1 : Shape := ⟨2, ![16, 1]⟩
abbrev S1x512x768 : Shape := ⟨3, ![1, 512, 768]⟩
abbrev S1 : Shape := ⟨1, ![1]⟩
abbrev S1x768x768 : Shape := ⟨3, ![1, 768, 768]⟩
abbrev S1x1x768 : Shape := ⟨3, ![1, 1, 768]⟩
abbrev S1x1x1x512 : Shape := ⟨4, ![1, 1, 1, 512]⟩
abbrev S512x768 : Shape := ⟨2, ![512, 768]⟩
abbrev S768x768 : Shape := ⟨2, ![768, 768]⟩
abbrev S768 : Shape := ⟨1, ![768]⟩
abbrev S1x768 : Shape := ⟨2, ![1, 768]⟩
abbrev S512 : Shape := ⟨1, ![512]⟩
abbrev S512x64 : Shape := ⟨2, ![512, 64]⟩
abbrev S512x512 : Shape := ⟨2, ![512, 512]⟩
abbrev S1x512 : Shape := ⟨2, ![1, 512]⟩
abbrev S512x1 : Shape := ⟨2, ![512, 1]⟩

abbrev nBuf : Space → Nat
  | .hbm => 31
  | .vmem => 21
  | .smem => 2
  | _ => 0

abbrev bufTy : (tb : Table) → Fin (tcTables nBuf tb) → BufTy
  | .hbm, ⟨0, _⟩ => ⟨S16x512x768, .f32⟩
  | .hbm, ⟨1, _⟩ => ⟨S16x1x1x512, .f32⟩
  | .hbm, ⟨2, _⟩ => ⟨S8x768x768, .f32⟩
  | .hbm, ⟨3, _⟩ => ⟨S8x768, .f32⟩
  | .hbm, ⟨4, _⟩ => ⟨S8x768x768, .f32⟩
  | .hbm, ⟨5, _⟩ => ⟨S8x768, .f32⟩
  | .hbm, ⟨6, _⟩ => ⟨S8x768x768, .f32⟩
  | .hbm, ⟨7, _⟩ => ⟨S8x768, .f32⟩
  | .hbm, ⟨8, _⟩ => ⟨S16, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S16, .i32⟩
  | .hbm, ⟨13, _⟩ => ⟨S16, .i32⟩
  | .hbm, ⟨14, _⟩ => ⟨S_, .i32⟩
  | .hbm, ⟨15, _⟩ => ⟨S16, .i32⟩
  | .hbm, ⟨16, _⟩ => ⟨S16, .i32⟩
  | .hbm, ⟨17, _⟩ => ⟨S8x1x768, .f32⟩
  | .hbm, ⟨18, _⟩ => ⟨S8x1x768, .f32⟩
  | .hbm, ⟨19, _⟩ => ⟨S8x1x768, .f32⟩
  | .hbm, ⟨20, _⟩ => ⟨S16, .i32⟩
  | .hbm, ⟨21, _⟩ => ⟨S16, .i32⟩
  | .hbm, ⟨22, _⟩ => ⟨S_, .i32⟩
  | .hbm, ⟨23, _⟩ => ⟨S16, .i32⟩
  | .hbm, ⟨24, _⟩ => ⟨S16, .i1⟩
  | .hbm, ⟨25, _⟩ => ⟨S_, .i32⟩
  | .hbm, ⟨26, _⟩ => ⟨S16, .i32⟩
  | .hbm, ⟨27, _⟩ => ⟨S16, .i32⟩
  | .hbm, ⟨28, _⟩ => ⟨S16, .i32⟩
  | .hbm, ⟨29, _⟩ => ⟨S16x1, .i32⟩
  | .hbm, ⟨30, _⟩ => ⟨S16x512x768, .f32⟩
  | .local _ .vmem, ⟨0, _⟩ => ⟨S1x512x768, .f32⟩
  | .local _ .vmem, ⟨1, _⟩ => ⟨S1x512x768, .f32⟩
  | .local _ .vmem, ⟨2, _⟩ => ⟨S1x768x768, .f32⟩
  | .local _ .vmem, ⟨3, _⟩ => ⟨S1x768x768, .f32⟩
  | .local _ .vmem, ⟨4, _⟩ => ⟨S1x1x768, .f32⟩
  | .local _ .vmem, ⟨5, _⟩ => ⟨S1x1x768, .f32⟩
  | .local _ .vmem, ⟨6, _⟩ => ⟨S1x768x768, .f32⟩
  | .local _ .vmem, ⟨7, _⟩ => ⟨S1x768x768, .f32⟩
  | .local _ .vmem, ⟨8, _⟩ => ⟨S1x1x768, .f32⟩
  | .local _ .vmem, ⟨9, _⟩ => ⟨S1x1x768, .f32⟩
  | .local _ .vmem, ⟨10, _⟩ => ⟨S1x768x768, .f32⟩
  | .local _ .vmem, ⟨11, _⟩ => ⟨S1x768x768, .f32⟩
  | .local _ .vmem, ⟨12, _⟩ => ⟨S1x1x768, .f32⟩
  | .local _ .vmem, ⟨13, _⟩ => ⟨S1x1x768, .f32⟩
  | .local _ .vmem, ⟨14, _⟩ => ⟨S1x1x1x512, .f32⟩
  | .local _ .vmem, ⟨15, _⟩ => ⟨S1x1x1x512, .f32⟩
  | .local _ .vmem, ⟨16, _⟩ => ⟨S1x512x768, .f32⟩
  | .local _ .vmem, ⟨17, _⟩ => ⟨S1x512x768, .f32⟩
  | .local _ .vmem, ⟨18, _⟩ => ⟨S512x768, .bf16⟩
  | .local _ .vmem, ⟨19, _⟩ => ⟨S512x768, .bf16⟩
  | .local _ .vmem, ⟨20, _⟩ => ⟨S512x768, .bf16⟩
  | .local _ .smem, ⟨0, _⟩ => ⟨S16, .i32⟩
  | .local _ .smem, ⟨1, _⟩ => ⟨S16, .i32⟩
  | _, _ => ⟨S16x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call1_v0 : Ref sig .tc := ⟨.hbm, 20, rfl⟩
abbrev main_call1_v1_0 : Ref sig .tc := ⟨.hbm, 21, rfl⟩
abbrev main_c_1 : Ref sig .tc := ⟨.hbm, 22, rfl⟩
abbrev main_v5 : Ref sig .tc := ⟨.hbm, 23, rfl⟩
abbrev main_v6 : Ref sig .tc := ⟨.hbm, 24, rfl⟩
abbrev main_c_2 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v12 : Ref sig .tc := ⟨.hbm, 30, rfl⟩
abbrev main_v4 : Ref sig .tc := ⟨.smem, 0, rfl⟩
abbrev main_v11 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

abbrev pre0 : Pipeline.Prefetch sig := ⟨2, ![main_v4.idx, main_v11.idx], fun | 0 => main_v4.names | 1 => main_v11.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S16) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S16) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S16) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S16) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S16) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S16) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S16) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (k0_off1_inb : ∀ i : grid0.Coords, ∀ a, (k0_off1 i) a + S1.size a ≤ S16.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S16) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_8 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S16) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x768x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x768x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x768x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S16 : S_.BroadcastsInDim S16 (![] : Fin 0 → Fin S16.rank)
  shapeCasts_S8x768_S8x1x768 : S8x768.ShapeCasts S8x1x768
  bcast_S16_S16x1_0 : S16.BroadcastsInDim S16x1 (![0] : Fin 1 → Fin S16x1.rank)
  numel1_S1 : S1.numel = 1
  inb_S1x512x768_S1x512x768_0_0_0 : ∀ a, (![0, 0, 0] : Fin 3 → Nat) a + S1x512x768.size a ≤ S1x512x768.size a
  h_S1x512x768 : 0 < S1x512x768.numel
  shapeCasts_S1x512x768_S512x768 : S1x512x768.ShapeCasts S512x768
  bitsLt_bf16_f32 : FTy.bits .bf16 < FTy.bits .f32
  inb_S1x768x768_S1x768x768_0_0_0 : ∀ a, (![0, 0, 0] : Fin 3 → Nat) a + S1x768x768.size a ≤ S1x768x768.size a
  h_S1x768x768 : 0 < S1x768x768.numel
  shapeCasts_S1x768x768_S768x768 : S1x768x768.ShapeCasts S768x768
  inb_S1x1x768_S1x1x768_0_0_0 : ∀ a, (![0, 0, 0] : Fin 3 → Nat) a + S1x1x768.size a ≤ S1x1x768.size a
  h_S1x1x768 : 0 < S1x1x768.numel
  shapeCasts_S1x1x768_S768 : S1x1x768.ShapeCasts S768
  shapeCasts_S768_S1x768 : S768.ShapeCasts S1x768
  broadcasts_S1x768_S512x768 : S1x768.Broadcasts S512x768
  inb_S512x768_S512x768_0_0 : ∀ a, (![0, 0] : Fin 2 → Nat) a + S512x768.size a ≤ S512x768.size a
  h_S512x768 : 0 < S512x768.numel
  shapeCasts_S512x768_S512x768 : S512x768.ShapeCasts S512x768
  packedbf16_S512x768_S512x768_0_0 : (Rect.unit (s := S512x768) ![0, 0] S512x768.size inb_S512x768_S512x768_0_0).PackedRows (EltTy.packing .bf16)
  inb_S1x1x1x512_S1x1x1x512_0_0_0_0 : ∀ a, (![0, 0, 0, 0] : Fin 4 → Nat) a + S1x1x1x512.size a ≤ S1x1x1x512.size a
  h_S1x1x1x512 : 0 < S1x1x1x512.numel
  shapeCasts_S1x1x1x512_S512 : S1x1x1x512.ShapeCasts S512
  inb_S512x768_S512x64_0_0 : ∀ a, (![0, 0] : Fin 2 → Nat) a + S512x64.size a ≤ S512x768.size a
  h_S512x64 : 0 < S512x64.numel
  shapeCasts_S512_S1x512 : S512.ShapeCasts S1x512
  broadcasts_S1x512_S512x512 : S1x512.Broadcasts S512x512
  reduces_S512x512_S512 : S512x512.Reduces [1] S512
  shapeCasts_S512_S512x1 : S512.ShapeCasts S512x1
  broadcasts_S512x1_S512x512 : S512x1.Broadcasts S512x512
  inb_S512x768_S512x64_0_64 : ∀ a, (![0, 64] : Fin 2 → Nat) a + S512x64.size a ≤ S512x768.size a
  inb_S512x768_S512x64_0_128 : ∀ a, (![0, 128] : Fin 2 → Nat) a + S512x64.size a ≤ S512x768.size a
  inb_S512x768_S512x64_0_192 : ∀ a, (![0, 192] : Fin 2 → Nat) a + S512x64.size a ≤ S512x768.size a
  inb_S512x768_S512x64_0_256 : ∀ a, (![0, 256] : Fin 2 → Nat) a + S512x64.size a ≤ S512x768.size a
  inb_S512x768_S512x64_0_320 : ∀ a, (![0, 320] : Fin 2 → Nat) a + S512x64.size a ≤ S512x768.size a
  inb_S512x768_S512x64_0_384 : ∀ a, (![0, 384] : Fin 2 → Nat) a + S512x64.size a ≤ S512x768.size a
  inb_S512x768_S512x64_0_448 : ∀ a, (![0, 448] : Fin 2 → Nat) a + S512x64.size a ≤ S512x768.size a
  inb_S512x768_S512x64_0_512 : ∀ a, (![0, 512] : Fin 2 → Nat) a + S512x64.size a ≤ S512x768.size a
  inb_S512x768_S512x64_0_576 : ∀ a, (![0, 576] : Fin 2 → Nat) a + S512x64.size a ≤ S512x768.size a
  inb_S512x768_S512x64_0_640 : ∀ a, (![0, 640] : Fin 2 → Nat) a + S512x64.size a ≤ S512x768.size a
  inb_S512x768_S512x64_0_704 : ∀ a, (![0, 704] : Fin 2 → Nat) a + S512x64.size a ≤ S512x768.size a
  concatenates_S512x64_S512x64_S512x64_S512x64_S512x64_S512x64_S512x64_S512x64_S512x64_S512x64_S512x64_S512x64_S512x768_d1 : Shape.Concatenates [S512x64, S512x64, S512x64, S512x64, S512x64, S512x64, S512x64, S512x64, S512x64, S512x64, S512x64, S512x64] S512x768 1
  shapeCasts_S512x768_S1x512x768 : S512x768.ShapeCasts S1x512x768
  gather_S16_S16x1_S16_n_0_n_n_0_1_1_wf : GatherDims.WF S16 S16x1 S16 [] [0] [] [0] [] 1 ![1]
  dot_S512x768_S768x768_S512x768_1_1_0_0_n_n_wf : DotDims.WF S512x768 S768x768 S512x768 [1] [1] [0] [0] [] []
  dot_S512x64_S512x64_S512x512_1_1_0_0_n_n_wf : DotDims.WF S512x64 S512x64 S512x512 [1] [1] [0] [0] [] []
  dot_S512x512_S512x64_S512x64_1_0_0_1_n_n_wf : DotDims.WF S512x512 S512x64 S512x64 [1] [0] [0] [1] [] []
  hrank0 : 0 < grid0.rank
  k0_off1_inb : ∀ i : grid0.Coords, ∀ a, (k0_off1 i) a + S1.size a ≤ S16.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'
  hstage0_4 : ∀ j, (stage0_4 j).IsWhole
  nbuf0_4 : grid0.bufCount reads0_4 false = 2
  hreads0_4 : ∀ {F : FTy → Type} [FloatOps F] (pf : pre0.Contents (Elt F)) (i i' : grid0.Coords), (∀ a, reads0_4 a = true → i a = i' a) → cc0_transform_4 k0_off1_inb numel1_S1 pf i = cc0_transform_4 k0_off1_inb numel1_S1 pf i'
  hstage0_5 : ∀ j, (stage0_5 j).IsWhole
  nbuf0_5 : grid0.bufCount reads0_5 false = 2
  hreads0_5 : ∀ {F : FTy → Type} [FloatOps F] (pf : pre0.Contents (Elt F)) (i i' : grid0.Coords), (∀ a, reads0_5 a = true → i a = i' a) → cc0_transform_5 k0_off1_inb numel1_S1 pf i = cc0_transform_5 k0_off1_inb numel1_S1 pf i'
  hstage0_6 : ∀ j, (stage0_6 j).IsWhole
  nbuf0_6 : grid0.bufCount reads0_6 false = 2
  hreads0_6 : ∀ {F : FTy → Type} [FloatOps F] (pf : pre0.Contents (Elt F)) (i i' : grid0.Coords), (∀ a, reads0_6 a = true → i a = i' a) → cc0_transform_6 k0_off1_inb numel1_S1 pf i = cc0_transform_6 k0_off1_inb numel1_S1 pf i'
  hstage0_7 : ∀ j, (stage0_7 j).IsWhole
  nbuf0_7 : grid0.bufCount reads0_7 false = 2
  hreads0_7 : ∀ {F : FTy → Type} [FloatOps F] (pf : pre0.Contents (Elt F)) (i i' : grid0.Coords), (∀ a, reads0_7 a = true → i a = i' a) → cc0_transform_7 k0_off1_inb numel1_S1 pf i = cc0_transform_7 k0_off1_inb numel1_S1 pf i'
  hstage0_8 : ∀ j, (stage0_8 j).IsWhole
  nbuf0_8 : grid0.bufCount reads0_8 false = 2
  hreads0_8 : ∀ {F : FTy → Type} [FloatOps F] (pf : pre0.Contents (Elt F)) (i i' : grid0.Coords), (∀ a, reads0_8 a = true → i a = i' a) → cc0_transform_8 k0_off1_inb numel1_S1 pf i = cc0_transform_8 k0_off1_inb numel1_S1 pf i'

variable [Facts₀]

def comparator_i32_i32_d0 : BitVec 32 × BitVec 32 → BitVec 32 × BitVec 32 → BitVec 1 :=
  fun l r =>
    let v2 := IntOp.cmpi .slt l.1 r.1
    v2
def gather_S16_S16x1_S16_n_0_n_n_0_1_1 : GatherDims S16 S16x1 S16 where
  offsetDims := []
  collapsedSliceDims := [0]
  operandBatchingDims := []
  startIndicesBatchingDims := []
  startIndexMap := [0]
  indexVectorDim := 1
  sliceSizes := ![1]
  wf := gather_S16_S16x1_S16_n_0_n_n_0_1_1_wf
def dot_S512x768_S768x768_S512x768_1_1_0_0_n_n : DotDims S512x768 S768x768 S512x768 where
  lhsContracting := [1]
  rhsContracting := [1]
  lhsNonContracting := [0]
  rhsNonContracting := [0]
  lhsBatch := []
  rhsBatch := []
  wf := dot_S512x768_S768x768_S512x768_1_1_0_0_n_n_wf
def dot_S512x64_S512x64_S512x512_1_1_0_0_n_n : DotDims S512x64 S512x64 S512x512 where
  lhsContracting := [1]
  rhsContracting := [1]
  lhsNonContracting := [0]
  rhsNonContracting := [0]
  lhsBatch := []
  rhsBatch := []
  wf := dot_S512x64_S512x64_S512x512_1_1_0_0_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf

abbrev spec0_0 : Pipeline.WinSpec sig grid0.rank :=
  Pipeline.WinSpec.ofSpec (Memref.whole main_arg0) S1x512x768.size reads0_0 false false 2 stage0_0 sem0_0 nbuf0_0 hstage0_0

abbrev spec0_1 : Pipeline.WinSpec sig grid0.rank :=
  Pipeline.WinSpec.ofSpec (Memref.whole main_arg2) S1x768x768.size reads0_1 false false 2 stage0_1 sem0_1 nbuf0_1 hstage0_1

abbrev spec0_2 : Pipeline.WinSpec sig grid0.rank :=
  Pipeline.WinSpec.ofSpec (Memref.whole main_v1) S1x1x768.size reads0_2 false false 2 stage0_2 sem0_2 nbuf0_2 hstage0_2

abbrev spec0_3 : Pipeline.WinSpec sig grid0.rank :=
  Pipeline.WinSpec.ofSpec (Memref.whole main_arg4) S1x768x768.size reads0_3 false false 2 stage0_3 sem0_3 nbuf0_3 hstage0_3

abbrev spec0_4 : Pipeline.WinSpec sig grid0.rank :=
  Pipeline.WinSpec.ofSpec (Memref.whole main_v2) S1x1x768.size reads0_4 false false 2 stage0_4 sem0_4 nbuf0_4 hstage0_4

abbrev spec0_5 : Pipeline.WinSpec sig grid0.rank :=
  Pipeline.WinSpec.ofSpec (Memref.whole main_arg6) S1x768x768.size reads0_5 false false 2 stage0_5 sem0_5 nbuf0_5 hstage0_5

abbrev spec0_6 : Pipeline.WinSpec sig grid0.rank :=
  Pipeline.WinSpec.ofSpec (Memref.whole main_v3) S1x1x768.size reads0_6 false false 2 stage0_6 sem0_6 nbuf0_6 hstage0_6

abbrev spec0_7 : Pipeline.WinSpec sig grid0.rank :=
  Pipeline.WinSpec.ofSpec (Memref.whole main_arg1) S1x1x1x512.size reads0_7 false false 2 stage0_7 sem0_7 nbuf0_7 hstage0_7

abbrev spec0_8 : Pipeline.WinSpec sig grid0.rank :=
  Pipeline.WinSpec.ofSpec (Memref.whole main_v12) S1x512x768.size reads0_8 true false 2 stage0_8 sem0_8 nbuf0_8 hstage0_8

abbrev spec0 : Fin 9 → Pipeline.WinSpec sig grid0.rank := fun | 0 => spec0_0 | 1 => spec0_1 | 2 => spec0_2 | 3 => spec0_3 | 4 => spec0_4 | 5 => spec0_5 | 6 => spec0_6 | 7 => spec0_7 | 8 => spec0_8 | ⟨_ + 9, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | 8 => nbuf0_8 | ⟨_ + 9, h⟩ => absurd h (Nat.not_lt.2 (Nat.le_add_left _ _))
abbrev ix0 (pf : pre0.Contents (Elt F)) : (w : Fin 9) → grid0.Coords → Fin (spec0 w).shape.rank → Nat := fun | 0 => cc0_transform_0 k0_off1_inb numel1_S1 pf | 1 => cc0_transform_1 k0_off1_inb numel1_S1 pf | 2 => cc0_transform_2 k0_off1_inb numel1_S1 pf | 3 => cc0_transform_3 k0_off1_inb numel1_S1 pf | 4 => cc0_transform_4 k0_off1_inb numel1_S1 pf | 5 => cc0_transform_5 k0_off1_inb numel1_S1 pf | 6 => cc0_transform_6 k0_off1_inb numel1_S1 pf | 7 => cc0_transform_7 k0_off1_inb numel1_S1 pf | 8 => cc0_transform_8 k0_off1_inb numel1_S1 pf | ⟨_ + 9, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 pf | 3 => hreads0_3 pf | 4 => hreads0_4 pf | 5 => hreads0_5 pf | 6 => hreads0_6 pf | 7 => hreads0_7 pf | 8 => hreads0_8 pf | ⟨_ + 9, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x512x768.size a ≤ S16x512x768.size a), EltTy.bits .f32 = 32 ∨ (Rect.block (s := S16x512x768) S1x512x768.size (cc0_transform_0 k0_off1_inb numel1_S1 pf i) h).WholeWords (EltTy.packing .f32)) ∧
  (∀ i : grid0.Coords, ∃ h : (∀ a, (cc0_transform_1 k0_off1_inb numel1_S1 pf i a + 1) * S1x768x768.size a ≤ S8x768x768.size a), EltTy.bits .f32 = 32 ∨ (Rect.block (s := S8x768x768) S1x768x768.size (cc0_transform_1 k0_off1_inb numel1_S1 pf i) h).WholeWords (EltTy.packing .f32)) ∧
  (∀ i : grid0.Coords, ∃ h : (∀ a, (cc0_transform_2 k0_off1_inb numel1_S1 pf i a + 1) * S1x1x768.size a ≤ S8x1x768.size a), EltTy.bits .f32 = 32 ∨ (Rect.block (s := S8x1x768) S1x1x768.size (cc0_transform_2 k0_off1_inb numel1_S1 pf i) h).WholeWords (EltTy.packing .f32)) ∧
  (∀ i : grid0.Coords, ∃ h : (∀ a, (cc0_transform_3 k0_off1_inb numel1_S1 pf i a + 1) * S1x768x768.size a ≤ S8x768x768.size a), EltTy.bits .f32 = 32 ∨ (Rect.block (s := S8x768x768) S1x768x768.size (cc0_transform_3 k0_off1_inb numel1_S1 pf i) h).WholeWords (EltTy.packing .f32)) ∧
  (∀ i : grid0.Coords, ∃ h : (∀ a, (cc0_transform_4 k0_off1_inb numel1_S1 pf i a + 1) * S1x1x768.size a ≤ S8x1x768.size a), EltTy.bits .f32 = 32 ∨ (Rect.block (s := S8x1x768) S1x1x768.size (cc0_transform_4 k0_off1_inb numel1_S1 pf i) h).WholeWords (EltTy.packing .f32)) ∧
  (∀ i : grid0.Coords, ∃ h : (∀ a, (cc0_transform_5 k0_off1_inb numel1_S1 pf i a + 1) * S1x768x768.size a ≤ S8x768x768.size a), EltTy.bits .f32 = 32 ∨ (Rect.block (s := S8x768x768) S1x768x768.size (cc0_transform_5 k0_off1_inb numel1_S1 pf i) h).WholeWords (EltTy.packing .f32)) ∧
  (∀ i : grid0.Coords, ∃ h : (∀ a, (cc0_transform_6 k0_off1_inb numel1_S1 pf i a + 1) * S1x1x768.size a ≤ S8x1x768.size a), EltTy.bits .f32 = 32 ∨ (Rect.block (s := S8x1x768) S1x1x768.size (cc0_transform_6 k0_off1_inb numel1_S1 pf i) h).WholeWords (EltTy.packing .f32)) ∧
  (∀ i : grid0.Coords, ∃ h : (∀ a, (cc0_transform_7 k0_off1_inb numel1_S1 pf i a + 1) * S1x1x1x512.size a ≤ S16x1x1x512.size a), EltTy.bits .f32 = 32 ∨ (Rect.block (s := S16x1x1x512) S1x1x1x512.size (cc0_transform_7 k0_off1_inb numel1_S1 pf i) h).WholeWords (EltTy.packing .f32)) ∧
  (∀ i : grid0.Coords, ∃ h : (∀ a, (cc0_transform_8 k0_off1_inb numel1_S1 pf i a + 1) * S1x512x768.size a ≤ S16x512x768.size a), EltTy.bits .f32 = 32 ∨ (Rect.block (s := S16x512x768) S1x512x768.size (cc0_transform_8 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2.1 i).elim fun h _ => h a | 4 => fun i a => (hok.2.2.2.2.1 i).elim fun h _ => h a | 5 => fun i a => (hok.2.2.2.2.2.1 i).elim fun h _ => h a | 6 => fun i a => (hok.2.2.2.2.2.2.1 i).elim fun h _ => h a | 7 => fun i a => (hok.2.2.2.2.2.2.2.1 i).elim fun h _ => h a | 8 => fun i a => (hok.2.2.2.2.2.2.2.2 i).elim fun h _ => h a | ⟨_ + 9, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2.1 i).elim fun _ h => h | 2 => fun i => (hok.2.2.1 i).elim fun _ h => h | 3 => fun i => (hok.2.2.2.1 i).elim fun _ h => h | 4 => fun i => (hok.2.2.2.2.1 i).elim fun _ h => h | 5 => fun i => (hok.2.2.2.2.2.1 i).elim fun _ h => h | 6 => fun i => (hok.2.2.2.2.2.2.1 i).elim fun _ h => h | 7 => fun i => (hok.2.2.2.2.2.2.2.1 i).elim fun _ h => h | 8 => fun i => (hok.2.2.2.2.2.2.2.2 i).elim fun _ h => h | ⟨_ + 9, h⟩ => absurd h (Nat.not_lt.2 (Nat.le_add_left _ _))

class Facts : Prop extends Facts₀ where
  harr0 : ∀ w, (spec0 w).arr.IsWhole

variable [Facts]
-- ==== ReferenceIdeal.lean ====
abbrev S16x512x768 : Shape := ⟨3, ![16, 512, 768]⟩
abbrev S16x1x1x512 : Shape := ⟨4, ![16, 1, 1, 512]⟩
abbrev S8x768x768 : Shape := ⟨3, ![8, 768, 768]⟩
abbrev S8x768 : Shape := ⟨2, ![8, 768]⟩
abbrev S16 : Shape := ⟨1, ![16]⟩
abbrev S_ : Shape := ⟨0, ![]⟩
abbrev S16x1 : Shape := ⟨2, ![16, 1]⟩
abbrev S16x768x768 : Shape := ⟨3, ![16, 768, 768]⟩
abbrev S16x768 : Shape := ⟨2, ![16, 768]⟩
abbrev S16x1x768 : Shape := ⟨3, ![16, 1, 768]⟩
abbrev S16x512x12x64 : Shape := ⟨4, ![16, 512, 12, 64]⟩
abbrev S16x12x512x64 : Shape := ⟨4, ![16, 12, 512, 64]⟩
abbrev S16x12x512x512 : Shape := ⟨4, ![16, 12, 512, 512]⟩
abbrev S16x12x512 : Shape := ⟨3, ![16, 12, 512]⟩
abbrev S16x12x512x1 : Shape := ⟨4, ![16, 12, 512, 1]⟩

abbrev nBuf : Space → Nat
  | .hbm => 104
  | .vmem => 0
  | .smem => 0
  | _ => 0

abbrev bufTy : (tb : Table) → Fin (tcTables nBuf tb) → BufTy
  | .hbm, ⟨0, _⟩ => ⟨S16x512x768, .f32⟩
  | .hbm, ⟨1, _⟩ => ⟨S16x1x1x512, .f32⟩
  | .hbm, ⟨2, _⟩ => ⟨S8x768x768, .f32⟩
  | .hbm, ⟨3, _⟩ => ⟨S8x768, .f32⟩
  | .hbm, ⟨4, _⟩ => ⟨S8x768x768, .f32⟩
  | .hbm, ⟨5, _⟩ => ⟨S8x768, .f32⟩
  | .hbm, ⟨6, _⟩ => ⟨S8x768x768, .f32⟩
  | .hbm, ⟨7, _⟩ => ⟨S8x768, .f32⟩
  | .hbm, ⟨8, _⟩ => ⟨S16, .i32⟩
  | .hbm, ⟨9, _⟩ => ⟨S_, .i32⟩
  | .hbm, ⟨10, _⟩ => ⟨S16, .i32⟩
  | .hbm, ⟨11, _⟩ => ⟨S16, .i1⟩
  | .hbm, ⟨12, _⟩ => ⟨S_, .i32⟩
  | .hbm, ⟨13, _⟩ => ⟨S16, .i32⟩
  | .hbm, ⟨14, _⟩ => ⟨S16, .i32⟩
  | .hbm, ⟨15, _⟩ => ⟨S16, .i32⟩
  | .hbm, ⟨16, _⟩ => ⟨S16x1, .i32⟩
  | .hbm, ⟨17, _⟩ => ⟨S16x768x768, .f32⟩
  | .hbm, ⟨18, _⟩ => ⟨S_, .i32⟩
  | .hbm, ⟨19, _⟩ => ⟨S16, .i32⟩
  | .hbm, ⟨20, _⟩ => ⟨S16, .i1⟩
  | .hbm, ⟨21, _⟩ => ⟨S_, .i32⟩
  | .hbm, ⟨22, _⟩ => ⟨S16, .i32⟩
  | .hbm, ⟨23, _⟩ => ⟨S16, .i32⟩
  | .hbm, ⟨24, _⟩ => ⟨S16, .i32⟩
  | .hbm, ⟨25, _⟩ => ⟨S16x1, .i32⟩
  | .hbm, ⟨26, _⟩ => ⟨S16x768, .f32⟩
  | .hbm, ⟨27, _⟩ => ⟨S16x512x768, .f32⟩
  | .hbm, ⟨28, _⟩ => ⟨S16x1x768, .f32⟩
  | .hbm, ⟨29, _⟩ => ⟨S16x512x768, .f32⟩
  | .hbm, ⟨30, _⟩ => ⟨S16x512x768, .f32⟩
  | .hbm, ⟨31, _⟩ => ⟨S16x512x12x64, .f32⟩
  | .hbm, ⟨32, _⟩ => ⟨S16x12x512x64, .f32⟩
  | .hbm, ⟨33, _⟩ => ⟨S_, .i32⟩
  | .hbm, ⟨34, _⟩ => ⟨S16, .i32⟩
  | .hbm, ⟨35, _⟩ => ⟨S16, .i1⟩
  | .hbm, ⟨36, _⟩ => ⟨S_, .i32⟩
  | .hbm, ⟨37, _⟩ => ⟨S16, .i32⟩
  | .hbm, ⟨38, _⟩ => ⟨S16, .i32⟩
  | .hbm, ⟨39, _⟩ => ⟨S16, .i32⟩
  | .hbm, ⟨40, _⟩ => ⟨S16x1, .i32⟩
  | .hbm, ⟨41, _⟩ => ⟨S16x768x768, .f32⟩
  | .hbm, ⟨42, _⟩ => ⟨S_, .i32⟩
  | .hbm, ⟨43, _⟩ => ⟨S16, .i32⟩
  | .hbm, ⟨44, _⟩ => ⟨S16, .i1⟩
  | .hbm, ⟨45, _⟩ => ⟨S_, .i32⟩
  | .hbm, ⟨46, _⟩ => ⟨S16, .i32⟩
  | .hbm, ⟨47, _⟩ => ⟨S16, .i32⟩
  | .hbm, ⟨48, _⟩ => ⟨S16, .i32⟩
  | .hbm, ⟨49, _⟩ => ⟨S16x1, .i32⟩
  | .hbm, ⟨50, _⟩ => ⟨S16x768, .f32⟩
  | .hbm, ⟨51, _⟩ => ⟨S16x512x768, .f32⟩
  | .hbm, ⟨52, _⟩ => ⟨S16x1x768, .f32⟩
  | .hbm, ⟨53, _⟩ => ⟨S16x512x768, .f32⟩
  | .hbm, ⟨54, _⟩ => ⟨S16x512x768, .f32⟩
  | .hbm, ⟨55, _⟩ => ⟨S16x512x12x64, .f32⟩
  | .hbm, ⟨56, _⟩ => ⟨S16x12x512x64, .f32⟩
  | .hbm, ⟨57, _⟩ => ⟨S_, .i32⟩
  | .hbm, ⟨58, _⟩ => ⟨S16, .i32⟩
  | .hbm, ⟨59, _⟩ => ⟨S16, .i1⟩
  | .hbm, ⟨60, _⟩ => ⟨S_, .i32⟩
  | .hbm, ⟨61, _⟩ => ⟨S16, .i32⟩
  | .hbm, ⟨62, _⟩ => ⟨S16, .i32⟩
  | .hbm, ⟨63, _⟩ => ⟨S16, .i32⟩
  | .hbm, ⟨64, _⟩ => ⟨S16x1, .i32⟩
  | .hbm, ⟨65, _⟩ => ⟨S16x768x768, .f32⟩
  | .hbm, ⟨66, _⟩ => ⟨S_, .i32⟩
  | .hbm, ⟨67, _⟩ => ⟨S16, .i32⟩
  | .hbm, ⟨68, _⟩ => ⟨S16, .i1⟩
  | .hbm, ⟨69, _⟩ => ⟨S_, .i32⟩
  | .hbm, ⟨70, _⟩ => ⟨S16, .i32⟩
  | .hbm, ⟨71, _⟩ => ⟨S16, .i32⟩
  | .hbm, ⟨72, _⟩ => ⟨S16, .i32⟩
  | .hbm, ⟨73, _⟩ => ⟨S16x1, .i32⟩
  | .hbm, ⟨74, _⟩ => ⟨S16x768, .f32⟩
  | .hbm, ⟨75, _⟩ => ⟨S16x512x768, .f32⟩
  | .hbm, ⟨76, _⟩ => ⟨S16x1x768, .f32⟩
  | .hbm, ⟨77, _⟩ => ⟨S16x512x768, .f32⟩
  | .hbm, ⟨78, _⟩ => ⟨S16x512x768, .f32⟩
  | .hbm, ⟨79, _⟩ => ⟨S16x512x12x64, .f32⟩
  | .hbm, ⟨80, _⟩ => ⟨S16x12x512x64, .f32⟩
  | .hbm, ⟨81, _⟩ => ⟨S16x12x512x512, .f32⟩
  | .hbm, ⟨82, _⟩ => ⟨S_, .f32⟩
  | .hbm, ⟨83, _⟩ => ⟨S16x12x512x512, .f32⟩
  | .hbm, ⟨84, _⟩ => ⟨S16x12x512x512, .f32⟩
  | .hbm, ⟨85, _⟩ => ⟨S16x12x512x512, .f32⟩
  | .hbm, ⟨86, _⟩ => ⟨S16x12x512x512, .f32⟩
  | .hbm, ⟨87, _⟩ => ⟨S_, .f32⟩
  | .hbm, ⟨88, _⟩ => ⟨S16x12x512, .f32⟩
  | .hbm, ⟨89, _⟩ => ⟨S_, .f32⟩
  | .hbm, ⟨90, _⟩ => ⟨S16x12x512, .f32⟩
  | .hbm, ⟨91, _⟩ => ⟨S16x12x512, .f32⟩
  | .hbm, ⟨92, _⟩ => ⟨S16x12x512x1, .f32⟩
  | .hbm, ⟨93, _⟩ => ⟨S16x12x512x512, .f32⟩
  | .hbm, ⟨94, _⟩ => ⟨S16x12x512x512, .f32⟩
  | .hbm, ⟨95, _⟩ => ⟨S16x12x512x512, .f32⟩
  | .hbm, ⟨96, _⟩ => ⟨S_, .f32⟩
  | .hbm, ⟨97, _⟩ => ⟨S16x12x512, .f32⟩
  | .hbm, ⟨98, _⟩ => ⟨S16x12x512x1, .f32⟩
  | .hbm, ⟨99, _⟩ => ⟨S16x12x512x512, .f32⟩
  | .hbm, ⟨100, _⟩ => ⟨S16x12x512x512, .f32⟩
  | .hbm, ⟨101, _⟩ => ⟨S16x12x512x64, .f32⟩
  | .hbm, ⟨102, _⟩ => ⟨S16x512x12x64, .f32⟩
  | .hbm, ⟨103, _⟩ => ⟨S16x512x768, .f32⟩
  | _, _ => ⟨S16x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c_7 : Ref sig .tc := ⟨.hbm, 57, rfl⟩
abbrev main_v40 : Ref sig .tc := ⟨.hbm, 58, rfl⟩
abbrev main_v41 : Ref sig .tc := ⟨.hbm, 59, rfl⟩
abbrev main_c_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_11 : Ref sig .tc := ⟨.hbm, 87, rfl⟩
abbrev main_v65 : Ref sig .tc := ⟨.hbm, 88, rfl⟩
abbrev main_cst_12 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_13 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩

abbrev nD : Nat := 1
abbrev τ : Topo := Topo.v7x

variable {F : FTy → Type} [FloatOps F]

class Facts₀ : Prop where
  bcast_S_S16 : S_.BroadcastsInDim S16 (![] : Fin 0 → Fin S16.rank)
  bcast_S16_S16x1_0 : S16.BroadcastsInDim S16x1 (![0] : Fin 1 → Fin S16x1.rank)
  bcast_S16x768_S16x1x768_0_2 : S16x768.BroadcastsInDim S16x1x768 (![0, 2] : Fin 2 → Fin S16x1x768.rank)
  bcast_S16x1x768_S16x512x768_0_1_2 : S16x1x768.BroadcastsInDim S16x512x768 (![0, 1, 2] : Fin 3 → Fin S16x512x768.rank)
  shapeCasts_S16x512x768_S16x512x12x64 : S16x512x768.ShapeCasts S16x512x12x64
  transposes_S16x512x12x64_S16x12x512x64_0_2_1_3 : S16x512x12x64.Transposes [0, 2, 1, 3] S16x12x512x64
  bcast_S_S16x12x512x512 : S_.BroadcastsInDim S16x12x512x512 (![] : Fin 0 → Fin S16x12x512x512.rank)
  bcast_S16x1x1x512_S16x12x512x512_0_1_2_3 : S16x1x1x512.BroadcastsInDim S16x12x512x512 (![0, 1, 2, 3] : Fin 4 → Fin S16x12x512x512.rank)
  reducesTo_S16x12x512x512_S16x12x512_d3 : S16x12x512x512.ReducesTo [3] S16x12x512
  h_S_ : 0 < S_.numel
  bcast_S_S16x12x512 : S_.BroadcastsInDim S16x12x512 (![] : Fin 0 → Fin S16x12x512.rank)
  bcast_S16x12x512_S16x12x512x1_0_1_2 : S16x12x512.BroadcastsInDim S16x12x512x1 (![0, 1, 2] : Fin 3 → Fin S16x12x512x1.rank)
  bcast_S16x12x512x1_S16x12x512x512_0_1_2_3 : S16x12x512x1.BroadcastsInDim S16x12x512x512 (![0, 1, 2, 3] : Fin 4 → Fin S16x12x512x512.rank)
  transposes_S16x12x512x64_S16x512x12x64_0_2_1_3 : S16x12x512x64.Transposes [0, 2, 1, 3] S16x512x12x64
  shapeCasts_S16x512x12x64_S16x512x768 : S16x512x12x64.ShapeCasts S16x512x768
  gather_S8x768x768_S16x1_S16x768x768_12_0_n_n_0_1_1768768_wf : GatherDims.WF S8x768x768 S16x1 S16x768x768 [1, 2] [0] [] [0] [] 1 ![1, 768, 768]
  gather_S8x768_S16x1_S16x768_1_0_n_n_0_1_1768_wf : GatherDims.WF S8x768 S16x1 S16x768 [1] [0] [] [0] [] 1 ![1, 768]
  dot_S16x512x768_S16x768x768_S16x512x768_2_2_1_1_0_0_wf : DotDims.WF S16x512x768 S16x768x768 S16x512x768 [2] [2] [1] [1] [0] [0]
  dot_S16x12x512x64_S16x12x512x64_S16x12x512x512_3_3_2_2_01_01_wf : DotDims.WF S16x12x512x64 S16x12x512x64 S16x12x512x512 [3] [3] [2] [2] [0, 1] [0, 1]
  dot_S16x12x512x512_S16x12x512x64_S16x12x512x64_3_2_2_3_01_01_wf : DotDims.WF S16x12x512x512 S16x12x512x64 S16x12x512x64 [3] [2] [2] [3] [0, 1] [0, 1]

variable [Facts₀]

def gather_S8x768x768_S16x1_S16x768x768_12_0_n_n_0_1_1768768 : GatherDims S8x768x768 S16x1 S16x768x768 where
  offsetDims := [1, 2]
  collapsedSliceDims := [0]
  operandBatchingDims := []
  startIndicesBatchingDims := []
  startIndexMap := [0]
  indexVectorDim := 1
  sliceSizes := ![1, 768, 768]
  wf := gather_S8x768x768_S16x1_S16x768x768_12_0_n_n_0_1_1768768_wf
def gather_S8x768_S16x1_S16x768_1_0_n_n_0_1_1768 : GatherDims S8x768 S16x1 S16x768 where
  offsetDims := [1]
  collapsedSliceDims := [0]
  operandBatchingDims := []
  startIndicesBatchingDims := []
  startIndexMap := [0]
  indexVectorDim := 1
  sliceSizes := ![1, 768]
  wf := gather_S8x768_S16x1_S16x768_1_0_n_n_0_1_1768_wf
def dot_S16x512x768_S16x768x768_S16x512x768_2_2_1_1_0_0 : DotDims S16x512x768 S16x768x768 S16x512x768 where
  lhsContracting := [2]
  rhsContracting := [2]
  lhsNonContracting := [1]
  rhsNonContracting := [1]
  lhsBatch := [0]
  rhsBatch := [0]
  wf := dot_S16x512x768_S16x768x768_S16x512x768_2_2_1_1_0_0_wf
def dot_S16x12x512x64_S16x12x512x64_S16x12x512x512_3_3_2_2_01_01 : DotDims S16x12x512x64 S16x12x512x64 S16x12x512x512 where
  lhsContracting := [3]
  rhsContracting := [3]
  lhsNonContracting := [2]
  rhsNonContracting := [2]
  lhsBatch := [0, 1]
  rhsBatch := [0, 1]
  wf := dot_S16x12x512x64_S16x12x512x64_S16x12x512x512_3_3_2_2_01_01_wf
def dot_S16x12x512x512_S16x12x512x64_S16x12x512x64_3_2_2_3_01_01 : DotDims S16x12x512x512 S16x12x512x64 S16x12x512x64 where
  lhsContracting := [3]
  rhsContracting := [2]
  lhsNonContracting := [2]
  rhsNonContracting := [3]
  lhsBatch := [0, 1]
  rhsBatch := [0, 1]
  wf := dot_S16x12x512x512_S16x12x512x64_S16x12x512x64_3_2_2_3_01_01_wf

class Facts : Prop extends Facts₀ where

variable [Facts]
-- ==== Proof.AttnSpec.lean ====
/-
  Multi-head self-attention of ONE sequence, as plain functions on the extended reals.

  A sequence is 512 rows of 768 columns; the 768 columns are 12 heads of 64. With weights `w` (768 × 768,
  output column first) and bias `b`, a projection is `y[s, o] = Σ_d x[s, d] · w[o, d] + b[o]`. For head `h`
  the score of query row `i` against key row `j` is `(Σ_d q[i, 64h + d] · k[j, 64h + d]) · (1/8) + mask[j]`;
  a row of scores is turned into weights by the shifted softmax `exp(s_j − max s) / Σ_j' exp(s_j' − max s)`;
  the context is `Σ_j weight[j] · v[j, 64h + d]`, written at column `64h + d`.
-/
import Idealize.ShloMosaic.PureOps.Ideal
import Idealize.ShloMosaic.Lib.ValueIdx

noncomputable section

namespace Cert.Attn

open Idealize.ShloMosaic

/-- Column `64h + d` of a 768-wide row: lane `d` of head `h`. -/
def col (h : Fin 12) (d : Fin 64) : Fin 768 := ⟨h.val * 64 + d.val, by omega⟩

/-- The head a column belongs to, and its lane inside the head. -/
def headOf (o : Fin 768) : Fin 12 := ⟨o.val / 64, by omega⟩
def laneOf (o : Fin 768) : Fin 64 := ⟨o.val % 64, by omega⟩

theorem col_head_lane (o : Fin 768) : col (headOf o) (laneOf o) = o := by
  apply Fin.ext; simp only [col, headOf, laneOf]; omega

/-- A linear projection with bias: `y[s, o] = Σ_d x[s, d] · w[o, d] + b[o]`. -/
def proj (x : Fin 512 → Fin 768 → EReal) (w : Fin 768 → Fin 768 → EReal) (b : Fin 768 → EReal)
    (s : Fin 512) (o : Fin 768) : EReal :=
  (∑ d : Fin 768, x s d * w o d) + b o

/-- Head `h`'s score of query row `i` against key row `j`: the dot product over the head's 64 lanes, scaled by
    `1/8 = 1/√64`, plus the additive mask of the key position. -/
def score (q k : Fin 512 → Fin 768 → EReal) (mask : Fin 512 → EReal) (h : Fin 12) (i j : Fin 512) : EReal :=
  (∑ d : Fin 64, q i (col h d) * k j (col h d)) * (((1 / 8 : ℝ) : ℝ) : EReal) + mask j

/-- The largest entry of a row of 512 (−∞ for the fold's start). -/
def rowmax (s : Fin 512 → EReal) : EReal := (Finset.univ : Finset (Fin 512)).fold max ⊥ s

/-- The shifted softmax of a row: `exp(s_j − max s) / Σ_j' exp(s_j' − max s)`. -/
def weight (s : Fin 512 → EReal) (j : Fin 512) : EReal :=
  Ideal.div (Ideal.exp (s j - rowmax s)) (∑ j' : Fin 512, Ideal.exp (s j' - rowmax s))

/-- Head `h`'s context at query row `i`, lane `d`: the value rows averaged by the softmax weights. -/
def ctx (q k v : Fin 512 → Fin 768 → EReal) (mask : Fin 512 → EReal) (h : Fin 12) (i : Fin 512) (d : Fin 64) : EReal :=
  ∑ j : Fin 512, weight (score q k mask h i) j * v j (col h d)

/-- The whole layer on one sequence: project to queries, keys and values, attend head by head, and lay the
    heads' contexts side by side along the columns. -/
def batch (x : Fin 512 → Fin 768 → EReal) (mask : Fin 512 → EReal)
    (wq : Fin 768 → Fin 768 → EReal) (bq : Fin 768 → EReal)
    (wk : Fin 768 → Fin 768 → EReal) (bk : Fin 768 → EReal)
    (wv : Fin 768 → Fin 768 → EReal) (bv : Fin 768 → EReal)
    (i : Fin 512) (o : Fin 768) : EReal :=
  ctx (proj x wq bq) (proj x wk bk) (proj x wv bv) mask (headOf o) i (laneOf o)

end Cert.Attn

end
-- ==== Proof.PreDecode.lean ====
/-
  The precondition, decoded for the expert indices: beside the finiteness of every float input it says that each
  of the sixteen expert-index words is, read signed, at least 0 and below 8. Such a word is the numeral of a
  number below 8.
-/
import proofs.«429140_j38534446579845_3_alg».proof.Pre_finite_inputs
import proofs.«429140_j38534446579845_3_alg».proof.Proof.Gen.Pre_finite_inputs
import Idealize.ShloMosaic.Lib.ReduceAll
import Idealize.ShloMosaic.Lib.ValueIdx
import Idealize.ShloMosaic.Lib.StableHlo.Predicate

noncomputable section

namespace Cert.PreDecode

open Cert.Pre_finite_inputs
open Idealize.ShloMosaic Idealize.ShloMosaic.ValueIdx

instance : Subsingleton S_.Idx := ⟨fun a b => funext fun d => d.elim0⟩

/-- A 32-bit word that is, read signed, at least 0 and below 8 is below 8 read unsigned. -/
theorem word_lt (w : BitVec 32) (h0 : IntOp.cmpi .sge w (0#32) = 1#1) (h8 : IntOp.cmpi .slt w (8#32) = 1#1) :
    w.toNat < 8 := by
  unfold IntOp.cmpi at h0 h8
  have b1 : ∀ b : Bool, BitVec.ofBool b = 1#1 ↔ b = true := by decide
  rw [b1] at h0 h8
  simp only [BitVec.slt, BitVec.sle, decide_eq_true_eq] at h0 h8
  have h32 := w.isLt
  unfold BitVec.toInt at h0 h8
  split at h8 <;> simp at h0 h8 <;> omega

variable {F : FTy → Type} [FloatOps F]

/-- Under the precondition every expert-index word is below 8. -/
theorem idx_lt (a0 : FVec F S16x512x768 .f32) (a1 : FVec F S16x1x1x512 .f32) (a2 : FVec F S8x768x768 .f32)
    (a3 : FVec F S8x768 .f32) (a4 : FVec F S8x768x768 .f32) (a5 : FVec F S8x768 .f32) (a6 : FVec F S8x768x768 .f32)
    (a7 : FVec F S8x768 .f32) (a8 : IVec S16 32)
    (h : fn (F := F) a0 a1 a2 a3 a4 a5 a6 a7 a8 = fun _ => 1#1) (j : Fin 16) : (a8 (ix1 j)).toNat < 8 := by
  have e := congrFun h ix0
  dsimp only [fn, fn_part1, fn_part2] at e
  obtain ⟨e42, e45⟩ := IntOp.andi_eq_one.1 e
  obtain ⟨-, e41⟩ := IntOp.andi_eq_one.1 e42
  have g0 := Host.reduce_andi_all _ _ _ _ _ e41 (ix1 j)
  have g8 := Host.reduce_andi_all _ _ _ _ _ e45 (ix1 j)
  exact word_lt _ g0 g8

/-- The expert of sequence `j`, as a number below 8. -/
def expert (a8 : IVec S16 32) (hlt : ∀ j : Fin 16, (a8 (ix1 j)).toNat < 8) (j : Fin 16) : Fin 8 := ⟨(a8 (ix1 j)).toNat, hlt j⟩

/-- The word is the numeral of its expert. -/
theorem word_eq (a8 : IVec S16 32) (hlt : ∀ j : Fin 16, (a8 (ix1 j)).toNat < 8) (j : Fin 16) :
    a8 (ix1 j) = BitVec.ofNat 32 (expert a8 hlt j).val := by
  apply BitVec.eq_of_toNat_eq
  simp only [expert, BitVec.toNat_ofNat]
  have := hlt j
  omega

end Cert.PreDecode

end
-- ==== Proof.Tables.lean ====
/-
  The two tables the pipeline's index maps read, as functions of the expert-index input. @main clips the sixteen
  expert indices into [0, 7], sorts the clipped words stably carrying their positions (an argsort), and reads the
  clipped words back through the sorted positions. So table 0 at grid point t is a position `perm t` of 0 … 15 — and
  `perm` is a permutation, being a stable sort's position map — and table 1 at t is the clipped expert index of
  sequence `perm t`, a number below 8. Every window's block therefore lies inside its array.
-/
import proofs.«429140_j38534446579845_3_alg».proof.Proof.Gen.KernelIdeal.Frame
import Idealize.ShloMosaic.Lib.SortFacts
import Idealize.ShloMosaic.Lib.StableHlo.Predicate
import Idealize.ShloMosaic.Lib.ValueIdx

set_option maxRecDepth 16384

noncomputable section

namespace Cert.KernelIdeal.Tab

open Cert.KernelIdeal Cert.KernelIdeal.Gen
open Idealize.ShloMosaic Idealize.ShloMosaic.TcCoe Idealize.ShloMosaic.ValueIdx Idealize.SL.Sem

variable {F : FTy → Type} [FloatOps F]
variable (m : (ℓ : Loc nD τ sig) → Buf (Elt F) ℓ)

/-- The expert-index input as launched (the program's one device). -/
abbrev eidx : IVec S16 32 := m (((0 : Dev nD) : Thread nD τ).loc main_arg8)

/-- The grid point a coordinate vector names. -/
def pt (i : grid0.Coords) : Fin 16 := ⟨(i 0).val, (i 0).isLt⟩

/-! ### Words

A 32-bit word read signed is its value when that is below 2³¹ and its value less 2³² otherwise; the clip and the
index normalisation are case splits on that. -/

/-- A word clipped into [0, 7]: the signed minimum with 7 of the signed maximum with 0. -/
def cw (w : BitVec 32) : BitVec 32 := IntOp.minsi 7#32 (IntOp.maxsi 0#32 w)

theorem toInt_cases (w : BitVec 32) :
    (w.toInt = w.toNat ∧ w.toNat < 2 ^ 31) ∨ (w.toInt = (w.toNat : Int) - 2 ^ 32 ∧ 2 ^ 31 ≤ w.toNat) := by
  have := w.isLt
  unfold BitVec.toInt
  split <;> omega

/-- A clipped word is below 8, whatever the word was: the maximum with 0 is not negative, and a non-negative word
    that is at most 7 signed is at most 7. -/
theorem cw_lt (w : BitVec 32) : (cw w).toNat < 8 := by
  have h7 : (7#32 : BitVec 32).toInt = 7 := by decide
  have h0 : (0#32 : BitVec 32).toInt = 0 := by decide
  unfold cw
  have hv : 0 ≤ (IntOp.maxsi 0#32 w).toInt := by
    unfold IntOp.maxsi
    split
    · rw [h0]
    · rename_i h; simp only [BitVec.slt, h0, decide_eq_true_eq, not_lt] at h; exact h
  generalize IntOp.maxsi 0#32 w = v at hv
  unfold IntOp.minsi
  split
  · decide
  · rename_i h; simp only [BitVec.slt, h7, decide_eq_true_eq, not_lt] at h
    rcases toInt_cases v with ⟨e, hw⟩ | ⟨e, hw⟩ <;> omega

/-- A word already in [0, 7] is its own clip. -/
theorem cw_of_lt (e : Nat) (he : e < 8) : cw (BitVec.ofNat 32 e) = BitVec.ofNat 32 e := by
  have h7 : (7#32 : BitVec 32).toInt = 7 := by decide
  have h0 : (0#32 : BitVec 32).toInt = 0 := by decide
  have hi : (BitVec.ofNat 32 e).toInt = e := StableHlo.Predicate.toInt_ofNat_small e (by omega)
  unfold cw
  have hm : IntOp.maxsi 0#32 (BitVec.ofNat 32 e) = BitVec.ofNat 32 e := by
    unfold IntOp.maxsi
    rw [if_neg]; simp only [BitVec.slt, hi, h0, decide_eq_true_eq]; omega
  rw [hm]; unfold IntOp.minsi
  rw [if_neg]; simp only [BitVec.slt, hi, h7, decide_eq_true_eq]; omega

/-- A position word k < 16 is not negative, so "add 16 if negative" leaves it. -/
theorem sel_nonneg (k : Nat) (hk : k < 16) :
    Scalar.select (IntOp.cmpi .slt (BitVec.ofNat 32 k) 0#32) (IntOp.addi (BitVec.ofNat 32 k) 16#32) (BitVec.ofNat 32 k)
      = BitVec.ofNat 32 k := by
  have hi : (BitVec.ofNat 32 k).toInt = k := StableHlo.Predicate.toInt_ofNat_small k (by omega)
  have h0 : (0#32 : BitVec 32).toInt = 0 := by decide
  unfold Scalar.select IntOp.cmpi
  rw [if_neg]
  show ¬ BitVec.ofBool ((BitVec.ofNat 32 k).slt 0#32) = 1#1
  rw [StableHlo.Predicate.ofBool_eq_one_iff]
  simp only [BitVec.slt, hi, h0, decide_eq_true_eq]; omega

/-- A position word's value is the position. -/
theorem toNat_pos (p : Fin 16) : (BitVec.ofNat 32 p.val).toNat = p.val := by
  rw [BitVec.toNat_ofNat]; exact Nat.mod_eq_of_lt (by have := p.isLt; omega)

/-! ### The host operations, read at an index -/

/-- The words clipped into [0, 7], as the program computes them. -/
def clipv (x : IVec S16 32) : IVec S16 32 :=
  minsi (broadcastInDim S16 ![] bcast_S_S16 (constantI S_ 32 7#32)) (maxsi (broadcastInDim S16 ![] bcast_S_S16 (constantI S_ 32 0#32)) x)

/-- The argsort: the stable sort of the words carrying their positions, the positions kept. -/
def asort (x : IVec S16 32) : IVec S16 32 := (Host.sort2 S16 0 comparator_i32_i32_d0 x (iotaInDim S16 32 0)).2

/-- "Add 16 to a negative position": the index normalisation before the take. -/
def wrapv (p : IVec S16 32) : IVec S16 32 :=
  select (cmpi .slt p (broadcastInDim S16 ![] bcast_S_S16 (constantI S_ 32 0#32))) (addi p (broadcastInDim S16 ![] bcast_S_S16 (constantI S_ 32 16#32))) p

theorem clipv_apply (x : IVec S16 32) (j : S16.Idx) : clipv x j = cw (x j) := rfl

theorem wrapv_apply (p : IVec S16 32) (j : S16.Idx) :
    wrapv p j = Scalar.select (IntOp.cmpi .slt (p j) 0#32) (IntOp.addi (p j) 16#32) (p j) := rfl

/-- The two spellings of a vector's index at coordinate `k`. -/
theorem ofFin_eq_ix1 {n : Nat} (k : Fin n) : (Shape.Idx.ofFin k : (⟨1, ![n]⟩ : Shape).Idx) = ix1 k := by
  funext d; match d with | ⟨0, _⟩ => rfl

/-- On a vector, the second result of a two-operand stable sort reads the second operand through the sorting
    permutation of the pairs. -/
theorem sort2_snd_rank1 {n : Nat} {α β : Type} (cmp : α × β → α × β → BitVec 1)
    (x : (⟨1, ![n]⟩ : Shape).Idx → α) (y : (⟨1, ![n]⟩ : Shape).Idx → β) (j : (⟨1, ![n]⟩ : Shape).Idx) :
    (Host.sort2 ⟨1, ![n]⟩ 0 cmp x y).2 j
      = y (Shape.Idx.ofFin (sortedFrom (fun k k' => cmp (x (Shape.Idx.ofFin k), y (Shape.Idx.ofFin k))
            (x (Shape.Idx.ofFin k'), y (Shape.Idx.ofFin k')) == 1#1) (j 0))) := by
  unfold Host.sort2
  simp

/-- "Position k's pair sorts strictly before position k''s": the order the argsort sorts by. -/
def before (x : IVec S16 32) (k k' : Fin 16) : Bool :=
  comparator_i32_i32_d0 (x (Shape.Idx.ofFin k), iotaInDim S16 32 0 (Shape.Idx.ofFin k))
    (x (Shape.Idx.ofFin k'), iotaInDim S16 32 0 (Shape.Idx.ofFin k')) == 1#1

/-- The argsort at `j` is the position the stable sort put at `j`, as a word. -/
theorem asort_apply (x : IVec S16 32) (j : S16.Idx) :
    asort x j = BitVec.ofNat 32 (sortedFrom (before x) (j 0)).val := by
  unfold asort before
  rw [sort2_snd_rank1, StableHlo.Predicate.iota_apply]

/-- The take of a vector at its own (normalised) argsort positions reads, at `t`, the vector at the position the
    sort put at `t`: a position word is below 16, so it is not negative and the take's clamp leaves it. -/
theorem take_at (x : IVec S16 32) (t : Fin 16) :
    Host.gather gather_S16_S16x1_S16_n_0_n_n_0_1_1 x (broadcastInDim S16x1 ![0] bcast_S16_S16x1_0 (wrapv (asort x)))
        (Shape.Idx.ofFin t)
      = x (Shape.Idx.ofFin (sortedFrom (before x) t)) := by
  rw [StableHlo.Predicate.gather_take gather_S16_S16x1_S16_n_0_n_n_0_1_1 rfl rfl rfl rfl _ _ t (by decide)]
  have hb : broadcastInDim S16x1 ![0] bcast_S16_S16x1_0 (wrapv (asort x)) (StableHlo.Predicate.ixP t)
      = BitVec.ofNat 32 (sortedFrom (before x) t).val := by
    rw [StableHlo.Predicate.bcast_col1 bcast_S16_S16x1_0 (wrapv (asort x)) t, wrapv_apply, asort_apply, Shape.Idx.ofFin_zero]
    exact sel_nonneg _ (sortedFrom (before x) t).isLt
  generalize sortedFrom (before x) t = p at hb ⊢
  refine congrArg (fun q => x (Shape.Idx.ofFin q)) (Fin.ext ?_)
  show min (broadcastInDim S16x1 ![0] bcast_S16_S16x1_0 (wrapv (asort x)) (StableHlo.Predicate.ixP t)).toInt.toNat (16 - 1) = p.val
  rw [hb, StableHlo.Predicate.toInt_ofNat_small p.val (by have := p.isLt; omega), Int.toNat_natCast]
  have := p.isLt; omega

/-! ### The two tables' contents -/

/-- Table 0 is the argsort of the clipped words: the host operations before the region, composed. -/
theorem tbl0_eq : (tbl m 0 : IVec S16 32) = asort (clipv (eidx m)) := by
  unfold Gen.tbl
  show V m 0 main_v4 = _
  unfold V
  simp only [hostOps0, hostOps0_1, hostOps0_2, hostOps0_3, hostOps0_4, List.flatten_cons, List.flatten_nil, List.append_nil,
    List.cons_append, List.nil_append]
  after_results
  simp only [StableHlo.TRef.ofBuf, StableHlo.TRef.toBuf, cast_eq, id]
  rfl

/-- Table 1 is the clipped words taken at the (normalised) argsort positions. -/
theorem tbl1_eq : (tbl m 1 : IVec S16 32)
    = Host.gather gather_S16_S16x1_S16_n_0_n_n_0_1_1 (clipv (eidx m))
        (broadcastInDim S16x1 ![0] bcast_S16_S16x1_0 (wrapv (asort (clipv (eidx m))))) := by
  unfold Gen.tbl
  show V m 0 main_v11 = _
  unfold V
  simp only [hostOps0, hostOps0_1, hostOps0_2, hostOps0_3, hostOps0_4, List.flatten_cons, List.flatten_nil, List.append_nil,
    List.cons_append, List.nil_append]
  after_results
  simp only [StableHlo.TRef.ofBuf, StableHlo.TRef.toBuf, cast_eq, id]
  rfl

/-- The sequence grid point `t` works on: position `t` of the argsort of the clipped expert indices. -/
def perm (m : (ℓ : Loc nD τ sig) → Buf (Elt F) ℓ) : Fin 16 → Fin 16 := sortedFrom (before (clipv (eidx m)))

/-- Sequence `j`'s expert index clipped into 0 … 7. -/
def eclip (m : (ℓ : Loc nD τ sig) → Buf (Elt F) ℓ) : Fin 16 → Fin 8 :=
  fun j => ⟨(cw (eidx m (Shape.Idx.ofFin j))).toNat, cw_lt _⟩

/-- The argsort is a permutation of the sixteen sequences: every sequence is some grid point's. -/
theorem perm_surjective : Function.Surjective (perm m) := sortedFrom_surjective _

/-- An expert index already in range is its own clip. -/
theorem eclip_of_eq (j : Fin 16) (e : Fin 8) (h : eidx m (ix1 j) = BitVec.ofNat 32 e.val) : eclip m j = e := by
  apply Fin.ext
  show (cw (eidx m (Shape.Idx.ofFin j))).toNat = e.val
  rw [ofFin_eq_ix1, h, cw_of_lt _ e.isLt, BitVec.toNat_ofNat]
  exact Nat.mod_eq_of_lt (by have := e.isLt; omega)

theorem eclip_val (j : Fin 16) : (eclip m j).val = (cw (eidx m (Shape.Idx.ofFin j))).toNat := rfl

/-- Table 0 at `t` is the position `perm t`, as a word. -/
theorem tbl0_at (t : Fin 16) : (tbl m 0 : IVec S16 32) (Shape.Idx.ofFin t) = BitVec.ofNat 32 (perm m t).val := by
  unfold perm
  rw [tbl0_eq, asort_apply, Shape.Idx.ofFin_zero]

/-- Table 1 at `t` is the clipped expert index of sequence `perm t`. -/
theorem tbl1_at (t : Fin 16) : (tbl m 1 : IVec S16 32) (Shape.Idx.ofFin t) = cw (eidx m (Shape.Idx.ofFin (perm m t))) := by
  unfold perm
  rw [tbl1_eq]
  exact take_at (clipv (eidx m)) t

/-! ### The index maps

Each map loads one word of a table at the grid coordinate and returns it as the block index on the leading axis.
The facts are stated at ANY contents of the tables first and read at the tables' contents last. -/

/-- The one element of the unit block at offset `t` of a table is the table's position `t`. -/
theorem idx_pt (i : grid0.Coords) (h1 : 0 < S1.numel) :
    (Rect.unit (s := S16) ![(Scalar.indexCast (BitVec.ofNat 32 (i 0).val)).toNat] S1.size (k0_off1_inb i)).emb (Shape.Idx.first h1)
      = Shape.Idx.ofFin (pt i) := by
  funext a
  apply Fin.ext
  match a with
  | ⟨0, _⟩ =>
    show (BitVec.ofNat 32 (i 0).val).toNat + 1 * 0 = (i 0).val
    have h : (i 0).val < 16 := (i 0).isLt
    rw [BitVec.toNat_ofNat, Nat.mod_eq_of_lt (by omega)]; omega

/-- What a map's load of table 0, of table 1, at the grid coordinate reads. -/
theorem at0 (pf : pre0.Contents (Elt F)) (i : grid0.Coords) :
    pf.at 0 (Rect.unit (s := S16) ![(Scalar.indexCast (BitVec.ofNat 32 (i 0).val)).toNat] S1.size (k0_off1_inb i)) numel1_S1
      = (pf 0 : IVec S16 32) (Shape.Idx.ofFin (pt i)) :=
  congrArg (pf 0) (idx_pt i _)
theorem at1 (pf : pre0.Contents (Elt F)) (i : grid0.Coords) :
    pf.at 1 (Rect.unit (s := S16) ![(Scalar.indexCast (BitVec.ofNat 32 (i 0).val)).toNat] S1.size (k0_off1_inb i)) numel1_S1
      = (pf 1 : IVec S16 32) (Shape.Idx.ofFin (pt i)) :=
  congrArg (pf 1) (idx_pt i _)

theorem transform_0_at (pf : pre0.Contents (Elt F)) (i : grid0.Coords) :
    cc0_transform_0 k0_off1_inb numel1_S1 pf i = ![((pf 0 : IVec S16 32) (Shape.Idx.ofFin (pt i))).toNat, 0, 0] := by
  unfold cc0_transform_0
  exact congrArg (fun w : BitVec 32 => (![w.toNat, 0, 0] : Fin 3 → Nat)) (at0 pf i)
theorem transform_1_at (pf : pre0.Contents (Elt F)) (i : grid0.Coords) :
    cc0_transform_1 k0_off1_inb numel1_S1 pf i = ![((pf 1 : IVec S16 32) (Shape.Idx.ofFin (pt i))).toNat, 0, 0] := by
  unfold cc0_transform_1
  exact congrArg (fun w : BitVec 32 => (![w.toNat, 0, 0] : Fin 3 → Nat)) (at1 pf i)
theorem transform_2_at (pf : pre0.Contents (Elt F)) (i : grid0.Coords) :
    cc0_transform_2 k0_off1_inb numel1_S1 pf i = ![((pf 1 : IVec S16 32) (Shape.Idx.ofFin (pt i))).toNat, 0, 0] := by
  unfold cc0_transform_2
  exact congrArg (fun w : BitVec 32 => (![w.toNat, 0, 0] : Fin 3 → Nat)) (at1 pf i)
theorem transform_3_at (pf : pre0.Contents (Elt F)) (i : grid0.Coords) :
    cc0_transform_3 k0_off1_inb numel1_S1 pf i = ![((pf 1 : IVec S16 32) (Shape.Idx.ofFin (pt i))).toNat, 0, 0] := by
  unfold cc0_transform_3
  exact congrArg (fun w : BitVec 32 => (![w.toNat, 0, 0] : Fin 3 → Nat)) (at1 pf i)
theorem transform_4_at (pf : pre0.Contents (Elt F)) (i : grid0.Coords) :
    cc0_transform_4 k0_off1_inb numel1_S1 pf i = ![((pf 1 : IVec S16 32) (Shape.Idx.ofFin (pt i))).toNat, 0, 0] := by
  unfold cc0_transform_4
  exact congrArg (fun w : BitVec 32 => (![w.toNat, 0, 0] : Fin 3 → Nat)) (at1 pf i)
theorem transform_5_at (pf : pre0.Contents (Elt F)) (i : grid0.Coords) :
    cc0_transform_5 k0_off1_inb numel1_S1 pf i = ![((pf 1 : IVec S16 32) (Shape.Idx.ofFin (pt i))).toNat, 0, 0] := by
  unfold cc0_transform_5
  exact congrArg (fun w : BitVec 32 => (![w.toNat, 0, 0] : Fin 3 → Nat)) (at1 pf i)
theorem transform_6_at (pf : pre0.Contents (Elt F)) (i : grid0.Coords) :
    cc0_transform_6 k0_off1_inb numel1_S1 pf i = ![((pf 1 : IVec S16 32) (Shape.Idx.ofFin (pt i))).toNat, 0, 0] := by
  unfold cc0_transform_6
  exact congrArg (fun w : BitVec 32 => (![w.toNat, 0, 0] : Fin 3 → Nat)) (at1 pf i)
theorem transform_7_at (pf : pre0.Contents (Elt F)) (i : grid0.Coords) :
    cc0_transform_7 k0_off1_inb numel1_S1 pf i = ![((pf 0 : IVec S16 32) (Shape.Idx.ofFin (pt i))).toNat, 0, 0, 0] := by
  unfold cc0_transform_7
  exact congrArg (fun w : BitVec 32 => (![w.toNat, 0, 0, 0] : Fin 4 → Nat)) (at0 pf i)
theorem transform_8_at (pf : pre0.Contents (Elt F)) (i : grid0.Coords) :
    cc0_transform_8 k0_off1_inb numel1_S1 pf i = ![((pf 0 : IVec S16 32) (Shape.Idx.ofFin (pt i))).toNat, 0, 0] := by
  unfold cc0_transform_8
  exact congrArg (fun w : BitVec 32 => (![w.toNat, 0, 0] : Fin 3 → Nat)) (at0 pf i)

/-- The index maps at the tables' contents: the sequence-indexed windows (input rows 0, mask 7, output 8) sit at block
    `perm t`, the expert-indexed ones (weights 1 3 5, biases 2 4 6) at block `eclip (perm t)`. -/
theorem transform_0 (i : grid0.Coords) : cc0_transform_0 k0_off1_inb numel1_S1 (tbl m) i = ![(perm m (pt i)).val, 0, 0] := by
  rw [transform_0_at, tbl0_at, toNat_pos]
theorem transform_1 (i : grid0.Coords) : cc0_transform_1 k0_off1_inb numel1_S1 (tbl m) i = ![(eclip m (perm m (pt i))).val, 0, 0] := by
  rw [transform_1_at, tbl1_at, eclip_val]
theorem transform_2 (i : grid0.Coords) : cc0_transform_2 k0_off1_inb numel1_S1 (tbl m) i = ![(eclip m (perm m (pt i))).val, 0, 0] := by
  rw [transform_2_at, tbl1_at, eclip_val]
theorem transform_3 (i : grid0.Coords) : cc0_transform_3 k0_off1_inb numel1_S1 (tbl m) i = ![(eclip m (perm m (pt i))).val, 0, 0] := by
  rw [transform_3_at, tbl1_at, eclip_val]
theorem transform_4 (i : grid0.Coords) : cc0_transform_4 k0_off1_inb numel1_S1 (tbl m) i = ![(eclip m (perm m (pt i))).val, 0, 0] := by
  rw [transform_4_at, tbl1_at, eclip_val]
theorem transform_5 (i : grid0.Coords) : cc0_transform_5 k0_off1_inb numel1_S1 (tbl m) i = ![(eclip m (perm m (pt i))).val, 0, 0] := by
  rw [transform_5_at, tbl1_at, eclip_val]
theorem transform_6 (i : grid0.Coords) : cc0_transform_6 k0_off1_inb numel1_S1 (tbl m) i = ![(eclip m (perm m (pt i))).val, 0, 0] := by
  rw [transform_6_at, tbl1_at, eclip_val]
theorem transform_7 (i : grid0.Coords) : cc0_transform_7 k0_off1_inb numel1_S1 (tbl m) i = ![(perm m (pt i)).val, 0, 0, 0] := by
  rw [transform_7_at, tbl0_at, toNat_pos]
theorem transform_8 (i : grid0.Coords) : cc0_transform_8 k0_off1_inb numel1_S1 (tbl m) i = ![(perm m (pt i)).val, 0, 0] := by
  rw [transform_8_at, tbl0_at, toNat_pos]

/-! ### The blocks are inside their arrays -/

theorem inb_rows (v : Nat) (hv : v < 16) :
    ∀ a, ((![v, 0, 0] : Fin 3 → Nat) a + 1) * S1x512x768.size a ≤ S16x512x768.size a := by
  intro a; fin_cases a <;> simp [S1x512x768, S16x512x768] <;> omega
theorem inb_weight (v : Nat) (hv : v < 8) :
    ∀ a, ((![v, 0, 0] : Fin 3 → Nat) a + 1) * S1x768x768.size a ≤ S8x768x768.size a := by
  intro a; fin_cases a <;> simp [S1x768x768, S8x768x768] <;> omega
theorem inb_bias (v : Nat) (hv : v < 8) :
    ∀ a, ((![v, 0, 0] : Fin 3 → Nat) a + 1) * S1x1x768.size a ≤ S8x1x768.size a := by
  intro a; fin_cases a <;> simp [S1x1x768, S8x1x768] <;> omega
theorem inb_mask (v : Nat) (hv : v < 16) :
    ∀ a, ((![v, 0, 0, 0] : Fin 4 → Nat) a + 1) * S1x1x1x512.size a ≤ S16x1x1x512.size a := by
  intro a; fin_cases a <;> simp [S1x1x1x512, S16x1x1x512] <;> omega

/-- Every table-indexed block lies inside its array: the pipeline's side condition, whatever the input holds. -/
theorem ok : Ok m := by
  refine ⟨fun i => ⟨?_, Or.inl rfl⟩, fun i => ⟨?_, Or.inl rfl⟩, fun i => ⟨?_, Or.inl rfl⟩, fun i => ⟨?_, Or.inl rfl⟩,
    fun i => ⟨?_, Or.inl rfl⟩, fun i => ⟨?_, Or.inl rfl⟩, fun i => ⟨?_, Or.inl rfl⟩, fun i => ⟨?_, Or.inl rfl⟩,
    fun i => ⟨?_, Or.inl rfl⟩⟩
  · rw [transform_0]; exact inb_rows _ (perm m (pt i)).isLt
  · rw [transform_1]; exact inb_weight _ (eclip m (perm m (pt i))).isLt
  · rw [transform_2]; exact inb_bias _ (eclip m (perm m (pt i))).isLt
  · rw [transform_3]; exact inb_weight _ (eclip m (perm m (pt i))).isLt
  · rw [transform_4]; exact inb_bias _ (eclip m (perm m (pt i))).isLt
  · rw [transform_5]; exact inb_weight _ (eclip m (perm m (pt i))).isLt
  · rw [transform_6]; exact inb_bias _ (eclip m (perm m (pt i))).isLt
  · rw [transform_7]; exact inb_mask _ (perm m (pt i)).isLt
  · rw [transform_8]; exact inb_rows _ (perm m (pt i)).isLt

-- From here on the permutation is an opaque bijection: only the facts above are known of it.
attribute [irreducible] perm

end Cert.KernelIdeal.Tab

end
-- ==== Proof.TablesBits.lean ====
/-
  The two tables the pipeline's index maps read, as functions of the expert-index input. @main clips the sixteen
  expert indices into [0, 7], sorts the clipped words stably carrying their positions (an argsort), and reads the
  clipped words back through the sorted positions. So table 0 at grid point t is a position `perm t` of 0 … 15 — and
  `perm` is a permutation, being a stable sort's position map — and table 1 at t is the clipped expert index of
  sequence `perm t`, a number below 8. Every window's block therefore lies inside its array.
-/
import proofs.«429140_j38534446579845_3_alg».proof.Proof.Gen.Kernel.Frame
import Idealize.ShloMosaic.Lib.SortFacts
import Idealize.ShloMosaic.Lib.StableHlo.Predicate
import Idealize.ShloMosaic.Lib.ValueIdx

set_option maxRecDepth 16384

noncomputable section

namespace Cert.Kernel.Tab

open Cert.Kernel Cert.Kernel.Gen
open Idealize.ShloMosaic Idealize.ShloMosaic.TcCoe Idealize.ShloMosaic.ValueIdx Idealize.SL.Sem

variable {F : FTy → Type} [FloatOps F]
variable (m : (ℓ : Loc nD τ sig) → Buf (Elt F) ℓ)

/-- The expert-index input as launched (the program's one device). -/
abbrev eidx : IVec S16 32 := m (((0 : Dev nD) : Thread nD τ).loc main_arg8)

/-- The grid point a coordinate vector names. -/
def pt (i : grid0.Coords) : Fin 16 := ⟨(i 0).val, (i 0).isLt⟩

/-! ### Words

A 32-bit word read signed is its value when that is below 2³¹ and its value less 2³² otherwise; the clip and the
index normalisation are case splits on that. -/

/-- A word clipped into [0, 7]: the signed minimum with 7 of the signed maximum with 0. -/
def cw (w : BitVec 32) : BitVec 32 := IntOp.minsi 7#32 (IntOp.maxsi 0#32 w)

theorem toInt_cases (w : BitVec 32) :
    (w.toInt = w.toNat ∧ w.toNat < 2 ^ 31) ∨ (w.toInt = (w.toNat : Int) - 2 ^ 32 ∧ 2 ^ 31 ≤ w.toNat) := by
  have := w.isLt
  unfold BitVec.toInt
  split <;> omega

/-- A clipped word is below 8, whatever the word was: the maximum with 0 is not negative, and a non-negative word
    that is at most 7 signed is at most 7. -/
theorem cw_lt (w : BitVec 32) : (cw w).toNat < 8 := by
  have h7 : (7#32 : BitVec 32).toInt = 7 := by decide
  have h0 : (0#32 : BitVec 32).toInt = 0 := by decide
  unfold cw
  have hv : 0 ≤ (IntOp.maxsi 0#32 w).toInt := by
    unfold IntOp.maxsi
    split
    · rw [h0]
    · rename_i h; simp only [BitVec.slt, h0, decide_eq_true_eq, not_lt] at h; exact h
  generalize IntOp.maxsi 0#32 w = v at hv
  unfold IntOp.minsi
  split
  · decide
  · rename_i h; simp only [BitVec.slt, h7, decide_eq_true_eq, not_lt] at h
    rcases toInt_cases v with ⟨e, hw⟩ | ⟨e, hw⟩ <;> omega

/-- A word already in [0, 7] is its own clip. -/
theorem cw_of_lt (e : Nat) (he : e < 8) : cw (BitVec.ofNat 32 e) = BitVec.ofNat 32 e := by
  have h7 : (7#32 : BitVec 32).toInt = 7 := by decide
  have h0 : (0#32 : BitVec 32).toInt = 0 := by decide
  have hi : (BitVec.ofNat 32 e).toInt = e := StableHlo.Predicate.toInt_ofNat_small e (by omega)
  unfold cw
  have hm : IntOp.maxsi 0#32 (BitVec.ofNat 32 e) = BitVec.ofNat 32 e := by
    unfold IntOp.maxsi
    rw [if_neg]; simp only [BitVec.slt, hi, h0, decide_eq_true_eq]; omega
  rw [hm]; unfold IntOp.minsi
  rw [if_neg]; simp only [BitVec.slt, hi, h7, decide_eq_true_eq]; omega

/-- A position word k < 16 is not negative, so "add 16 if negative" leaves it. -/
theorem sel_nonneg (k : Nat) (hk : k < 16) :
    Scalar.select (IntOp.cmpi .slt (BitVec.ofNat 32 k) 0#32) (IntOp.addi (BitVec.ofNat 32 k) 16#32) (BitVec.ofNat 32 k)
      = BitVec.ofNat 32 k := by
  have hi : (BitVec.ofNat 32 k).toInt = k := StableHlo.Predicate.toInt_ofNat_small k (by omega)
  have h0 : (0#32 : BitVec 32).toInt = 0 := by decide
  unfold Scalar.select IntOp.cmpi
  rw [if_neg]
  show ¬ BitVec.ofBool ((BitVec.ofNat 32 k).slt 0#32) = 1#1
  rw [StableHlo.Predicate.ofBool_eq_one_iff]
  simp only [BitVec.slt, hi, h0, decide_eq_true_eq]; omega

/-- A position word's value is the position. -/
theorem toNat_pos (p : Fin 16) : (BitVec.ofNat 32 p.val).toNat = p.val := by
  rw [BitVec.toNat_ofNat]; exact Nat.mod_eq_of_lt (by have := p.isLt; omega)

/-! ### The host operations, read at an index -/

/-- The words clipped into [0, 7], as the program computes them. -/
def clipv (x : IVec S16 32) : IVec S16 32 :=
  minsi (broadcastInDim S16 ![] bcast_S_S16 (constantI S_ 32 7#32)) (maxsi (broadcastInDim S16 ![] bcast_S_S16 (constantI S_ 32 0#32)) x)

/-- The argsort: the stable sort of the words carrying their positions, the positions kept. -/
def asort (x : IVec S16 32) : IVec S16 32 := (Host.sort2 S16 0 comparator_i32_i32_d0 x (iotaInDim S16 32 0)).2

/-- "Add 16 to a negative position": the index normalisation before the take. -/
def wrapv (p : IVec S16 32) : IVec S16 32 :=
  select (cmpi .slt p (broadcastInDim S16 ![] bcast_S_S16 (constantI S_ 32 0#32))) (addi p (broadcastInDim S16 ![] bcast_S_S16 (constantI S_ 32 16#32))) p

theorem clipv_apply (x : IVec S16 32) (j : S16.Idx) : clipv x j = cw (x j) := rfl

theorem wrapv_apply (p : IVec S16 32) (j : S16.Idx) :
    wrapv p j = Scalar.select (IntOp.cmpi .slt (p j) 0#32) (IntOp.addi (p j) 16#32) (p j) := rfl

/-- The two spellings of a vector's index at coordinate `k`. -/
theorem ofFin_eq_ix1 {n : Nat} (k : Fin n) : (Shape.Idx.ofFin k : (⟨1, ![n]⟩ : Shape).Idx) = ix1 k := by
  funext d; match d with | ⟨0, _⟩ => rfl

/-- On a vector, the second result of a two-operand stable sort reads the second operand through the sorting
    permutation of the pairs. -/
theorem sort2_snd_rank1 {n : Nat} {α β : Type} (cmp : α × β → α × β → BitVec 1)
    (x : (⟨1, ![n]⟩ : Shape).Idx → α) (y : (⟨1, ![n]⟩ : Shape).Idx → β) (j : (⟨1, ![n]⟩ : Shape).Idx) :
    (Host.sort2 ⟨1, ![n]⟩ 0 cmp x y).2 j
      = y (Shape.Idx.ofFin (sortedFrom (fun k k' => cmp (x (Shape.Idx.ofFin k), y (Shape.Idx.ofFin k))
            (x (Shape.Idx.ofFin k'), y (Shape.Idx.ofFin k')) == 1#1) (j 0))) := by
  unfold Host.sort2
  simp

/-- "Position k's pair sorts strictly before position k''s": the order the argsort sorts by. -/
def before (x : IVec S16 32) (k k' : Fin 16) : Bool :=
  comparator_i32_i32_d0 (x (Shape.Idx.ofFin k), iotaInDim S16 32 0 (Shape.Idx.ofFin k))
    (x (Shape.Idx.ofFin k'), iotaInDim S16 32 0 (Shape.Idx.ofFin k')) == 1#1

/-- The argsort at `j` is the position the stable sort put at `j`, as a word. -/
theorem asort_apply (x : IVec S16 32) (j : S16.Idx) :
    asort x j = BitVec.ofNat 32 (sortedFrom (before x) (j 0)).val := by
  unfold asort before
  rw [sort2_snd_rank1, StableHlo.Predicate.iota_apply]

/-- The take of a vector at its own (normalised) argsort positions reads, at `t`, the vector at the position the
    sort put at `t`: a position word is below 16, so it is not negative and the take's clamp leaves it. -/
theorem take_at (x : IVec S16 32) (t : Fin 16) :
    Host.gather gather_S16_S16x1_S16_n_0_n_n_0_1_1 x (broadcastInDim S16x1 ![0] bcast_S16_S16x1_0 (wrapv (asort x)))
        (Shape.Idx.ofFin t)
      = x (Shape.Idx.ofFin (sortedFrom (before x) t)) := by
  rw [StableHlo.Predicate.gather_take gather_S16_S16x1_S16_n_0_n_n_0_1_1 rfl rfl rfl rfl _ _ t (by decide)]
  have hb : broadcastInDim S16x1 ![0] bcast_S16_S16x1_0 (wrapv (asort x)) (StableHlo.Predicate.ixP t)
      = BitVec.ofNat 32 (sortedFrom (before x) t).val := by
    rw [StableHlo.Predicate.bcast_col1 bcast_S16_S16x1_0 (wrapv (asort x)) t, wrapv_apply, asort_apply, Shape.Idx.ofFin_zero]
    exact sel_nonneg _ (sortedFrom (before x) t).isLt
  generalize sortedFrom (before x) t = p at hb ⊢
  refine congrArg (fun q => x (Shape.Idx.ofFin q)) (Fin.ext ?_)
  show min (broadcastInDim S16x1 ![0] bcast_S16_S16x1_0 (wrapv (asort x)) (StableHlo.Predicate.ixP t)).toInt.toNat (16 - 1) = p.val
  rw [hb, StableHlo.Predicate.toInt_ofNat_small p.val (by have := p.isLt; omega), Int.toNat_natCast]
  have := p.isLt; omega

/-! ### The two tables' contents -/

/-- Table 0 is the argsort of the clipped words: the host operations before the region, composed. -/
theorem tbl0_eq : (tbl m 0 : IVec S16 32) = asort (clipv (eidx m)) := by
  unfold Gen.tbl
  show V m 0 main_v4 = _
  unfold V
  simp only [hostOps0, hostOps0_1, hostOps0_2, hostOps0_3, hostOps0_4, List.flatten_cons, List.flatten_nil, List.append_nil,
    List.cons_append, List.nil_append]
  after_results
  simp only [StableHlo.TRef.ofBuf, StableHlo.TRef.toBuf, cast_eq, id]
  rfl

/-- Table 1 is the clipped words taken at the (normalised) argsort positions. -/
theorem tbl1_eq : (tbl m 1 : IVec S16 32)
    = Host.gather gather_S16_S16x1_S16_n_0_n_n_0_1_1 (clipv (eidx m))
        (broadcastInDim S16x1 ![0] bcast_S16_S16x1_0 (wrapv (asort (clipv (eidx m))))) := by
  unfold Gen.tbl
  show V m 0 main_v11 = _
  unfold V
  simp only [hostOps0, hostOps0_1, hostOps0_2, hostOps0_3, hostOps0_4, List.flatten_cons, List.flatten_nil, List.append_nil,
    List.cons_append, List.nil_append]
  after_results
  simp only [StableHlo.TRef.ofBuf, StableHlo.TRef.toBuf, cast_eq, id]
  rfl

/-- The sequence grid point `t` works on: position `t` of the argsort of the clipped expert indices. -/
def perm (m : (ℓ : Loc nD τ sig) → Buf (Elt F) ℓ) : Fin 16 → Fin 16 := sortedFrom (before (clipv (eidx m)))

/-- Sequence `j`'s expert index clipped into 0 … 7. -/
def eclip (m : (ℓ : Loc nD τ sig) → Buf (Elt F) ℓ) : Fin 16 → Fin 8 :=
  fun j => ⟨(cw (eidx m (Shape.Idx.ofFin j))).toNat, cw_lt _⟩

/-- The argsort is a permutation of the sixteen sequences: every sequence is some grid point's. -/
theorem perm_surjective : Function.Surjective (perm m) := sortedFrom_surjective _

/-- An expert index already in range is its own clip. -/
theorem eclip_of_eq (j : Fin 16) (e : Fin 8) (h : eidx m (ix1 j) = BitVec.ofNat 32 e.val) : eclip m j = e := by
  apply Fin.ext
  show (cw (eidx m (Shape.Idx.ofFin j))).toNat = e.val
  rw [ofFin_eq_ix1, h, cw_of_lt _ e.isLt, BitVec.toNat_ofNat]
  exact Nat.mod_eq_of_lt (by have := e.isLt; omega)

theorem eclip_val (j : Fin 16) : (eclip m j).val = (cw (eidx m (Shape.Idx.ofFin j))).toNat := rfl

/-- Table 0 at `t` is the position `perm t`, as a word. -/
theorem tbl0_at (t : Fin 16) : (tbl m 0 : IVec S16 32) (Shape.Idx.ofFin t) = BitVec.ofNat 32 (perm m t).val := by
  unfold perm
  rw [tbl0_eq, asort_apply, Shape.Idx.ofFin_zero]

/-- Table 1 at `t` is the clipped expert index of sequence `perm t`. -/
theorem tbl1_at (t : Fin 16) : (tbl m 1 : IVec S16 32) (Shape.Idx.ofFin t) = cw (eidx m (Shape.Idx.ofFin (perm m t))) := by
  unfold perm
  rw [tbl1_eq]
  exact take_at (clipv (eidx m)) t

/-! ### The index maps

Each map loads one word of a table at the grid coordinate and returns it as the block index on the leading axis.
The facts are stated at ANY contents of the tables first and read at the tables' contents last. -/

/-- The one element of the unit block at offset `t` of a table is the table's position `t`. -/
theorem idx_pt (i : grid0.Coords) (h1 : 0 < S1.numel) :
    (Rect.unit (s := S16) ![(Scalar.indexCast (BitVec.ofNat 32 (i 0).val)).toNat] S1.size (k0_off1_inb i)).emb (Shape.Idx.first h1)
      = Shape.Idx.ofFin (pt i) := by
  funext a
  apply Fin.ext
  match a with
  | ⟨0, _⟩ =>
    show (BitVec.ofNat 32 (i 0).val).toNat + 1 * 0 = (i 0).val
    have h : (i 0).val < 16 := (i 0).isLt
    rw [BitVec.toNat_ofNat, Nat.mod_eq_of_lt (by omega)]; omega

/-- What a map's load of table 0, of table 1, at the grid coordinate reads. -/
theorem at0 (pf : pre0.Contents (Elt F)) (i : grid0.Coords) :
    pf.at 0 (Rect.unit (s := S16) ![(Scalar.indexCast (BitVec.ofNat 32 (i 0).val)).toNat] S1.size (k0_off1_inb i)) numel1_S1
      = (pf 0 : IVec S16 32) (Shape.Idx.ofFin (pt i)) :=
  congrArg (pf 0) (idx_pt i _)
theorem at1 (pf : pre0.Contents (Elt F)) (i : grid0.Coords) :
    pf.at 1 (Rect.unit (s := S16) ![(Scalar.indexCast (BitVec.ofNat 32 (i 0).val)).toNat] S1.size (k0_off1_inb i)) numel1_S1
      = (pf 1 : IVec S16 32) (Shape.Idx.ofFin (pt i)) :=
  congrArg (pf 1) (idx_pt i _)

theorem transform_0_at (pf : pre0.Contents (Elt F)) (i : grid0.Coords) :
    cc0_transform_0 k0_off1_inb numel1_S1 pf i = ![((pf 0 : IVec S16 32) (Shape.Idx.ofFin (pt i))).toNat, 0, 0] := by
  unfold cc0_transform_0
  exact congrArg (fun w : BitVec 32 => (![w.toNat, 0, 0] : Fin 3 → Nat)) (at0 pf i)
theorem transform_1_at (pf : pre0.Contents (Elt F)) (i : grid0.Coords) :
    cc0_transform_1 k0_off1_inb numel1_S1 pf i = ![((pf 1 : IVec S16 32) (Shape.Idx.ofFin (pt i))).toNat, 0, 0] := by
  unfold cc0_transform_1
  exact congrArg (fun w : BitVec 32 => (![w.toNat, 0, 0] : Fin 3 → Nat)) (at1 pf i)
theorem transform_2_at (pf : pre0.Contents (Elt F)) (i : grid0.Coords) :
    cc0_transform_2 k0_off1_inb numel1_S1 pf i = ![((pf 1 : IVec S16 32) (Shape.Idx.ofFin (pt i))).toNat, 0, 0] := by
  unfold cc0_transform_2
  exact congrArg (fun w : BitVec 32 => (![w.toNat, 0, 0] : Fin 3 → Nat)) (at1 pf i)
theorem transform_3_at (pf : pre0.Contents (Elt F)) (i : grid0.Coords) :
    cc0_transform_3 k0_off1_inb numel1_S1 pf i = ![((pf 1 : IVec S16 32) (Shape.Idx.ofFin (pt i))).toNat, 0, 0] := by
  unfold cc0_transform_3
  exact congrArg (fun w : BitVec 32 => (![w.toNat, 0, 0] : Fin 3 → Nat)) (at1 pf i)
theorem transform_4_at (pf : pre0.Contents (Elt F)) (i : grid0.Coords) :
    cc0_transform_4 k0_off1_inb numel1_S1 pf i = ![((pf 1 : IVec S16 32) (Shape.Idx.ofFin (pt i))).toNat, 0, 0] := by
  unfold cc0_transform_4
  exact congrArg (fun w : BitVec 32 => (![w.toNat, 0, 0] : Fin 3 → Nat)) (at1 pf i)
theorem transform_5_at (pf : pre0.Contents (Elt F)) (i : grid0.Coords) :
    cc0_transform_5 k0_off1_inb numel1_S1 pf i = ![((pf 1 : IVec S16 32) (Shape.Idx.ofFin (pt i))).toNat, 0, 0] := by
  unfold cc0_transform_5
  exact congrArg (fun w : BitVec 32 => (![w.toNat, 0, 0] : Fin 3 → Nat)) (at1 pf i)
theorem transform_6_at (pf : pre0.Contents (Elt F)) (i : grid0.Coords) :
    cc0_transform_6 k0_off1_inb numel1_S1 pf i = ![((pf 1 : IVec S16 32) (Shape.Idx.ofFin (pt i))).toNat, 0, 0] := by
  unfold cc0_transform_6
  exact congrArg (fun w : BitVec 32 => (![w.toNat, 0, 0] : Fin 3 → Nat)) (at1 pf i)
theorem transform_7_at (pf : pre0.Contents (Elt F)) (i : grid0.Coords) :
    cc0_transform_7 k0_off1_inb numel1_S1 pf i = ![((pf 0 : IVec S16 32) (Shape.Idx.ofFin (pt i))).toNat, 0, 0, 0] := by
  unfold cc0_transform_7
  exact congrArg (fun w : BitVec 32 => (![w.toNat, 0, 0, 0] : Fin 4 → Nat)) (at0 pf i)
theorem transform_8_at (pf : pre0.Contents (Elt F)) (i : grid0.Coords) :
    cc0_transform_8 k0_off1_inb numel1_S1 pf i = ![((pf 0 : IVec S16 32) (Shape.Idx.ofFin (pt i))).toNat, 0, 0] := by
  unfold cc0_transform_8
  exact congrArg (fun w : BitVec 32 => (![w.toNat, 0, 0] : Fin 3 → Nat)) (at0 pf i)

/-- The index maps at the tables' contents: the sequence-indexed windows (input rows 0, mask 7, output 8) sit at block
    `perm t`, the expert-indexed ones (weights 1 3 5, biases 2 4 6) at block `eclip (perm t)`. -/
theorem transform_0 (i : grid0.Coords) : cc0_transform_0 k0_off1_inb numel1_S1 (tbl m) i = ![(perm m (pt i)).val, 0, 0] := by
  rw [transform_0_at, tbl0_at, toNat_pos]
theorem transform_1 (i : grid0.Coords) : cc0_transform_1 k0_off1_inb numel1_S1 (tbl m) i = ![(eclip m (perm m (pt i))).val, 0, 0] := by
  rw [transform_1_at, tbl1_at, eclip_val]
theorem transform_2 (i : grid0.Coords) : cc0_transform_2 k0_off1_inb numel1_S1 (tbl m) i = ![(eclip m (perm m (pt i))).val, 0, 0] := by
  rw [transform_2_at, tbl1_at, eclip_val]
theorem transform_3 (i : grid0.Coords) : cc0_transform_3 k0_off1_inb numel1_S1 (tbl m) i = ![(eclip m (perm m (pt i))).val, 0, 0] := by
  rw [transform_3_at, tbl1_at, eclip_val]
theorem transform_4 (i : grid0.Coords) : cc0_transform_4 k0_off1_inb numel1_S1 (tbl m) i = ![(eclip m (perm m (pt i))).val, 0, 0] := by
  rw [transform_4_at, tbl1_at, eclip_val]
theorem transform_5 (i : grid0.Coords) : cc0_transform_5 k0_off1_inb numel1_S1 (tbl m) i = ![(eclip m (perm m (pt i))).val, 0, 0] := by
  rw [transform_5_at, tbl1_at, eclip_val]
theorem transform_6 (i : grid0.Coords) : cc0_transform_6 k0_off1_inb numel1_S1 (tbl m) i = ![(eclip m (perm m (pt i))).val, 0, 0] := by
  rw [transform_6_at, tbl1_at, eclip_val]
theorem transform_7 (i : grid0.Coords) : cc0_transform_7 k0_off1_inb numel1_S1 (tbl m) i = ![(perm m (pt i)).val, 0, 0, 0] := by
  rw [transform_7_at, tbl0_at, toNat_pos]
theorem transform_8 (i : grid0.Coords) : cc0_transform_8 k0_off1_inb numel1_S1 (tbl m) i = ![(perm m (pt i)).val, 0, 0] := by
  rw [transform_8_at, tbl0_at, toNat_pos]

/-! ### The blocks are inside their arrays -/

theorem inb_rows (v : Nat) (hv : v < 16) :
    ∀ a, ((![v, 0, 0] : Fin 3 → Nat) a + 1) * S1x512x768.size a ≤ S16x512x768.size a := by
  intro a; fin_cases a <;> simp [S1x512x768, S16x512x768] <;> omega
theorem inb_weight (v : Nat) (hv : v < 8) :
    ∀ a, ((![v, 0, 0] : Fin 3 → Nat) a + 1) * S1x768x768.size a ≤ S8x768x768.size a := by
  intro a; fin_cases a <;> simp [S1x768x768, S8x768x768] <;> omega
theorem inb_bias (v : Nat) (hv : v < 8) :
    ∀ a, ((![v, 0, 0] : Fin 3 → Nat) a + 1) * S1x1x768.size a ≤ S8x1x768.size a := by
  intro a; fin_cases a <;> simp [S1x1x768, S8x1x768] <;> omega
theorem inb_mask (v : Nat) (hv : v < 16) :
    ∀ a, ((![v, 0, 0, 0] : Fin 4 → Nat) a + 1) * S1x1x1x512.size a ≤ S16x1x1x512.size a := by
  intro a; fin_cases a <;> simp [S1x1x1x512, S16x1x1x512] <;> omega

/-- Every table-indexed block lies inside its array: the pipeline's side condition, whatever the input holds. -/
theorem ok : Ok m := by
  refine ⟨fun i => ⟨?_, Or.inl rfl⟩, fun i => ⟨?_, Or.inl rfl⟩, fun i => ⟨?_, Or.inl rfl⟩, fun i => ⟨?_, Or.inl rfl⟩,
    fun i => ⟨?_, Or.inl rfl⟩, fun i => ⟨?_, Or.inl rfl⟩, fun i => ⟨?_, Or.inl rfl⟩, fun i => ⟨?_, Or.inl rfl⟩,
    fun i => ⟨?_, Or.inl rfl⟩⟩
  · rw [transform_0]; exact inb_rows _ (perm m (pt i)).isLt
  · rw [transform_1]; exact inb_weight _ (eclip m (perm m (pt i))).isLt
  · rw [transform_2]; exact inb_bias _ (eclip m (perm m (pt i))).isLt
  · rw [transform_3]; exact inb_weight _ (eclip m (perm m (pt i))).isLt
  · rw [transform_4]; exact inb_bias _ (eclip m (perm m (pt i))).isLt
  · rw [transform_5]; exact inb_weight _ (eclip m (perm m (pt i))).isLt
  · rw [transform_6]; exact inb_bias _ (eclip m (perm m (pt i))).isLt
  · rw [transform_7]; exact inb_mask _ (perm m (pt i)).isLt
  · rw [transform_8]; exact inb_rows _ (perm m (pt i)).isLt

-- From here on the permutation is an opaque bijection: only the facts above are known of it.
attribute [irreducible] perm

end Cert.Kernel.Tab

end
-- ==== Proof.BodyTerm.lean ====
/-
  What one grid point of the fused attention kernel stores into its output block, as ONE pure term of the
  eight input blocks it loads: the three projections (queries, keys, values: each a 512 × 768 array kept in
  a scratch buffer), the key-position mask, and, head by head, the twelve 512 × 64 contexts read from
  64-lane column bands of those arrays and laid side by side.
-/
import proofs.«429140_j38534446579845_3_alg».proof.Proof.Gen.KernelIdeal.Skeleton
import Idealize.ShloMosaic.Lib.ValueIdx

noncomputable section

namespace Cert.KernelIdeal.Body

open Cert.KernelIdeal Cert.KernelIdeal.Gen
open Idealize.ShloMosaic Idealize.ShloMosaic.ValueIdx

variable {F : FTy → Type} [FloatOps F]

/-- Column band `h` of a 512 × 768 array: its 64 columns `64h … 64h + 63`, as a 512 × 64 array. -/
def band (h : Fin 12) (A : Vec F S512x768 .bf16) : Vec F S512x64 .bf16 :=
  fun y => A (ix2 (y 0) ⟨h.val * 64 + (y 1).val, by have := (y 1).isLt; have e : S512x64.size 1 = 64 := rfl; omega⟩)

/-- The projected queries of the point's sequence (what the body keeps in its first scratch buffer). -/
def qArr (x0 : Vec F S1x512x768 .f32) (x1 : Vec F S1x768x768 .f32) (x2 : Vec F S1x1x768 .f32) : FVec F S512x768 .bf16 :=
  k0_pay3 x0 x1 x2
/-- The projected keys (second scratch buffer). -/
def kArr (x0 : Vec F S1x512x768 .f32) (x3 : Vec F S1x768x768 .f32) (x4 : Vec F S1x1x768 .f32) : FVec F S512x768 .bf16 :=
  k0_pay4 x0 x3 x4
/-- The projected values (third scratch buffer). -/
def vArr (x0 : Vec F S1x512x768 .f32) (x5 : Vec F S1x768x768 .f32) (x6 : Vec F S1x1x768 .f32) : FVec F S512x768 .bf16 :=
  k0_pay6 (k0_pay2 x0) (k0_pay5 x5) (constant S512x768 .f32 0x00000000#32) x6

/-- The output block of one grid point as a term of its eight input blocks: sequence `x0`, query weights and
    bias `x1 x2`, key weights and bias `x3 x4`, value weights and bias `x5 x6`, mask `x7`. -/
def bodyTerm (x0 : Vec F S1x512x768 .f32) (x1 : Vec F S1x768x768 .f32) (x2 : Vec F S1x1x768 .f32)
    (x3 : Vec F S1x768x768 .f32) (x4 : Vec F S1x1x768 .f32) (x5 : Vec F S1x768x768 .f32) (x6 : Vec F S1x1x768 .f32)
    (x7 : Vec F S1x1x1x512 .f32) : FVec F S1x512x768 .f32 :=
  let Q := qArr x0 x1 x2
  let K := kArr x0 x3 x4
  let V := vArr x0 x5 x6
  let mk := k0_pay7 x7
  k0_pay1 mk
    (k0_pay8 x7 (band 0 Q) (band 0 K) (band 0 V))
    (k0_pay9 mk (band 1 Q) (band 1 K) (band 1 V))
    (k0_pay10 mk (band 2 Q) (band 2 K) (band 2 V))
    (k0_pay11 mk (band 3 Q) (band 3 K) (band 3 V))
    (k0_pay12 mk (band 4 Q) (band 4 K) (band 4 V))
    (k0_pay13 mk (band 5 Q) (band 5 K) (band 5 V))
    (k0_pay14 mk (band 6 Q) (band 6 K) (band 6 V))
    (k0_pay15 mk (band 7 Q) (band 7 K) (band 7 V))
    (k0_pay17 (band 8 V) (k0_pay16 mk (band 8 Q) (band 8 K)) (constant S512x64 .f32 0x00000000#32))
    (k0_pay18 mk (band 9 Q) (band 9 K) (band 9 V))
    (band 10 V) (k0_pay19 mk (band 10 Q) (band 10 K))
    (band 11 Q) (band 11 K) (band 11 V)

end Cert.KernelIdeal.Body

end
-- ==== Proof.BodyPieces.lean ====
/-
  The output block a grid point's body leaves is the term `Body.bodyTerm` of the point's input blocks: the
  body stores each projection whole into its scratch buffer and later reads it back one 64-lane column band
  at a time, so each band read is that band of the stored projection, and the one store into the output block
  covers it.
-/
import proofs.«429140_j38534446579845_3_alg».proof.Proof.Gen.KernelIdeal.Frame
import proofs.«429140_j38534446579845_3_alg».proof.Proof.BodyTerm
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.ValueIdx Idealize.SL.Sem

variable {F : FTy → Type} [FloatOps F]

/-- The all-zero offsets of a rank-2, rank-3 and rank-4 block, spelt as the constant function. -/
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A 512 × 64 rectangle at column offset `64h`, read from a buffer whose one whole-array store left `A`,
    is column band `h` of `A`: the rectangle's index `(r, l)` sits at `(0 + r, 64h + l)` of the array. -/
theorem readCov_band {sig : RefSig} {κ : Kind} {sp : Space} (v : View sig κ sp S512x768 .bf16) (h : Fin 12)
    {off0 off : Fin 2 → Nat} (h0 : off0 = fun _ => 0) (hoff : off = ![0, h.val * 64])
    (inb0 : ∀ a, off0 a + S512x768.size a ≤ S512x768.size a) (inb : ∀ a, off a + S512x64.size a ≤ S512x768.size a)
    (A : Vec F S512x768 .bf16) :
    v.readCov [(⟨Rect.unit off0 S512x768.size inb0, A⟩ : View.Piece (Elt F) S512x768 .bf16)]
      (Rect.unit (s := S512x768) off S512x64.size inb).toLoadRect = band h A := by
  subst hoff
  rw [View.readCov_eq_canon', View.canon_unit_zero h0]
  funext y
  unfold band
  congr 1
  funext a
  match a with
  | ⟨0, _⟩ => apply Fin.ext; show 0 + 1 * (y 0).val = (y 0).val; omega
  | ⟨1, _⟩ => apply Fin.ext; show h.val * 64 + 1 * (y 1).val = h.val * 64 + (y 1).val; omega

/-- The output block is the body's term: its one covering store's payload, in which each input block is read whole
    and each 64-lane band read of a scratch buffer is that band of the projection stored there. -/
theorem out_eq_bodyTerm (c : Dev nD) (i : grid0.Coords) (arg3 : Memref sig .tc .vmem S1x512x768 .f32) (harg3 : arg3.IsWhole) (arg4 : Memref sig .tc .vmem S1x768x768 .f32) (harg4 : arg4.IsWhole) (arg5 : Memref sig .tc .vmem S1x1x768 .f32) (harg5 : arg5.IsWhole) (arg6 : Memref sig .tc .vmem S1x768x768 .f32) (harg6 : arg6.IsWhole) (arg7 : Memref sig .tc .vmem S1x1x768 .f32) (harg7 : arg7.IsWhole) (arg8 : Memref sig .tc .vmem S1x768x768 .f32) (harg8 : arg8.IsWhole) (arg9 : Memref sig .tc .vmem S1x1x768 .f32) (harg9 : arg9.IsWhole) (arg10 : Memref sig .tc .vmem S1x1x1x512 .f32) (harg10 : arg10.IsWhole) (arg11 : Memref sig .tc .vmem S1x512x768 .f32) (harg11 : arg11.IsWhole) (arg12 : Memref sig .tc .vmem S512x768 .bf16) (harg12 : arg12.IsWhole) (arg13 : Memref sig .tc .vmem S512x768 .bf16) (harg13 : arg13.IsWhole) (arg14 : Memref sig .tc .vmem S512x768 .bf16) (harg14 : arg14.IsWhole)
    (x0 : Vec F S1x512x768 .f32) (x1 : Vec F S1x768x768 .f32) (x2 : Vec F S1x1x768 .f32) (x3 : Vec F S1x768x768 .f32) (x4 : Vec F S1x1x768 .f32) (x5 : Vec F S1x768x768 .f32) (x6 : Vec F S1x1x768 .f32) (x7 : Vec F S1x1x1x512 .f32) (xt0 : TbBuf0 (F := F) c tbM0_0) (xt1 : TbBuf0 (F := F) c tbM0_1) :
    out0_A_8 c i arg3 harg3 arg4 harg4 arg5 harg5 arg6 harg6 arg7 harg7 arg8 harg8 arg9 harg9 arg10 harg10 arg11 harg11 arg12 harg12 arg13 harg13 arg14 harg14 x0 x1 x2 x3 x4 x5 x6 x7 xt0 xt1 = bodyTerm x0 x1 x2 x3 x4 x5 x6 x7 := by
  unfold out0_A_8
  rw [View.read_writes_eq_canon _ _ _ (cover0_A_8 c i arg3 harg3 arg4 harg4 arg5 harg5 arg6 harg6 arg7 harg7 arg8 harg8 arg9 harg9 arg10 harg10 arg11 harg11 arg12 harg12 arg13 harg13 arg14 harg14 x0 x1 x2 x3 x4 x5 x6 x7 xt0 xt1)]
  unfold kernelRun0_A
  dsimp only
  sl_unfold_words
  rw [View.canon_unit_zero hz3]
  simp only [View.readAt_eq_ld, harg3.read_unread, harg4.read_unread, harg5.read_unread, harg6.read_unread,
    harg7.read_unread, harg8.read_unread, harg9.read_unread, harg10.read_unread,
    View.ld_unit_zero (S := S1x512x768) hz3, View.ld_unit_zero (S := S1x768x768) hz3,
    View.ld_unit_zero (S := S1x1x768) hz3, View.ld_unit_zero (S := S1x1x1x512) hz4,
    readCov_band (F := F) (off := ![0, 0]) _ (0 : Fin 12) hz2 rfl,
    readCov_band (F := F) (off := ![0, 64]) _ (1 : Fin 12) hz2 rfl,
    readCov_band (F := F) (off := ![0, 128]) _ (2 : Fin 12) hz2 rfl,
    readCov_band (F := F) (off := ![0, 192]) _ (3 : Fin 12) hz2 rfl,
    readCov_band (F := F) (off := ![0, 256]) _ (4 : Fin 12) hz2 rfl,
    readCov_band (F := F) (off := ![0, 320]) _ (5 : Fin 12) hz2 rfl,
    readCov_band (F := F) (off := ![0, 384]) _ (6 : Fin 12) hz2 rfl,
    readCov_band (F := F) (off := ![0, 448]) _ (7 : Fin 12) hz2 rfl,
    readCov_band (F := F) (off := ![0, 512]) _ (8 : Fin 12) hz2 rfl,
    readCov_band (F := F) (off := ![0, 576]) _ (9 : Fin 12) hz2 rfl,
    readCov_band (F := F) (off := ![0, 640]) _ (10 : Fin 12) hz2 rfl,
    readCov_band (F := F) (off := ![0, 704]) _ (11 : Fin 12) hz2 rfl]
  rfl

end Cert.KernelIdeal.Body

end
-- ==== Proof.BodyMath.lean ====
/-
  At the exact values the body's term is attention on the point's sequence: entry (s, o) of the output block is
  `Attn.batch` of the sequence rows, the mask row and the three weight matrices and biases, at row s and column o.
-/
import proofs.«429140_j38534446579845_3_alg».proof.Proof.BodyTerm
import proofs.«429140_j38534446579845_3_alg».proof.Proof.AttnSpec
import Idealize.ShloMosaic.PureOps.Ideal.Laws
import Idealize.ShloMosaic.Lib.Pipeline.Value
import Idealize.ShloMosaic.Lib.ValueLayout

set_option maxRecDepth 16384

noncomputable section

namespace Cert.KernelIdeal.Body

open Cert.KernelIdeal Cert.KernelIdeal.Gen
open Idealize.ShloMosaic Idealize.ShloMosaic.ValueIdx

open scoped BigOperators

/-! ### The three contractions, read at an index -/

theorem lhs_qk_0 (i : S512x512.Idx) (c : dot_S512x64_S512x64_S512x512_1_1_0_0_n_n.contr.Idx) :
    (dot_S512x64_S512x64_S512x512_1_1_0_0_n_n.lhsIdx i c 0).val = (i 0).val := by
  unfold DotDims.lhsIdx
  rw [dif_neg (show ¬(0 : Fin S512x64.rank) ∈ dot_S512x64_S512x64_S512x512_1_1_0_0_n_n.lhsBatch by decide), dif_pos (show (0 : Fin S512x64.rank) ∈ dot_S512x64_S512x64_S512x512_1_1_0_0_n_n.lhsNonContracting by decide)]
  rfl
theorem lhs_qk_1 (i : S512x512.Idx) (c : dot_S512x64_S512x64_S512x512_1_1_0_0_n_n.contr.Idx) :
    (dot_S512x64_S512x64_S512x512_1_1_0_0_n_n.lhsIdx i c 1).val = (c ⟨0, by decide⟩).val :=
  dot_S512x64_S512x64_S512x512_1_1_0_0_n_n.lhsIdx_val_of_single rfl i c
theorem rhs_qk_0 (i : S512x512.Idx) (c : dot_S512x64_S512x64_S512x512_1_1_0_0_n_n.contr.Idx) :
    (dot_S512x64_S512x64_S512x512_1_1_0_0_n_n.rhsIdx i c 0).val = (i 1).val := by
  unfold DotDims.rhsIdx
  rw [dif_neg (show ¬(0 : Fin S512x64.rank) ∈ dot_S512x64_S512x64_S512x512_1_1_0_0_n_n.rhsBatch by decide), dif_pos (show (0 : Fin S512x64.rank) ∈ dot_S512x64_S512x64_S512x512_1_1_0_0_n_n.rhsNonContracting by decide)]
  rfl
theorem rhs_qk_1 (i : S512x512.Idx) (c : dot_S512x64_S512x64_S512x512_1_1_0_0_n_n.contr.Idx) :
    (dot_S512x64_S512x64_S512x512_1_1_0_0_n_n.rhsIdx i c 1).val = (c ⟨0, by decide⟩).val :=
  dot_S512x64_S512x64_S512x512_1_1_0_0_n_n.rhsIdx_val_of_single rfl i c

/-- The query-key contraction: entry (i, j) is the dot product of row i of the left operand with row j of the right
    operand over the 64 lanes. -/
theorem matmul_qk_apply (q k : FVec Ideal S512x64 .bf16) (i j : Fin 512) :
    matmul (F := Ideal) dot_S512x64_S512x64_S512x512_1_1_0_0_n_n none q k (constant (F := Ideal) S512x512 .f32 0x00000000#32) (ix2 i j)
      = ∑ d : Fin 64, q (ix2 i d) * k (ix2 j d) := by
  simp only [matmul]
  rw [Ideal.matmul_constant_zero_apply, ← Equiv.sum_comp (ValueIdx.contrEquiv1 dot_S512x64_S512x64_S512x512_1_1_0_0_n_n 64 rfl rfl).symm]
  refine Finset.sum_congr rfl fun d _ => ?_
  have hd := ValueIdx.contrEquiv1_symm_val dot_S512x64_S512x64_S512x512_1_1_0_0_n_n 64 rfl rfl d
  have el : dot_S512x64_S512x64_S512x512_1_1_0_0_n_n.lhsIdx (ix2 i j) ((ValueIdx.contrEquiv1 dot_S512x64_S512x64_S512x512_1_1_0_0_n_n 64 rfl rfl).symm d) = ix2 i d := funext fun a => Fin.ext (by
    match a with
    | ⟨0, _⟩ => exact lhs_qk_0 _ _
    | ⟨1, _⟩ => exact (lhs_qk_1 _ _).trans hd)
  have er : dot_S512x64_S512x64_S512x512_1_1_0_0_n_n.rhsIdx (ix2 i j) ((ValueIdx.contrEquiv1 dot_S512x64_S512x64_S512x512_1_1_0_0_n_n 64 rfl rfl).symm d) = ix2 j d := funext fun a => Fin.ext (by
    match a with
    | ⟨0, _⟩ => exact rhs_qk_0 _ _
    | ⟨1, _⟩ => exact (rhs_qk_1 _ _).trans hd)
  rw [el, er]

theorem lhs_wv_0 (i : S512x64.Idx) (c : dot_S512x512_S512x64_S512x64_1_0_0_1_n_n.contr.Idx) :
    (dot_S512x512_S512x64_S512x64_1_0_0_1_n_n.lhsIdx i c 0).val = (i 0).val := by
  unfold DotDims.lhsIdx
  rw [dif_neg (show ¬(0 : Fin S512x512.rank) ∈ dot_S512x512_S512x64_S512x64_1_0_0_1_n_n.lhsBatch by decide), dif_pos (show (0 : Fin S512x512.rank) ∈ dot_S512x512_S512x64_S512x64_1_0_0_1_n_n.lhsNonContracting by decide)]
  rfl
theorem lhs_wv_1 (i : S512x64.Idx) (c : dot_S512x512_S512x64_S512x64_1_0_0_1_n_n.contr.Idx) :
    (dot_S512x512_S512x64_S512x64_1_0_0_1_n_n.lhsIdx i c 1).val = (c ⟨0, by decide⟩).val :=
  dot_S512x512_S512x64_S512x64_1_0_0_1_n_n.lhsIdx_val_of_single rfl i c
theorem rhs_wv_0 (i : S512x64.Idx) (c : dot_S512x512_S512x64_S512x64_1_0_0_1_n_n.contr.Idx) :
    (dot_S512x512_S512x64_S512x64_1_0_0_1_n_n.rhsIdx i c 0).val = (c ⟨0, by decide⟩).val :=
  dot_S512x512_S512x64_S512x64_1_0_0_1_n_n.rhsIdx_val_of_single rfl i c
theorem rhs_wv_1 (i : S512x64.Idx) (c : dot_S512x512_S512x64_S512x64_1_0_0_1_n_n.contr.Idx) :
    (dot_S512x512_S512x64_S512x64_1_0_0_1_n_n.rhsIdx i c 1).val = (i 1).val := by
  unfold DotDims.rhsIdx
  rw [dif_neg (show ¬(1 : Fin S512x64.rank) ∈ dot_S512x512_S512x64_S512x64_1_0_0_1_n_n.rhsBatch by decide), dif_pos (show (1 : Fin S512x64.rank) ∈ dot_S512x512_S512x64_S512x64_1_0_0_1_n_n.rhsNonContracting by decide)]
  rfl

/-- The weights-values contraction: entry (i, d) is the sum over the 512 key rows j of weight (i, j) times value (j, d). -/
theorem matmul_wv_apply (w : FVec Ideal S512x512 .bf16) (v : FVec Ideal S512x64 .bf16) (i : Fin 512) (d : Fin 64) :
    matmul (F := Ideal) dot_S512x512_S512x64_S512x64_1_0_0_1_n_n none w v (constant (F := Ideal) S512x64 .f32 0x00000000#32) (ix2 i d)
      = ∑ j : Fin 512, w (ix2 i j) * v (ix2 j d) := by
  simp only [matmul]
  rw [Ideal.matmul_constant_zero_apply, ← Equiv.sum_comp (ValueIdx.contrEquiv1 dot_S512x512_S512x64_S512x64_1_0_0_1_n_n 512 rfl rfl).symm]
  refine Finset.sum_congr rfl fun j _ => ?_
  have hj := ValueIdx.contrEquiv1_symm_val dot_S512x512_S512x64_S512x64_1_0_0_1_n_n 512 rfl rfl j
  have el : dot_S512x512_S512x64_S512x64_1_0_0_1_n_n.lhsIdx (ix2 i d) ((ValueIdx.contrEquiv1 dot_S512x512_S512x64_S512x64_1_0_0_1_n_n 512 rfl rfl).symm j) = ix2 i j := funext fun a => Fin.ext (by
    match a with
    | ⟨0, _⟩ => exact lhs_wv_0 _ _
    | ⟨1, _⟩ => exact (lhs_wv_1 _ _).trans hj)
  have er : dot_S512x512_S512x64_S512x64_1_0_0_1_n_n.rhsIdx (ix2 i d) ((ValueIdx.contrEquiv1 dot_S512x512_S512x64_S512x64_1_0_0_1_n_n 512 rfl rfl).symm j) = ix2 j d := funext fun a => Fin.ext (by
    match a with
    | ⟨0, _⟩ => exact (rhs_wv_0 _ _).trans hj
    | ⟨1, _⟩ => exact rhs_wv_1 _ _)
  rw [el, er]

theorem lhs_pj_0 (i : S512x768.Idx) (c : dot_S512x768_S768x768_S512x768_1_1_0_0_n_n.contr.Idx) :
    (dot_S512x768_S768x768_S512x768_1_1_0_0_n_n.lhsIdx i c 0).val = (i 0).val := by
  unfold DotDims.lhsIdx
  rw [dif_neg (show ¬(0 : Fin S512x768.rank) ∈ dot_S512x768_S768x768_S512x768_1_1_0_0_n_n.lhsBatch by decide), dif_pos (show (0 : Fin S512x768.rank) ∈ dot_S512x768_S768x768_S512x768_1_1_0_0_n_n.lhsNonContracting by decide)]
  rfl
theorem lhs_pj_1 (i : S512x768.Idx) (c : dot_S512x768_S768x768_S512x768_1_1_0_0_n_n.contr.Idx) :
    (dot_S512x768_S768x768_S512x768_1_1_0_0_n_n.lhsIdx i c 1).val = (c ⟨0, by decide⟩).val :=
  dot_S512x768_S768x768_S512x768_1_1_0_0_n_n.lhsIdx_val_of_single rfl i c
theorem rhs_pj_0 (i : S512x768.Idx) (c : dot_S512x768_S768x768_S512x768_1_1_0_0_n_n.contr.Idx) :
    (dot_S512x768_S768x768_S512x768_1_1_0_0_n_n.rhsIdx i c 0).val = (i 1).val := by
  unfold DotDims.rhsIdx
  rw [dif_neg (show ¬(0 : Fin S768x768.rank) ∈ dot_S512x768_S768x768_S512x768_1_1_0_0_n_n.rhsBatch by decide), dif_pos (show (0 : Fin S768x768.rank) ∈ dot_S512x768_S768x768_S512x768_1_1_0_0_n_n.rhsNonContracting by decide)]
  rfl
theorem rhs_pj_1 (i : S512x768.Idx) (c : dot_S512x768_S768x768_S512x768_1_1_0_0_n_n.contr.Idx) :
    (dot_S512x768_S768x768_S512x768_1_1_0_0_n_n.rhsIdx i c 1).val = (c ⟨0, by decide⟩).val :=
  dot_S512x768_S768x768_S512x768_1_1_0_0_n_n.rhsIdx_val_of_single rfl i c

/-- The projection's contraction: entry (s, o) is the dot product of row s of the sequence with row o of the weights
    over the 768 input columns. -/
theorem matmul_pj_apply (x : FVec Ideal S512x768 .bf16) (w : FVec Ideal S768x768 .bf16) (s : Fin 512) (o : Fin 768) :
    matmul (F := Ideal) dot_S512x768_S768x768_S512x768_1_1_0_0_n_n none x w (constant (F := Ideal) S512x768 .f32 0x00000000#32) (ix2 s o)
      = ∑ d : Fin 768, x (ix2 s d) * w (ix2 o d) := by
  simp only [matmul]
  rw [Ideal.matmul_constant_zero_apply, ← Equiv.sum_comp (ValueIdx.contrEquiv1 dot_S512x768_S768x768_S512x768_1_1_0_0_n_n 768 rfl rfl).symm]
  refine Finset.sum_congr rfl fun d _ => ?_
  have hd := ValueIdx.contrEquiv1_symm_val dot_S512x768_S768x768_S512x768_1_1_0_0_n_n 768 rfl rfl d
  have el : dot_S512x768_S768x768_S512x768_1_1_0_0_n_n.lhsIdx (ix2 s o) ((ValueIdx.contrEquiv1 dot_S512x768_S768x768_S512x768_1_1_0_0_n_n 768 rfl rfl).symm d) = ix2 s d := funext fun a => Fin.ext (by
    match a with
    | ⟨0, _⟩ => exact lhs_pj_0 _ _
    | ⟨1, _⟩ => exact (lhs_pj_1 _ _).trans hd)
  have er : dot_S512x768_S768x768_S512x768_1_1_0_0_n_n.rhsIdx (ix2 s o) ((ValueIdx.contrEquiv1 dot_S512x768_S768x768_S512x768_1_1_0_0_n_n 768 rfl rfl).symm d) = ix2 o d := funext fun a => Fin.ext (by
    match a with
    | ⟨0, _⟩ => exact rhs_pj_0 _ _
    | ⟨1, _⟩ => exact (rhs_pj_1 _ _).trans hd)
  rw [el, er]

/-! ### Constants -/

/-- The pattern 0x3E000000 is the real 1/8. -/
theorem ofBits_eighth : Ideal.ofBits .f32 0x3E000000#32 = (((1 / 8 : ℝ) : ℝ) : EReal) := by
  simp [Ideal.ofBits, Ideal.ieee, -EReal.coe_mul]; norm_num

/-- The pattern 0xFF800000 is −∞. -/
theorem ofBits_negInf : Ideal.ofBits .f32 0xFF800000#32 = ⊥ := by
  simp [Ideal.ofBits, Ideal.ieee]

/-! ### Rows and columns broadcast over a matrix -/

section Layout
variable {α : Type}

/-- A length-b vector viewed as one row and repeated over a rows reads, at (p, c), the vector at c. -/
theorem rowBcast_apply {a b : ℕ} (x : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ x h1) h2 (ix2 p c) = x (ix1 c) :=
  (broadcastTo_1b_ab_apply _ h2 p c).trans (shapeCast_a_1a_apply x h1 0 c)

/-- A length-a vector viewed as one column reads, at (i, 0), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column repeated over b columns reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A length-a vector viewed as one column and repeated over b columns reads, at (p, c), the vector at p. -/
theorem colBcast_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

end Layout

/-! ### The two reductions along a row of 512 -/

/-- The row of a 512 × 512 matrix reached by inserting the column into a row index. -/
theorem lift_row (i j : Fin 512) : reduces_S512x512_S512.lift (ix1 i) j = ix2 i j :=
  funext fun a => Fin.ext (by
    match a with
    | ⟨0, _⟩ => rfl
    | ⟨1, _⟩ => rfl)

/-- The maximum reduction along axis 1, from −∞, is the row maximum. -/
theorem rowMax_apply (x : FVec Ideal S512x512 .f32) (i : Fin 512) :
    multiReduction (F := Ideal) .maximumf [1] S512 x 0xFF800000#32 reduces_S512x512_S512 (.inl rfl) rfl (ix1 i)
      = Cert.Attn.rowmax (fun j => x (ix2 i j)) := by
  refine (Ideal.multiReduction_maximumf_single x 0xFF800000#32 reduces_S512x512_S512 (.inl rfl) rfl (ix1 i)).trans ?_
  show (Finset.univ : Finset (Fin 512)).fold max (Ideal.ofBits .f32 0xFF800000#32) (fun j : Fin 512 => x (reduces_S512x512_S512.lift (ix1 i) j)) = _
  rw [ofBits_negInf]
  simp only [lift_row]
  rfl

/-- The sum reduction along axis 1 is the row sum. -/
theorem rowSum_apply (x : FVec Ideal S512x512 .f32) (i : Fin 512) :
    multiReduction (F := Ideal) .add [1] S512 x 0x00000000#32 reduces_S512x512_S512 (.inl rfl) rfl (ix1 i)
      = ∑ j : Fin 512, x (ix2 i j) := by
  refine (Ideal.multiReduction_add_single x 0x00000000#32 reduces_S512x512_S512 (.inl rfl) rfl (ix1 i)).trans ?_
  show ∑ j : Fin 512, x (reduces_S512x512_S512.lift (ix1 i) j) = _
  simp only [lift_row]

/-! ### One head as a term: scores, shifted softmax, context -/

section Terms
variable {F : FTy → Type} [FloatOps F]

/-- The score matrix of one head: the query-key contraction over the 64 lanes, times 1/8, plus the mask row repeated
    over the query rows. -/
def scoreMat (mk : FVec F S512 .f32) (q k : Vec F S512x64 .bf16) : FVec F S512x512 .f32 :=
  addf (mulf (matmul dot_S512x64_S512x64_S512x512_1_1_0_0_n_n none q k (constant S512x512 .f32 0x00000000#32))
      (broadcast S512x512 (Scalar.ofBits .f32 0x3E000000#32)))
    (broadcastTo S512x512 (shapeCast S1x512 mk shapeCasts_S512_S1x512) broadcasts_S1x512_S512x512)

/-- The exponentials of a matrix's entries, each row shifted by its maximum. -/
def expMat (s : FVec F S512x512 .f32) : FVec F S512x512 .f32 :=
  exp (subf s (broadcastTo S512x512
    (shapeCast S512x1 (multiReduction .maximumf [1] S512 s 0xFF800000#32 reduces_S512x512_S512 (.inl rfl) rfl) shapeCasts_S512_S512x1)
    broadcasts_S512x1_S512x512))

/-- The shifted softmax along each row: the exponentials over their row sum. -/
def softmaxMat (s : FVec F S512x512 .f32) : FVec F S512x512 .f32 :=
  divf (expMat s) (broadcastTo S512x512
    (shapeCast S512x1 (multiReduction .add [1] S512 (expMat s) 0x00000000#32 reduces_S512x512_S512 (.inl rfl) rfl) shapeCasts_S512_S512x1)
    broadcasts_S512x1_S512x512)

/-- The context of one head: the weights-values contraction over the 512 key rows. -/
def ctxMat (w : FVec F S512x512 .f32) (v : Vec F S512x64 .bf16) : FVec F S512x64 .f32 :=
  matmul dot_S512x512_S512x64_S512x64_1_0_0_1_n_n none (truncf .bf16 w bitsLt_bf16_f32) v (constant S512x64 .f32 0x00000000#32)

/-- One head: scores, softmax, context. -/
def headTerm (mk : FVec F S512 .f32) (q k v : Vec F S512x64 .bf16) : FVec F S512x64 .f32 :=
  ctxMat (softmaxMat (scoreMat mk q k)) v

theorem pay8_eq (x7 : Vec F S1x1x1x512 .f32) (q k v : Vec F S512x64 .bf16) : k0_pay8 x7 q k v = headTerm (k0_pay7 x7) q k v := rfl
theorem pay9_eq (mk : FVec F S512 .f32) (q k v : Vec F S512x64 .bf16) : k0_pay9 mk q k v = headTerm mk q k v := rfl
theorem pay10_eq (mk : FVec F S512 .f32) (q k v : Vec F S512x64 .bf16) : k0_pay10 mk q k v = headTerm mk q k v := rfl
theorem pay11_eq (mk : FVec F S512 .f32) (q k v : Vec F S512x64 .bf16) : k0_pay11 mk q k v = headTerm mk q k v := rfl
theorem pay12_eq (mk : FVec F S512 .f32) (q k v : Vec F S512x64 .bf16) : k0_pay12 mk q k v = headTerm mk q k v := rfl
theorem pay13_eq (mk : FVec F S512 .f32) (q k v : Vec F S512x64 .bf16) : k0_pay13 mk q k v = headTerm mk q k v := rfl
theorem pay14_eq (mk : FVec F S512 .f32) (q k v : Vec F S512x64 .bf16) : k0_pay14 mk q k v = headTerm mk q k v := rfl
theorem pay15_eq (mk : FVec F S512 .f32) (q k v : Vec F S512x64 .bf16) : k0_pay15 mk q k v = headTerm mk q k v := rfl
theorem pay18_eq (mk : FVec F S512 .f32) (q k v : Vec F S512x64 .bf16) : k0_pay18 mk q k v = headTerm mk q k v := rfl
theorem pay17_eq (mk : FVec F S512 .f32) (q k v : Vec F S512x64 .bf16) :
    k0_pay17 v (k0_pay16 mk q k) (constant S512x64 .f32 0x00000000#32) = headTerm mk q k v := rfl
theorem pay19_eq (mk : FVec F S512 .f32) (q k : Vec F S512x64 .bf16) : k0_pay19 mk q k = softmaxMat (scoreMat mk q k) := rfl

/-- The output block as the twelve heads' contexts laid side by side. -/
theorem pay1_eq (mk : FVec F S512 .f32) (c0 c1 c2 c3 c4 c5 c6 c7 c8 c9 : FVec F S512x64 .f32) (v10 : Vec F S512x64 .bf16)
    (w10 : FVec F S512x512 .f32) (q11 k11 v11 : Vec F S512x64 .bf16) :
    k0_pay1 mk c0 c1 c2 c3 c4 c5 c6 c7 c8 c9 v10 w10 q11 k11 v11
      = shapeCast S1x512x768 (concatenate S512x768 1 [⟨S512x64, c0⟩, ⟨S512x64, c1⟩, ⟨S512x64, c2⟩, ⟨S512x64, c3⟩, ⟨S512x64, c4⟩,
          ⟨S512x64, c5⟩, ⟨S512x64, c6⟩, ⟨S512x64, c7⟩, ⟨S512x64, c8⟩, ⟨S512x64, c9⟩, ⟨S512x64, ctxMat w10 v10⟩,
          ⟨S512x64, headTerm mk q11 k11 v11⟩]
          concatenates_S512x64_S512x64_S512x64_S512x64_S512x64_S512x64_S512x64_S512x64_S512x64_S512x64_S512x64_S512x64_S512x768_d1)
        shapeCasts_S512x768_S1x512x768 := rfl

end Terms

/-! ### One head at an index -/

theorem scoreMat_apply (mk : FVec Ideal S512 .f32) (q k : FVec Ideal S512x64 .bf16) (i j : Fin 512) :
    scoreMat (F := Ideal) mk q k (ix2 i j)
      = (∑ d : Fin 64, q (ix2 i d) * k (ix2 j d)) * (((1 / 8 : ℝ) : ℝ) : EReal) + mk (ix1 j) := by
  unfold scoreMat
  rw [addf_apply, mulf_apply, matmul_qk_apply, rowBcast_apply, broadcast_apply]
  show _ * Ideal.ofBits .f32 0x3E000000#32 + _ = _
  rw [ofBits_eighth]

theorem expMat_apply (s : FVec Ideal S512x512 .f32) (i j : Fin 512) :
    expMat (F := Ideal) s (ix2 i j) = Ideal.exp (s (ix2 i j) - Cert.Attn.rowmax (fun j' => s (ix2 i j'))) := by
  unfold expMat
  show Ideal.exp (subf s _ (ix2 i j)) = _
  rw [subf_apply, colBcast_apply, rowMax_apply]

/-- The softmax matrix's row i is the shifted softmax of the score matrix's row i. -/
theorem softmaxMat_apply (s : FVec Ideal S512x512 .f32) (i j : Fin 512) :
    softmaxMat (F := Ideal) s (ix2 i j) = Cert.Attn.weight (fun j' => s (ix2 i j')) j := by
  unfold softmaxMat Cert.Attn.weight
  rw [divf_apply, colBcast_apply, rowSum_apply]
  simp only [expMat_apply]

theorem ctxMat_apply (w : FVec Ideal S512x512 .f32) (v : FVec Ideal S512x64 .bf16) (i : Fin 512) (d : Fin 64) :
    ctxMat (F := Ideal) w v (ix2 i d) = ∑ j : Fin 512, w (ix2 i j) * v (ix2 j d) := by
  unfold ctxMat
  rw [matmul_wv_apply]
  simp only [truncf_apply]

/-- One head at (i, d): the value rows averaged by the softmax of row i of the scores. -/
theorem headTerm_apply (mk : FVec Ideal S512 .f32) (q k v : FVec Ideal S512x64 .bf16) (i : Fin 512) (d : Fin 64) :
    headTerm (F := Ideal) mk q k v (ix2 i d)
      = ∑ j : Fin 512, Cert.Attn.weight
          (fun j' => (∑ d' : Fin 64, q (ix2 i d') * k (ix2 j' d')) * (((1 / 8 : ℝ) : ℝ) : EReal) + mk (ix1 j')) j * v (ix2 j d) := by
  unfold headTerm
  rw [ctxMat_apply]
  simp only [softmaxMat_apply, scoreMat_apply]

/-! ### The projections and the mask row at an index -/

section Layout2
variable {α : Type}

/-- A [1, 1, a] array viewed as a length-a vector reads, at i, the array at (0, 0, i). -/
theorem shapeCast_11a_a_apply {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-- A [1, 1, 1, a] array viewed as a length-a vector reads, at i, the array at (0, 0, 0, i). -/
theorem shapeCast_111a_a_apply {a : ℕ} (x : (⟨4, ![1, 1, 1, a]⟩ : Shape).Idx → α) (h : (⟨4, ![1, 1, 1, a]⟩ : Shape).ShapeCasts ⟨1, ![a]⟩)
    (i : Fin a) : shapeCast ⟨1, ![a]⟩ x h (ix1 i) = x (ix4 (0 : Fin 1) (0 : Fin 1) (0 : Fin 1) i) :=
  shapeCast_apply x h _ _ (by
    rw [Shape.rowMajor_val_four, Shape.rowMajor_val_one]
    show ((0 * 1 + 0) * 1 + 0) * a + i.val = i.val
    simp only [Nat.zero_mul, Nat.zero_add])

end Layout2

section ProjTerm
variable {F : FTy → Type} [FloatOps F]

/-- A projection as a term: the contraction of the sequence with the weights over the input columns, plus the bias row
    repeated over the sequence rows. -/
def projTerm (x : FVec F S512x768 .bf16) (w : FVec F S768x768 .bf16) (b : Vec F S1x1x768 .f32) : FVec F S512x768 .bf16 :=
  shapeCast S512x768
    (truncf .bf16 (addf (matmul dot_S512x768_S768x768_S512x768_1_1_0_0_n_n none x w (constant S512x768 .f32 0x00000000#32))
      (broadcastTo S512x768 (shapeCast S1x768 (shapeCast S768 b shapeCasts_S1x1x768_S768) shapeCasts_S768_S1x768) broadcasts_S1x768_S512x768))
      bitsLt_bf16_f32)
    shapeCasts_S512x768_S512x768

theorem qArr_eq (x0 : Vec F S1x512x768 .f32) (x1 : Vec F S1x768x768 .f32) (x2 : Vec F S1x1x768 .f32) :
    qArr x0 x1 x2 = projTerm (k0_pay2 x0) (k0_pay5 x1) x2 := rfl
theorem kArr_eq (x0 : Vec F S1x512x768 .f32) (x3 : Vec F S1x768x768 .f32) (x4 : Vec F S1x1x768 .f32) :
    kArr x0 x3 x4 = projTerm (k0_pay2 x0) (k0_pay5 x3) x4 := rfl
theorem vArr_eq (x0 : Vec F S1x512x768 .f32) (x5 : Vec F S1x768x768 .f32) (x6 : Vec F S1x1x768 .f32) :
    vArr x0 x5 x6 = projTerm (k0_pay2 x0) (k0_pay5 x5) x6 := rfl

end ProjTerm

theorem pay2_apply (x0 : FVec Ideal S1x512x768 .f32) (s : Fin 512) (d : Fin 768) :
    k0_pay2 (F := Ideal) x0 (ix2 s d) = x0 (ix3 (0 : Fin 1) s d) := by
  unfold k0_pay2
  exact shapeCast_1ab_ab_apply x0 shapeCasts_S1x512x768_S512x768 s d

theorem pay5_apply (x : FVec Ideal S1x768x768 .f32) (o d : Fin 768) :
    k0_pay5 (F := Ideal) x (ix2 o d) = x (ix3 (0 : Fin 1) o d) := by
  unfold k0_pay5
  exact shapeCast_1ab_ab_apply x shapeCasts_S1x768x768_S768x768 o d

theorem pay7_apply (x7 : FVec Ideal S1x1x1x512 .f32) (j : Fin 512) :
    k0_pay7 (F := Ideal) x7 (ix1 j) = x7 (ix4 (0 : Fin 1) (0 : Fin 1) (0 : Fin 1) j) := by
  unfold k0_pay7
  exact shapeCast_111a_a_apply x7 shapeCasts_S1x1x1x512_S512 j

theorem projTerm_apply (x : FVec Ideal S512x768 .bf16) (w : FVec Ideal S768x768 .bf16) (b : FVec Ideal S1x1x768 .f32)
    (s : Fin 512) (o : Fin 768) :
    projTerm (F := Ideal) x w b (ix2 s o) = (∑ d : Fin 768, x (ix2 s d) * w (ix2 o d)) + b (ix3 (0 : Fin 1) (0 : Fin 1) o) := by
  unfold projTerm
  rw [shapeCast_self, truncf_apply, addf_apply, matmul_pj_apply, rowBcast_apply, shapeCast_11a_a_apply]

/-- Each of the three kept arrays is the projection of the sequence rows by its weights and bias. -/
theorem projArr_apply (x0 : FVec Ideal S1x512x768 .f32) (w : FVec Ideal S1x768x768 .f32) (b : FVec Ideal S1x1x768 .f32)
    (s : Fin 512) (o : Fin 768) :
    projTerm (F := Ideal) (k0_pay2 x0) (k0_pay5 w) b (ix2 s o)
      = Cert.Attn.proj (fun s d => x0 (ix3 (0 : Fin 1) s d)) (fun o d => w (ix3 (0 : Fin 1) o d))
          (fun o => b (ix3 (0 : Fin 1) (0 : Fin 1) o)) s o := by
  rw [projTerm_apply]
  simp only [pay2_apply, pay5_apply]
  rfl

/-! ### The block: twelve heads side by side -/

section Block
variable {F : FTy → Type} [FloatOps F]

/-- Column band h at (j, d) is the array at (j, 64h + d). -/
theorem band_apply (h : Fin 12) (A : Vec F S512x768 .bf16) (j : Fin 512) (d : Fin 64) :
    band h A (ix2 j d) = A (ix2 j (Cert.Attn.col h d)) := rfl

/-- The output block is the concatenation, along the columns, of the twelve heads, head h computed from column band h
    of the three projected arrays. -/
theorem bodyTerm_eq (x0 : Vec F S1x512x768 .f32) (x1 : Vec F S1x768x768 .f32) (x2 : Vec F S1x1x768 .f32)
    (x3 : Vec F S1x768x768 .f32) (x4 : Vec F S1x1x768 .f32) (x5 : Vec F S1x768x768 .f32) (x6 : Vec F S1x1x768 .f32)
    (x7 : Vec F S1x1x1x512 .f32) :
    bodyTerm x0 x1 x2 x3 x4 x5 x6 x7
      = shapeCast S1x512x768 (concatenate S512x768 1
          (List.ofFn fun h : Fin 12 => (⟨S512x64, headTerm (k0_pay7 x7) (band h (qArr x0 x1 x2)) (band h (kArr x0 x3 x4))
            (band h (vArr x0 x5 x6))⟩ : (s : Shape) × (s.Idx → F .f32)))
          concatenates_S512x64_S512x64_S512x64_S512x64_S512x64_S512x64_S512x64_S512x64_S512x64_S512x64_S512x64_S512x64_S512x768_d1)
        shapeCasts_S512x768_S1x512x768 := rfl

end Block

theorem bodyTerm_apply (x0 : Vec Ideal S1x512x768 .f32) (x1 : Vec Ideal S1x768x768 .f32) (x2 : Vec Ideal S1x1x768 .f32) (x3 : Vec Ideal S1x768x768 .f32) (x4 : Vec Ideal S1x1x768 .f32) (x5 : Vec Ideal S1x768x768 .f32) (x6 : Vec Ideal S1x1x768 .f32) (x7 : Vec Ideal S1x1x1x512 .f32) (s : Fin 512) (o : Fin 768) :
    bodyTerm (F := Ideal) x0 x1 x2 x3 x4 x5 x6 x7 (ix3 (0 : Fin 1) s o)
      = Cert.Attn.batch (fun s d => x0 (ix3 (0 : Fin 1) s d)) (fun j => x7 (ix4 (0 : Fin 1) (0 : Fin 1) (0 : Fin 1) j))
          (fun o d => x1 (ix3 (0 : Fin 1) o d)) (fun o => x2 (ix3 (0 : Fin 1) (0 : Fin 1) o))
          (fun o d => x3 (ix3 (0 : Fin 1) o d)) (fun o => x4 (ix3 (0 : Fin 1) (0 : Fin 1) o))
          (fun o d => x5 (ix3 (0 : Fin 1) o d)) (fun o => x6 (ix3 (0 : Fin 1) (0 : Fin 1) o)) s o := by
  rw [bodyTerm_eq, shapeCast_ab_1ab_apply]
  refine (concatenate_ofFn_apply (t := S512x768) (s₁ := S512x64) (1 : Fin S512x768.rank) _ _ rfl 64 rfl (ix2 s o) (Cert.Attn.headOf o) rfl
    (ix2 s (Cert.Attn.laneOf o)) rfl (fun b => match b with
      | ⟨0, _⟩ => fun _ => rfl
      | ⟨1, _⟩ => fun hb => absurd (Fin.ext rfl) hb)).trans ?_
  rw [headTerm_apply]
  simp only [band_apply, qArr_eq, kArr_eq, vArr_eq, projArr_apply, pay7_apply]
  rfl

end Cert.KernelIdeal.Body

end
-- ==== Proof.KernelValue.lean ====
/-
  The array the fused attention kernel leaves, read off its frame run. Grid point t works on sequence
  `perm t` (the argsort of the clipped expert indices): it stages that sequence's rows and mask row, the weight
  matrices and biases of the sequence's clipped expert, and writes output block `perm t`. The body's block is
  attention of what it staged (`Body.out_eq_bodyTerm`, `Body.bodyTerm_apply`), so point t writes block `perm t` of ONE
  whole-array function `G`: entry (b, s, o) is `Attn.batch` of sequence b with expert `eclip b`. Because `perm` is a
  permutation every block of the output is some point's, so the array ends holding `G`.
-/
import proofs.«429140_j38534446579845_3_alg».proof.Proof.Gen.KernelIdeal.Frame
import proofs.«429140_j38534446579845_3_alg».proof.Proof.Tables
import proofs.«429140_j38534446579845_3_alg».proof.Proof.BodyPieces
import proofs.«429140_j38534446579845_3_alg».proof.Proof.BodyMath
import proofs.«429140_j38534446579845_3_alg».proof.Proof.AttnSpec
import Idealize.ShloMosaic.Lib.Pipeline.Value
import Idealize.ShloMosaic.Lib.StableHlo.Run
import Idealize.ShloMosaic.Lib.ValueIdx

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)

/-! ## The windows' blocks, for any admissible contents of the tables

Each window's block index at point t is its printed index map at the tables' contents; a block whose index
along the leading axis is p (and 0 along the others) is slab p of its array. -/

section blocks

variable {F : FTy → Type} [FloatOps F]
variable (a : (pcfg0 (F := F)).Adm) (t : Fin (cfg0 a).N)

theorem index_0 : ((cfg0 a).win 0).index t = cc0_transform_0 k0_off1_inb numel1_S1 a.1 (grid0.coords t) := rfl
theorem index_1 : ((cfg0 a).win 1).index t = cc0_transform_1 k0_off1_inb numel1_S1 a.1 (grid0.coords t) := rfl
theorem index_2 : ((cfg0 a).win 2).index t = cc0_transform_2 k0_off1_inb numel1_S1 a.1 (grid0.coords t) := rfl
theorem index_3 : ((cfg0 a).win 3).index t = cc0_transform_3 k0_off1_inb numel1_S1 a.1 (grid0.coords t) := rfl
theorem index_4 : ((cfg0 a).win 4).index t = cc0_transform_4 k0_off1_inb numel1_S1 a.1 (grid0.coords t) := rfl
theorem index_5 : ((cfg0 a).win 5).index t = cc0_transform_5 k0_off1_inb numel1_S1 a.1 (grid0.coords t) := rfl
theorem index_6 : ((cfg0 a).win 6).index t = cc0_transform_6 k0_off1_inb numel1_S1 a.1 (grid0.coords t) := rfl
theorem index_7 : ((cfg0 a).win 7).index t = cc0_transform_7 k0_off1_inb numel1_S1 a.1 (grid0.coords t) := rfl
theorem index_8 : ((cfg0 a).win 8).index t = cc0_transform_8 k0_off1_inb numel1_S1 a.1 (grid0.coords t) := rfl

/-- Sequence rows: block p of the [16, 512, 768] input. -/
theorem read_0 (f : S16x512x768.Idx → Elt F .f32) (p : Fin 16) (hidx : ((cfg0 a).win 0).index t = ![p.val, 0, 0])
    (s : Fin 512) (d : Fin 768) :
    (((cfg0 a).win 0).blk t).view.read (Elt F) f (ix3 (0 : Fin 1) s d) = f (ix3 p s d) := by
  show f ((((cfg0 a).win 0).blk t).view.emb (ix3 (0 : Fin 1) s d)) = f (ix3 p s d)
  refine congrArg f ?_
  funext k
  apply Fin.ext
  match k with
  | ⟨0, _⟩ => show ((cfg0 a).win 0).index t (0 : Fin 3) * 1 + 1 * 0 = p.val; rw [hidx]; simp
  | ⟨1, _⟩ => show ((cfg0 a).win 0).index t (1 : Fin 3) * 512 + 1 * s.val = s.val; rw [hidx]; simp
  | ⟨2, _⟩ => show ((cfg0 a).win 0).index t (2 : Fin 3) * 768 + 1 * d.val = d.val; rw [hidx]; simp

/-- A weight matrix: block e of an [8, 768, 768] input. -/
theorem read_1 (f : S8x768x768.Idx → Elt F .f32) (e : Fin 8) (hidx : ((cfg0 a).win 1).index t = ![e.val, 0, 0])
    (o : Fin 768) (d : Fin 768) :
    (((cfg0 a).win 1).blk t).view.read (Elt F) f (ix3 (0 : Fin 1) o d) = f (ix3 e o d) := by
  show f ((((cfg0 a).win 1).blk t).view.emb (ix3 (0 : Fin 1) o d)) = f (ix3 e o d)
  refine congrArg f ?_
  funext k
  apply Fin.ext
  match k with
  | ⟨0, _⟩ => show ((cfg0 a).win 1).index t (0 : Fin 3) * 1 + 1 * 0 = e.val; rw [hidx]; simp
  | ⟨1, _⟩ => show ((cfg0 a).win 1).index t (1 : Fin 3) * 768 + 1 * o.val = o.val; rw [hidx]; simp
  | ⟨2, _⟩ => show ((cfg0 a).win 1).index t (2 : Fin 3) * 768 + 1 * d.val = d.val; rw [hidx]; simp

/-- A weight matrix: block e of an [8, 768, 768] input. -/
theorem read_3 (f : S8x768x768.Idx → Elt F .f32) (e : Fin 8) (hidx : ((cfg0 a).win 3).index t = ![e.val, 0, 0])
    (o : Fin 768) (d : Fin 768) :
    (((cfg0 a).win 3).blk t).view.read (Elt F) f (ix3 (0 : Fin 1) o d) = f (ix3 e o d) := by
  show f ((((cfg0 a).win 3).blk t).view.emb (ix3 (0 : Fin 1) o d)) = f (ix3 e o d)
  refine congrArg f ?_
  funext k
  apply Fin.ext
  match k with
  | ⟨0, _⟩ => show ((cfg0 a).win 3).index t (0 : Fin 3) * 1 + 1 * 0 = e.val; rw [hidx]; simp
  | ⟨1, _⟩ => show ((cfg0 a).win 3).index t (1 : Fin 3) * 768 + 1 * o.val = o.val; rw [hidx]; simp
  | ⟨2, _⟩ => show ((cfg0 a).win 3).index t (2 : Fin 3) * 768 + 1 * d.val = d.val; rw [hidx]; simp

/-- A weight matrix: block e of an [8, 768, 768] input. -/
theorem read_5 (f : S8x768x768.Idx → Elt F .f32) (e : Fin 8) (hidx : ((cfg0 a).win 5).index t = ![e.val, 0, 0])
    (o : Fin 768) (d : Fin 768) :
    (((cfg0 a).win 5).blk t).view.read (Elt F) f (ix3 (0 : Fin 1) o d) = f (ix3 e o d) := by
  show f ((((cfg0 a).win 5).blk t).view.emb (ix3 (0 : Fin 1) o d)) = f (ix3 e o d)
  refine congrArg f ?_
  funext k
  apply Fin.ext
  match k with
  | ⟨0, _⟩ => show ((cfg0 a).win 5).index t (0 : Fin 3) * 1 + 1 * 0 = e.val; rw [hidx]; simp
  | ⟨1, _⟩ => show ((cfg0 a).win 5).index t (1 : Fin 3) * 768 + 1 * o.val = o.val; rw [hidx]; simp
  | ⟨2, _⟩ => show ((cfg0 a).win 5).index t (2 : Fin 3) * 768 + 1 * d.val = d.val; rw [hidx]; simp

/-- A bias row: block e of an [8, 1, 768] array. -/
theorem read_2 (f : S8x1x768.Idx → Elt F .f32) (e : Fin 8) (hidx : ((cfg0 a).win 2).index t = ![e.val, 0, 0])
    (o : Fin 768) :
    (((cfg0 a).win 2).blk t).view.read (Elt F) f (ix3 (0 : Fin 1) (0 : Fin 1) o) = f (ix3 e (0 : Fin 1) o) := by
  show f ((((cfg0 a).win 2).blk t).view.emb (ix3 (0 : Fin 1) (0 : Fin 1) o)) = f (ix3 e (0 : Fin 1) o)
  refine congrArg f ?_
  funext k
  apply Fin.ext
  match k with
  | ⟨0, _⟩ => show ((cfg0 a).win 2).index t (0 : Fin 3) * 1 + 1 * 0 = e.val; rw [hidx]; simp
  | ⟨1, _⟩ => show ((cfg0 a).win 2).index t (1 : Fin 3) * 1 + 1 * 0 = 0; rw [hidx]; simp
  | ⟨2, _⟩ => show ((cfg0 a).win 2).index t (2 : Fin 3) * 768 + 1 * o.val = o.val; rw [hidx]; simp

/-- A bias row: block e of an [8, 1, 768] array. -/
theorem read_4 (f : S8x1x768.Idx → Elt F .f32) (e : Fin 8) (hidx : ((cfg0 a).win 4).index t = ![e.val, 0, 0])
    (o : Fin 768) :
    (((cfg0 a).win 4).blk t).view.read (Elt F) f (ix3 (0 : Fin 1) (0 : Fin 1) o) = f (ix3 e (0 : Fin 1) o) := by
  show f ((((cfg0 a).win 4).blk t).view.emb (ix3 (0 : Fin 1) (0 : Fin 1) o)) = f (ix3 e (0 : Fin 1) o)
  refine congrArg f ?_
  funext k
  apply Fin.ext
  match k with
  | ⟨0, _⟩ => show ((cfg0 a).win 4).index t (0 : Fin 3) * 1 + 1 * 0 = e.val; rw [hidx]; simp
  | ⟨1, _⟩ => show ((cfg0 a).win 4).index t (1 : Fin 3) * 1 + 1 * 0 = 0; rw [hidx]; simp
  | ⟨2, _⟩ => show ((cfg0 a).win 4).index t (2 : Fin 3) * 768 + 1 * o.val = o.val; rw [hidx]; simp

/-- A bias row: block e of an [8, 1, 768] array. -/
theorem read_6 (f : S8x1x768.Idx → Elt F .f32) (e : Fin 8) (hidx : ((cfg0 a).win 6).index t = ![e.val, 0, 0])
    (o : Fin 768) :
    (((cfg0 a).win 6).blk t).view.read (Elt F) f (ix3 (0 : Fin 1) (0 : Fin 1) o) = f (ix3 e (0 : Fin 1) o) := by
  show f ((((cfg0 a).win 6).blk t).view.emb (ix3 (0 : Fin 1) (0 : Fin 1) o)) = f (ix3 e (0 : Fin 1) o)
  refine congrArg f ?_
  funext k
  apply Fin.ext
  match k with
  | ⟨0, _⟩ => show ((cfg0 a).win 6).index t (0 : Fin 3) * 1 + 1 * 0 = e.val; rw [hidx]; simp
  | ⟨1, _⟩ => show ((cfg0 a).win 6).index t (1 : Fin 3) * 1 + 1 * 0 = 0; rw [hidx]; simp
  | ⟨2, _⟩ => show ((cfg0 a).win 6).index t (2 : Fin 3) * 768 + 1 * o.val = o.val; rw [hidx]; simp

/-- The mask row: block p of the [16, 1, 1, 512] input. -/
theorem read_7 (f : S16x1x1x512.Idx → Elt F .f32) (p : Fin 16) (hidx : ((cfg0 a).win 7).index t = ![p.val, 0, 0, 0])
    (j : Fin 512) :
    (((cfg0 a).win 7).blk t).view.read (Elt F) f (ix4 (0 : Fin 1) (0 : Fin 1) (0 : Fin 1) j) = f (ix4 p (0 : Fin 1) (0 : Fin 1) j) := by
  show f ((((cfg0 a).win 7).blk t).view.emb (ix4 (0 : Fin 1) (0 : Fin 1) (0 : Fin 1) j)) = f (ix4 p (0 : Fin 1) (0 : Fin 1) j)
  refine congrArg f ?_
  funext k
  apply Fin.ext
  match k with
  | ⟨0, _⟩ => show ((cfg0 a).win 7).index t (0 : Fin 4) * 1 + 1 * 0 = p.val; rw [hidx]; simp
  | ⟨1, _⟩ => show ((cfg0 a).win 7).index t (1 : Fin 4) * 1 + 1 * 0 = 0; rw [hidx]; simp
  | ⟨2, _⟩ => show ((cfg0 a).win 7).index t (2 : Fin 4) * 1 + 1 * 0 = 0; rw [hidx]; simp
  | ⟨3, _⟩ => show ((cfg0 a).win 7).index t (3 : Fin 4) * 512 + 1 * j.val = j.val; rw [hidx]; simp

/-- The output block at index p holds, at (0, s, o), the array's entry (p, s, o). -/
theorem emb_8 (p : Fin 16) (hidx : ((cfg0 a).win 8).index t = ![p.val, 0, 0]) (s : Fin 512) (o : Fin 768) :
    (((cfg0 a).win 8).blk t).view.emb (ix3 (0 : Fin 1) s o) = ix3 p s o := by
  funext k
  apply Fin.ext
  match k with
  | ⟨0, _⟩ => show ((cfg0 a).win 8).index t (0 : Fin 3) * 1 + 1 * 0 = p.val; rw [hidx]; simp
  | ⟨1, _⟩ => show ((cfg0 a).win 8).index t (1 : Fin 3) * 512 + 1 * s.val = s.val; rw [hidx]; simp
  | ⟨2, _⟩ => show ((cfg0 a).win 8).index t (2 : Fin 3) * 768 + 1 * o.val = o.val; rw [hidx]; simp

/-- So every entry of slab p of the output lies in the block at index p. -/
theorem mem_8 (p : Fin 16) (hidx : ((cfg0 a).win 8).index t = ![p.val, 0, 0]) (i : S16x512x768.Idx) (hi : i 0 = p) :
    i ∈ (((cfg0 a).win 8).blk t).view.set := by
  have h := (((cfg0 a).win 8).blk t).view.emb_mem_set (ix3 (0 : Fin 1) (i 1) (i 2))
  rw [emb_8 a t p hidx (i 1) (i 2)] at h
  have e : ix3 p (i 1) (i 2) = i := by rw [← hi]; exact (eq_ix3 i).symm
  exact e ▸ h

end blocks

/-! ## The bias arrays as the region finds them

@main reshapes each [8, 768] bias to [8, 1, 768] before the region; entry (e, 0, o) of the reshaped array is entry (e, o). -/

section host

variable {F : FTy → Type} [FloatOps F]
variable (m : (ℓ : Loc nD τ sig) → Buf (Elt F) ℓ)

theorem reshape_row {α : Type} (f : S8x768.Idx → α) (e : Fin 8) (o : Fin 768) :
    shapeCast S8x1x768 f shapeCasts_S8x768_S8x1x768 (ix3 e (0 : Fin 1) o) = f (ix2 e o) :=
  shapeCast_apply f _ _ _ (by
    rw [Shape.rowMajor_val_two, Shape.rowMajor_val_three]
    show e.val * 768 + o.val = (e.val * 1 + 0) * 768 + o.val
    omega)

theorem V_v1 (c : Dev nD) :
    (V m c main_v1 : S8x1x768.Idx → Elt F .f32) = shapeCast S8x1x768 (m ((c : Thread nD τ).loc main_arg3)) shapeCasts_S8x768_S8x1x768 := by
  dsimp only [V]
  simp only [hostOps0, hostOps0_1, hostOps0_2, hostOps0_3, hostOps0_4, List.flatten_cons, List.flatten_nil, List.append_nil,
    List.cons_append, List.nil_append]
  after_results
  rfl

theorem V_v2 (c : Dev nD) :
    (V m c main_v2 : S8x1x768.Idx → Elt F .f32) = shapeCast S8x1x768 (m ((c : Thread nD τ).loc main_arg5)) shapeCasts_S8x768_S8x1x768 := by
  dsimp only [V]
  simp only [hostOps0, hostOps0_1, hostOps0_2, hostOps0_3, hostOps0_4, List.flatten_cons, List.flatten_nil, List.append_nil,
    List.cons_append, List.nil_append]
  after_results
  rfl

theorem V_v3 (c : Dev nD) :
    (V m c main_v3 : S8x1x768.Idx → Elt F .f32) = shapeCast S8x1x768 (m ((c : Thread nD τ).loc main_arg7)) shapeCasts_S8x768_S8x1x768 := by
  dsimp only [V]
  simp only [hostOps0, hostOps0_1, hostOps0_2, hostOps0_3, hostOps0_4, List.flatten_cons, List.flatten_nil, List.append_nil,
    List.cons_append, List.nil_append]
  after_results
  rfl

end host

/-! ## What each point stages, and the array the run leaves -/

section value

variable (m : (ℓ : Loc nD τ sig) → Buf (Elt Ideal) ℓ) (ρ : Dev nD → PrngReg)

/-- The sequence a grid point works on. -/
abbrev seqOf (hO : Ok m) (t : Fin (cfgM m hO).N) : Fin 16 := Tab.perm m (Tab.pt (grid0.coords t))

/-- THE ARRAY the kernel leaves: entry (b, s, o) is attention of sequence b with the weights of b's clipped expert. -/
def G (c : Dev nD) : Buf (Elt Ideal) ((c : Thread nD τ).loc main_v12) := fun i =>
  Cert.Attn.batch (fun s d => m ((c : Thread nD τ).loc main_arg0) (ix3 (i 0) s d)) (fun j => m ((c : Thread nD τ).loc main_arg1) (ix4 (i 0) (0 : Fin 1) (0 : Fin 1) j))
    (fun o d => m ((c : Thread nD τ).loc main_arg2) (ix3 (Tab.eclip m (i 0)) o d)) (fun o => m ((c : Thread nD τ).loc main_arg3) (ix2 (Tab.eclip m (i 0)) o))
    (fun o d => m ((c : Thread nD τ).loc main_arg4) (ix3 (Tab.eclip m (i 0)) o d)) (fun o => m ((c : Thread nD τ).loc main_arg5) (ix2 (Tab.eclip m (i 0)) o))
    (fun o d => m ((c : Thread nD τ).loc main_arg6) (ix3 (Tab.eclip m (i 0)) o d)) (fun o => m ((c : Thread nD τ).loc main_arg7) (ix2 (Tab.eclip m (i 0)) o))
    (i 1) (i 2)

/-- The point's input blocks, each named at its literal type. -/
abbrev xb0 (hO : Ok m) (c : Dev nD) (t : Fin (cfgM m hO).N) : Vec Ideal S1x512x768 .f32 := iblk m hO c 0 t
abbrev xb1 (hO : Ok m) (c : Dev nD) (t : Fin (cfgM m hO).N) : Vec Ideal S1x768x768 .f32 := iblk m hO c 1 t
abbrev xb2 (hO : Ok m) (c : Dev nD) (t : Fin (cfgM m hO).N) : Vec Ideal S1x1x768 .f32 := iblk m hO c 2 t
abbrev xb3 (hO : Ok m) (c : Dev nD) (t : Fin (cfgM m hO).N) : Vec Ideal S1x768x768 .f32 := iblk m hO c 3 t
abbrev xb4 (hO : Ok m) (c : Dev nD) (t : Fin (cfgM m hO).N) : Vec Ideal S1x1x768 .f32 := iblk m hO c 4 t
abbrev xb5 (hO : Ok m) (c : Dev nD) (t : Fin (cfgM m hO).N) : Vec Ideal S1x768x768 .f32 := iblk m hO c 5 t
abbrev xb6 (hO : Ok m) (c : Dev nD) (t : Fin (cfgM m hO).N) : Vec Ideal S1x1x768 .f32 := iblk m hO c 6 t
abbrev xb7 (hO : Ok m) (c : Dev nD) (t : Fin (cfgM m hO).N) : Vec Ideal S1x1x1x512 .f32 := iblk m hO c 7 t

/-- The block indices at the launch's tables: the sequence windows at `seqOf t`, the expert windows at its clipped expert. -/
theorem hidx_0 (hO : Ok m) (t : Fin (cfgM m hO).N) : ((cfgM m hO).win 0).index t = ![(seqOf m hO t).val, 0, 0] :=
  (index_0 (adm m hO) t).trans (Tab.transform_0 m (grid0.coords t))
theorem hidx_1 (hO : Ok m) (t : Fin (cfgM m hO).N) : ((cfgM m hO).win 1).index t = ![(Tab.eclip m (seqOf m hO t)).val, 0, 0] :=
  (index_1 (adm m hO) t).trans (Tab.transform_1 m (grid0.coords t))
theorem hidx_2 (hO : Ok m) (t : Fin (cfgM m hO).N) : ((cfgM m hO).win 2).index t = ![(Tab.eclip m (seqOf m hO t)).val, 0, 0] :=
  (index_2 (adm m hO) t).trans (Tab.transform_2 m (grid0.coords t))
theorem hidx_3 (hO : Ok m) (t : Fin (cfgM m hO).N) : ((cfgM m hO).win 3).index t = ![(Tab.eclip m (seqOf m hO t)).val, 0, 0] :=
  (index_3 (adm m hO) t).trans (Tab.transform_3 m (grid0.coords t))
theorem hidx_4 (hO : Ok m) (t : Fin (cfgM m hO).N) : ((cfgM m hO).win 4).index t = ![(Tab.eclip m (seqOf m hO t)).val, 0, 0] :=
  (index_4 (adm m hO) t).trans (Tab.transform_4 m (grid0.coords t))
theorem hidx_5 (hO : Ok m) (t : Fin (cfgM m hO).N) : ((cfgM m hO).win 5).index t = ![(Tab.eclip m (seqOf m hO t)).val, 0, 0] :=
  (index_5 (adm m hO) t).trans (Tab.transform_5 m (grid0.coords t))
theorem hidx_6 (hO : Ok m) (t : Fin (cfgM m hO).N) : ((cfgM m hO).win 6).index t = ![(Tab.eclip m (seqOf m hO t)).val, 0, 0] :=
  (index_6 (adm m hO) t).trans (Tab.transform_6 m (grid0.coords t))
theorem hidx_7 (hO : Ok m) (t : Fin (cfgM m hO).N) : ((cfgM m hO).win 7).index t = ![(seqOf m hO t).val, 0, 0, 0] :=
  (index_7 (adm m hO) t).trans (Tab.transform_7 m (grid0.coords t))
theorem hidx_8 (hO : Ok m) (t : Fin (cfgM m hO).N) : ((cfgM m hO).win 8).index t = ![(seqOf m hO t).val, 0, 0] :=
  (index_8 (adm m hO) t).trans (Tab.transform_8 m (grid0.coords t))

/-- What each staged block holds, entry by entry. -/
theorem xb0_apply (hO : Ok m) (c : Dev nD) (t : Fin (cfgM m hO).N) (s : Fin 512) (d : Fin 768) :
    xb0 m hO c t (ix3 (0 : Fin 1) s d) = m ((c : Thread nD τ).loc main_arg0) (ix3 (seqOf m hO t) s d) :=
  (read_0 (adm m hO) t (V m c main_arg0) (seqOf m hO t) (hidx_0 m hO t) s d).trans (congrFun (V_main_arg0 m c) _)
theorem xb7_apply (hO : Ok m) (c : Dev nD) (t : Fin (cfgM m hO).N) (j : Fin 512) :
    xb7 m hO c t (ix4 (0 : Fin 1) (0 : Fin 1) (0 : Fin 1) j) = m ((c : Thread nD τ).loc main_arg1) (ix4 (seqOf m hO t) (0 : Fin 1) (0 : Fin 1) j) :=
  (read_7 (adm m hO) t (V m c main_arg1) (seqOf m hO t) (hidx_7 m hO t) j).trans (congrFun (V_main_arg1 m c) _)
theorem xb1_apply (hO : Ok m) (c : Dev nD) (t : Fin (cfgM m hO).N) (o : Fin 768) (d : Fin 768) :
    xb1 m hO c t (ix3 (0 : Fin 1) o d) = m ((c : Thread nD τ).loc main_arg2) (ix3 (Tab.eclip m (seqOf m hO t)) o d) :=
  (read_1 (adm m hO) t (V m c main_arg2) (Tab.eclip m (seqOf m hO t)) (hidx_1 m hO t) o d).trans (congrFun (V_main_arg2 m c) _)
theorem xb3_apply (hO : Ok m) (c : Dev nD) (t : Fin (cfgM m hO).N) (o : Fin 768) (d : Fin 768) :
    xb3 m hO c t (ix3 (0 : Fin 1) o d) = m ((c : Thread nD τ).loc main_arg4) (ix3 (Tab.eclip m (seqOf m hO t)) o d) :=
  (read_3 (adm m hO) t (V m c main_arg4) (Tab.eclip m (seqOf m hO t)) (hidx_3 m hO t) o d).trans (congrFun (V_main_arg4 m c) _)
theorem xb5_apply (hO : Ok m) (c : Dev nD) (t : Fin (cfgM m hO).N) (o : Fin 768) (d : Fin 768) :
    xb5 m hO c t (ix3 (0 : Fin 1) o d) = m ((c : Thread nD τ).loc main_arg6) (ix3 (Tab.eclip m (seqOf m hO t)) o d) :=
  (read_5 (adm m hO) t (V m c main_arg6) (Tab.eclip m (seqOf m hO t)) (hidx_5 m hO t) o d).trans (congrFun (V_main_arg6 m c) _)
theorem xb2_apply (hO : Ok m) (c : Dev nD) (t : Fin (cfgM m hO).N) (o : Fin 768) :
    xb2 m hO c t (ix3 (0 : Fin 1) (0 : Fin 1) o) = m ((c : Thread nD τ).loc main_arg3) (ix2 (Tab.eclip m (seqOf m hO t)) o) :=
  (read_2 (adm m hO) t (V m c main_v1) (Tab.eclip m (seqOf m hO t)) (hidx_2 m hO t) o).trans
    ((congrFun (V_v1 m c) _).trans (reshape_row _ _ o))
theorem xb4_apply (hO : Ok m) (c : Dev nD) (t : Fin (cfgM m hO).N) (o : Fin 768) :
    xb4 m hO c t (ix3 (0 : Fin 1) (0 : Fin 1) o) = m ((c : Thread nD τ).loc main_arg5) (ix2 (Tab.eclip m (seqOf m hO t)) o) :=
  (read_4 (adm m hO) t (V m c main_v2) (Tab.eclip m (seqOf m hO t)) (hidx_4 m hO t) o).trans
    ((congrFun (V_v2 m c) _).trans (reshape_row _ _ o))
theorem xb6_apply (hO : Ok m) (c : Dev nD) (t : Fin (cfgM m hO).N) (o : Fin 768) :
    xb6 m hO c t (ix3 (0 : Fin 1) (0 : Fin 1) o) = m ((c : Thread nD τ).loc main_arg7) (ix2 (Tab.eclip m (seqOf m hO t)) o) :=
  (read_6 (adm m hO) t (V m c main_v3) (Tab.eclip m (seqOf m hO t)) (hidx_6 m hO t) o).trans
    ((congrFun (V_v3 m c) _).trans (reshape_row _ _ o))

/-- Attention depends on its ten data arguments only through their entries. -/
theorem batch_congr {x x' : Fin 512 → Fin 768 → EReal} {mk mk' : Fin 512 → EReal}
    {wq wq' wk wk' wv wv' : Fin 768 → Fin 768 → EReal} {bq bq' bk bk' bv bv' : Fin 768 → EReal}
    (h0 : ∀ s d, x s d = x' s d) (h7 : ∀ j, mk j = mk' j)
    (h1 : ∀ o d, wq o d = wq' o d) (h2 : ∀ o, bq o = bq' o) (h3 : ∀ o d, wk o d = wk' o d) (h4 : ∀ o, bk o = bk' o)
    (h5 : ∀ o d, wv o d = wv' o d) (h6 : ∀ o, bv o = bv' o) (i : Fin 512) (o : Fin 768) :
    Cert.Attn.batch x mk wq bq wk bk wv bv i o = Cert.Attn.batch x' mk' wq' bq' wk' bk' wv' bv' i o := by
  obtain rfl : x = x' := funext fun s => funext fun d => h0 s d
  obtain rfl : mk = mk' := funext h7
  obtain rfl : wq = wq' := funext fun s => funext fun d => h1 s d
  obtain rfl : bq = bq' := funext h2
  obtain rfl : wk = wk' := funext fun s => funext fun d => h3 s d
  obtain rfl : bk = bk' := funext h4
  obtain rfl : wv = wv' := funext fun s => funext fun d => h5 s d
  obtain rfl : bv = bv' := funext h6
  rfl

/-- What the body leaves in the output block at point t: the body's term of the point's input blocks. -/
theorem outs_eq (hO : Ok m) (c : Dev nD) (t : Fin (cfgM m hO).N) :
    outsAt0 m hO c t = Body.bodyTerm (xb0 m hO c t) (xb1 m hO c t) (xb2 m hO c t) (xb3 m hO c t) (xb4 m hO c t)
      (xb5 m hO c t) (xb6 m hO c t) (xb7 m hO c t) := by
  unfold outsAt0
  exact Body.out_eq_bodyTerm c (grid0.coords t) (ms0_0 m hO t) (hs0_0 m hO t) (ms0_1 m hO t) (hs0_1 m hO t)
    (ms0_2 m hO t) (hs0_2 m hO t) (ms0_3 m hO t) (hs0_3 m hO t) (ms0_4 m hO t) (hs0_4 m hO t) (ms0_5 m hO t) (hs0_5 m hO t)
    (ms0_6 m hO t) (hs0_6 m hO t) (ms0_7 m hO t) (hs0_7 m hO t) (ms0_8 m hO t) (hs0_8 m hO t)
    scM0_0 (Memref.isWhole_whole _) scM0_1 (Memref.isWhole_whole _) scM0_2 (Memref.isWhole_whole _)
    (xb0 m hO c t) (xb1 m hO c t) (xb2 m hO c t) (xb3 m hO c t) (xb4 m hO c t) (xb5 m hO c t) (xb6 m hO c t) (xb7 m hO c t)
    (tbl m 0) (tbl m 1)

/-- WHAT POINT t WRITES BACK is block `seqOf t` of `G`. -/
theorem flushed_eq (hO : Ok m) (c : Dev nD) (t : Fin (cfgM m hO).N) :
    (dats m hO 0 c).flushed 8 t = (((cfgM m hO).win 8).blk t).view.read (Elt Ideal) (G m c) := by
  show ((cfgM m hO).win 8).cut (grid0.coords t) ((dats m hO 0 c).after 8 t) = _
  rw [after0_8, outs_eq]
  refine funext fun (y : S1x512x768.Idx) => ?_
  show Body.bodyTerm (xb0 m hO c t) (xb1 m hO c t) (xb2 m hO c t) (xb3 m hO c t) (xb4 m hO c t) (xb5 m hO c t)
      (xb6 m hO c t) (xb7 m hO c t) y = G m c ((((cfgM m hO).win 8).blk t).view.emb y)
  have hy0 : y 0 = (0 : Fin 1) :=
    Fin.ext (by have h := (y 0).isLt; have e : S1x512x768.size 0 = 1 := rfl; show (y 0).val = 0; omega)
  obtain ⟨s, o, rfl⟩ : ∃ (s : Fin 512) (o : Fin 768), y = ix3 (0 : Fin 1) s o :=
    ⟨y 1, y 2, (eq_ix3 y).trans (congrArg (fun z : Fin 1 => ix3 z (y 1) (y 2)) hy0)⟩
  refine (Body.bodyTerm_apply (xb0 m hO c t) (xb1 m hO c t) (xb2 m hO c t) (xb3 m hO c t) (xb4 m hO c t)
    (xb5 m hO c t) (xb6 m hO c t) (xb7 m hO c t) s o).trans ?_
  rw [emb_8 (adm m hO) t (seqOf m hO t) (hidx_8 m hO t) s o]
  exact batch_congr (xb0_apply m hO c t) (xb7_apply m hO c t) (xb1_apply m hO c t) (xb2_apply m hO c t)
    (xb3_apply m hO c t) (xb4_apply m hO c t) (xb5_apply m hO c t) (xb6_apply m hO c t) s o

/-- A grid point's coordinate is the point. -/
theorem pt_coords : ∀ t : Fin grid0.N, Tab.pt (grid0.coords t) = ⟨t.val, t.isLt⟩ := by decide

/-- The argsort is one-to-one (a map of sixteen things onto themselves). -/
theorem perm_injective : Function.Injective (Tab.perm m) :=
  Finite.injective_iff_surjective.mpr (Tab.perm_surjective m)

/-- The grid has sixteen points. -/
theorem N_eq (hO : Ok m) : (cfgM m hO).N = 16 := rfl
theorem gridN_eq (hO : Ok m) : (cfgM m hO).grid.N = 16 := rfl

/-- Point number k. -/
def ptOf (hO : Ok m) (k : Fin 16) : Fin (cfgM m hO).N := ⟨k.val, (N_eq m hO).symm ▸ k.isLt⟩

theorem seqOf_ptOf (hO : Ok m) (k : Fin 16) : seqOf m hO (ptOf m hO k) = Tab.perm m k := by
  show Tab.perm m (Tab.pt (grid0.coords (ptOf m hO k))) = _
  rw [pt_coords]; rfl

/-- Consecutive points work on different sequences, so every point writes its output block back. -/
theorem flush_8 (hO : Ok m) (t : Fin (cfgM m hO).N) : ((cfgM m hO).win 8).flush t = true := by
  have hN := N_eq m hO
  have hG := gridN_eq m hO
  have ht := t.isLt
  unfold Pipeline.Window.flush
  rw [show ((cfgM m hO).win 8).isOut = true from rfl, Bool.true_and, Bool.or_eq_true, decide_eq_true_eq, decide_eq_true_eq]
  by_cases h : t.val + 1 = (cfgM m hO).grid.N
  · exact Or.inl h
  · have hlt : t.val + 1 < (cfgM m hO).grid.N := by omega
    refine Or.inr ⟨hlt, fun e => ?_⟩
    have e' : (![(seqOf m hO ⟨t.val + 1, hlt⟩).val, 0, 0] : Fin 3 → Nat) = ![(seqOf m hO t).val, 0, 0] :=
      (hidx_8 m hO ⟨t.val + 1, hlt⟩).symm.trans (e.trans (hidx_8 m hO t))
    have e0 : (seqOf m hO ⟨t.val + 1, hlt⟩).val = (seqOf m hO t).val := by
      have := congrFun e' (0 : Fin 3); simpa using this
    have e1 : Tab.pt (grid0.coords ⟨t.val + 1, hlt⟩) = Tab.pt (grid0.coords t) := perm_injective m (Fin.ext e0)
    rw [pt_coords, pt_coords] at e1
    have := congrArg Fin.val e1
    simp at this

/-- Every entry of the output lies in some point's block: the block of the point whose sequence it belongs to. -/
theorem cover (hO : Ok m) (i : S16x512x768.Idx) :
    ∃ t : Fin (cfgM m hO).N, ((cfgM m hO).win 8).flush t = true ∧ i ∈ (((cfgM m hO).win 8).blk t).view.set := by
  obtain ⟨k, hk⟩ := Tab.perm_surjective m (i 0)
  refine ⟨ptOf m hO k, flush_8 m hO _, ?_⟩
  exact mem_8 (adm m hO) (ptOf m hO k) (seqOf m hO (ptOf m hO k)) (hidx_8 m hO (ptOf m hO k)) i
    ((seqOf_ptOf m hO k).trans hk).symm

/-- THE OUTPUT ARRAY after the run is `G`. -/
theorem final (hO : Ok m) (c : Dev nD) : (dats m hO 0 c).arrAt 8 (cfgM m hO).N = G m c :=
  (dats m hO 0 c).arrAt_eq_of_cover 8 (G m c) (fun t _ => flushed_eq m hO c t) (cover m hO)

/-- THE KERNEL'S RUN with its result named and its arguments unchanged. -/
theorem run (hO : Ok m) : θ_run defs (onTc (τ := τ) (main (F := Ideal))) ⟨m, fun _ => 0, ρ⟩ fun r => ∀ c : Dev nD,
      r.2.mem ((c : Thread nD τ).loc main_v12) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) := by
  refine (θ_run defs _ _).mono (fun _ h c => ?_) (run_main m ρ hO)
  exact ⟨((h c).1 8).trans (final m hO c),
    ((h c).1 0).trans (((dats m hO 0 c).arrAt_in 0 rfl _).trans ((A_eq m hO c 0).trans (V_main_arg0 m c))),
    ((h c).1 7).trans (((dats m hO 0 c).arrAt_in 7 rfl _).trans ((A_eq m hO c 7).trans (V_main_arg1 m c))),
    ((h c).1 1).trans (((dats m hO 0 c).arrAt_in 1 rfl _).trans ((A_eq m hO c 1).trans (V_main_arg2 m c))),
    ((h c).2 main_arg3 (by decide : main_arg3 ∈ Pipeline.restRefs sig spec0)).trans (V_main_arg3 m c),
    ((h c).1 3).trans (((dats m hO 0 c).arrAt_in 3 rfl _).trans ((A_eq m hO c 3).trans (V_main_arg4 m c))),
    ((h c).2 main_arg5 (by decide : main_arg5 ∈ Pipeline.restRefs sig spec0)).trans (V_main_arg5 m c),
    ((h c).1 5).trans (((dats m hO 0 c).arrAt_in 5 rfl _).trans ((A_eq m hO c 5).trans (V_main_arg6 m c))),
    ((h c).2 main_arg7 (by decide : main_arg7 ∈ Pipeline.restRefs sig spec0)).trans (V_main_arg7 m c),
    ((h c).2 main_arg8 (by decide : main_arg8 ∈ Pipeline.restRefs sig spec0)).trans (V_main_arg8 m c)⟩

end value

end Cert.KernelIdeal.KValue

end
-- ==== Proof.RefValue.lean ====
/-
  The reference, read at an output index: for sequence b whose expert index is e b (a number below 8), entry
  (b, s, o) of the result is `Attn.batch` of sequence b's rows, its mask row, and expert e b's three weight
  matrices and biases. The reference gathers each expert's weights by the index (shifted by 8 when negative,
  which an index in range never is), multiplies, splits the 768 columns into 12 heads of 64 by a reshape and a
  transpose, attends per head with a softmax over the key axis, and undoes the transpose and the reshape.
-/
import proofs.«429140_j38534446579845_3_alg».proof.Proof.Gen.ReferenceIdeal.Run
import proofs.«429140_j38534446579845_3_alg».proof.Proof.Gen.ReferenceIdeal.Read
import proofs.«429140_j38534446579845_3_alg».proof.Proof.AttnSpec
import Idealize.ShloMosaic.PureOps.Ideal.Laws
import Idealize.ShloMosaic.Lib.Pipeline.Value
import Idealize.ShloMosaic.Lib.ValueIdx
import Idealize.ShloMosaic.Lib.StableHlo.Predicate

set_option maxRecDepth 16384

noncomputable section

namespace Cert.ReferenceIdeal.RefValue

open Cert.ReferenceIdeal Cert.ReferenceIdeal.Gen Cert.ReferenceIdeal.Read
open Idealize.ShloMosaic Idealize.ShloMosaic.ValueIdx

/-! ## Constants and words -/

/-- The scale's divisor is the real number 8. -/
theorem eight : Ideal.ofBits .f32 0x41000000#32 = ((8 : ℝ) : EReal) := by
  simp [Ideal.ofBits, Ideal.ieee, -EReal.coe_mul]; norm_num

/-- The maximum's starting value is −∞. -/
theorem neg_inf : Ideal.ofBits .f32 0xFF800000#32 = (⊥ : EReal) := by
  simp [Ideal.ofBits, Ideal.ieee]

/-- A word below 8 is not negative, so "add 8 when negative" leaves it. -/
theorem sel_word (e : Fin 8) :
    Scalar.select (IntOp.cmpi .slt (BitVec.ofNat 32 e.val) 0#32) (IntOp.addi (BitVec.ofNat 32 e.val) 8#32) (BitVec.ofNat 32 e.val)
      = BitVec.ofNat 32 e.val := by
  fin_cases e <;> rfl

/-- Read signed and clamped into 0 … 7, a word below 8 is itself. -/
theorem clamp_word (e : Fin 8) : min (BitVec.ofNat 32 e.val).toInt.toNat (8 - 1) = e.val := by
  fin_cases e <;> rfl

/-! ## The two gathers: row `e` of the table, the other coordinates kept -/

/-- The gather of whole 768 × 768 matrices along the first axis reads matrix `e` where the start word is `e`. -/
theorem gather3 (x : S8x768x768.Idx → EReal) (idx : IVec S16x1 32) (b : Fin 16) (o d : Fin 768) (e : Fin 8)
    (h : idx (ix2 b (0 : Fin 1)) = BitVec.ofNat 32 e.val) :
    Host.gather gather_S8x768x768_S16x1_S16x768x768_12_0_n_n_0_1_1768768 x idx (ix3 b o d) = x (ix3 e o d) := by
  unfold Host.gather; congr 1; funext a; apply Fin.ext
  fin_cases a <;>
    simp [GatherDims.operandIdx, GatherDims.start, GatherDims.offCoord, GatherDims.batchCoord,
      gather_S8x768x768_S16x1_S16x768x768_12_0_n_n_0_1_1768768, GatherDims.sKept, Shape.kept]
  · have hs : gather_S8x768x768_S16x1_S16x768x768_12_0_n_n_0_1_1768768.siIdx (ix3 b o d) ⟨0, by decide⟩ = ix2 b (0 : Fin 1) := by
      funext k; fin_cases k <;> rfl
    show min (idx (gather_S8x768x768_S16x1_S16x768x768_12_0_n_n_0_1_1768768.siIdx (ix3 b o d) ⟨0, by decide⟩)).toInt.toNat 7 = e.val
    rw [hs, h]; exact clamp_word e
  · exact congrArg (fun a => ((ix3 b o d) a : ℕ)) (by decide : ([1, 2] : List (Fin 3))[List.idxOf (1 : Fin 3) (List.filter (fun x => decide (x ∉ [0])) (List.finRange 3))] = 1)
  · exact congrArg (fun a => ((ix3 b o d) a : ℕ)) (by decide : ([1, 2] : List (Fin 3))[List.idxOf (2 : Fin 3) (List.filter (fun x => decide (x ∉ [0])) (List.finRange 3))] = 2)

/-- The gather of whole bias rows likewise reads row `e`. -/
theorem gather2 (x : S8x768.Idx → EReal) (idx : IVec S16x1 32) (b : Fin 16) (o : Fin 768) (e : Fin 8)
    (h : idx (ix2 b (0 : Fin 1)) = BitVec.ofNat 32 e.val) :
    Host.gather gather_S8x768_S16x1_S16x768_1_0_n_n_0_1_1768 x idx (ix2 b o) = x (ix2 e o) := by
  unfold Host.gather; congr 1; funext a; apply Fin.ext
  fin_cases a <;>
    simp [GatherDims.operandIdx, GatherDims.start, GatherDims.offCoord, GatherDims.batchCoord,
      gather_S8x768_S16x1_S16x768_1_0_n_n_0_1_1768, GatherDims.sKept, Shape.kept]
  · have hs : gather_S8x768_S16x1_S16x768_1_0_n_n_0_1_1768.siIdx (ix2 b o) ⟨0, by decide⟩ = ix2 b (0 : Fin 1) := by
      funext k; fin_cases k <;> rfl
    show min (idx (gather_S8x768_S16x1_S16x768_1_0_n_n_0_1_1768.siIdx (ix2 b o) ⟨0, by decide⟩)).toInt.toNat 7 = e.val
    rw [hs, h]; exact clamp_word e
  · exact congrArg (fun a => ((ix2 b o) a : ℕ)) (by decide : ([1] : List (Fin 2))[List.idxOf (1 : Fin 2) (List.filter (fun x => decide (x ∉ [0])) (List.finRange 2))] = 1)

/-! ## The expert index, and the gathered weights -/

section Stages

variable (x0 : (⟨S16x512x768, .f32⟩ : BufTy).Contents (Elt Ideal)) (x1 : (⟨S16x1x1x512, .f32⟩ : BufTy).Contents (Elt Ideal))
  (w : (⟨S8x768x768, .f32⟩ : BufTy).Contents (Elt Ideal)) (c : (⟨S8x768, .f32⟩ : BufTy).Contents (Elt Ideal))
  (x8 : (⟨S16, .i32⟩ : BufTy).Contents (Elt Ideal))
  (e : Fin 16 → Fin 8) (he : ∀ b : Fin 16, x8 (ix1 b) = BitVec.ofNat 32 (e b).val)

include he

/-- The start word of sequence `b`: the expert index itself. -/
theorem v5_at (b : Fin 16) : val_main_v5 (F := Ideal) x8 (ix2 b (0 : Fin 1)) = BitVec.ofNat 32 (e b).val := by
  rw [val_main_v5_apply, val_main_v4_apply, val_main_v1_apply, val_main_v3_apply, val_main_v0_apply, val_main_v2_apply,
    val_main_c_apply, val_main_c_0_apply]
  have hi : idx_main_v5 (ix2 b (0 : Fin 1)) = ix1 b := funext fun a => Fin.ext (by match a with | ⟨0, _⟩ => rfl)
  rw [hi, he]; exact sel_word (e b)

/-- Sequence `b`'s gathered matrix is expert `e b`'s. -/
theorem v6_at (b : Fin 16) (o d : Fin 768) : val_main_v6 (F := Ideal) w x8 (ix3 b o d) = w (ix3 (e b) o d) := by
  unfold val_main_v6
  exact gather3 w _ b o d (e b) (v5_at x8 e he b)

/-- Sequence `b`'s gathered bias is expert `e b`'s. -/
theorem v13_at (b : Fin 16) (o : Fin 768) : val_main_v13 (F := Ideal) c x8 (ix2 b o) = c (ix2 (e b) o) := by
  unfold val_main_v13
  exact gather2 c _ b o (e b) (v5_at x8 e he b)

end Stages

/-! ## One projection: the product with the gathered matrix plus the gathered bias, then the split into heads -/

section Proj

variable (x0 : (⟨S16x512x768, .f32⟩ : BufTy).Contents (Elt Ideal))
  (w : (⟨S8x768x768, .f32⟩ : BufTy).Contents (Elt Ideal)) (c : (⟨S8x768, .f32⟩ : BufTy).Contents (Elt Ideal))
  (x8 : (⟨S16, .i32⟩ : BufTy).Contents (Elt Ideal))
  (e : Fin 16 → Fin 8) (he : ∀ b : Fin 16, x8 (ix1 b) = BitVec.ofNat 32 (e b).val)

include he

/-- Row `s`, column `o` of sequence `b`'s projection: the specification's `proj` with expert `e b`'s weights. -/
theorem v17_at (b : Fin 16) (s : Fin 512) (o : Fin 768) :
    val_main_v17 (F := Ideal) x0 w c x8 (ix3 b s o)
      = Cert.Attn.proj (fun s d => x0 (ix3 b s d)) (fun o d => w (ix3 (e b) o d)) (fun o => c (ix2 (e b) o)) s o := by
  rw [val_main_v17_apply, val_main_v14_apply, val_main_v16_apply, val_main_v15_apply]
  have h1 : ∀ k : Fin 768, lidx_main_v14 (ix3 b s o) k = ix3 b s k := fun k => funext fun a => Fin.ext (by
    match a with | ⟨0, _⟩ => rfl | ⟨1, _⟩ => rfl | ⟨2, _⟩ => rfl)
  have h2 : ∀ k : Fin 768, ridx_main_v14 (ix3 b s o) k = ix3 b o k := fun k => funext fun a => Fin.ext (by
    match a with | ⟨0, _⟩ => rfl | ⟨1, _⟩ => rfl | ⟨2, _⟩ => rfl)
  have h3 : idx_main_v15 (idx_main_v16 (ix3 b s o)) = ix2 b o := funext fun a => Fin.ext (by
    match a with | ⟨0, _⟩ => rfl | ⟨1, _⟩ => rfl)
  simp only [h1, h2, h3, v6_at w x8 e he, v13_at c x8 e he]
  rfl

/-- After the reshape and the transpose, head `h`, row `s`, lane `d` is the projection's column `64h + d`. -/
theorem v19_at (b : Fin 16) (h : Fin 12) (s : Fin 512) (d : Fin 64) :
    val_main_v19 (F := Ideal) x0 w c x8 (ix4 b h s d)
      = Cert.Attn.proj (fun s d => x0 (ix3 b s d)) (fun o d => w (ix3 (e b) o d)) (fun o => c (ix2 (e b) o)) s (Cert.Attn.col h d) := by
  rw [val_main_v19_apply, val_main_v18_apply]
  have hb := b.isLt; have hh := h.isLt; have hs := s.isLt; have hd := d.isLt
  have hi : idx_main_v18 (idx_main_v19 (ix4 b h s d)) = ix3 b s (Cert.Attn.col h d) := funext fun a => Fin.ext (by
    match a with
    | ⟨0, _⟩ => show (((b.val * 512 + s.val) * 12 + h.val) * 64 + d.val) / 393216 = b.val; omega
    | ⟨1, _⟩ => show (((b.val * 512 + s.val) * 12 + h.val) * 64 + d.val) / 768 % 512 = s.val; omega
    | ⟨2, _⟩ => show (((b.val * 512 + s.val) * 12 + h.val) * 64 + d.val) % 768 = h.val * 64 + d.val; omega)
  rw [hi]; exact v17_at x0 w c x8 e he b s (Cert.Attn.col h d)

end Proj

/-! ## Attention within one sequence, given the three projections split into heads -/

section Attend

variable (x0 : (⟨S16x512x768, .f32⟩ : BufTy).Contents (Elt Ideal)) (x1 : (⟨S16x1x1x512, .f32⟩ : BufTy).Contents (Elt Ideal))
  (x2 : (⟨S8x768x768, .f32⟩ : BufTy).Contents (Elt Ideal)) (x3 : (⟨S8x768, .f32⟩ : BufTy).Contents (Elt Ideal))
  (x4 : (⟨S8x768x768, .f32⟩ : BufTy).Contents (Elt Ideal)) (x5 : (⟨S8x768, .f32⟩ : BufTy).Contents (Elt Ideal))
  (x6 : (⟨S8x768x768, .f32⟩ : BufTy).Contents (Elt Ideal)) (x7 : (⟨S8x768, .f32⟩ : BufTy).Contents (Elt Ideal))
  (x8 : (⟨S16, .i32⟩ : BufTy).Contents (Elt Ideal))
  (b : Fin 16) (q k v : Fin 512 → Fin 768 → EReal)
  (hq : ∀ (h : Fin 12) (s : Fin 512) (d : Fin 64), val_main_v19 (F := Ideal) x0 x2 x3 x8 (ix4 b h s d) = q s (Cert.Attn.col h d))
  (hk : ∀ (h : Fin 12) (s : Fin 512) (d : Fin 64), val_main_v39 (F := Ideal) x0 x4 x5 x8 (ix4 b h s d) = k s (Cert.Attn.col h d))
  (hv : ∀ (h : Fin 12) (s : Fin 512) (d : Fin 64), val_main_v59 (F := Ideal) x0 x6 x7 x8 (ix4 b h s d) = v s (Cert.Attn.col h d))

/-- Sequence `b`'s additive mask over the key positions. -/
abbrev maskOf (b : Fin 16) : Fin 512 → EReal := fun j => x1 (ix4 b (0 : Fin 1) (0 : Fin 1) j)

include hq hk in
/-- The masked, scaled score of query row `i` against key row `j` in head `h`: dividing by 8 is multiplying by 1/8. -/
theorem v64_at (h : Fin 12) (i j : Fin 512) :
    val_main_v64 (F := Ideal) x0 x1 x2 x3 x4 x5 x8 (ix4 b h i j) = Cert.Attn.score q k (maskOf x1 b) h i j := by
  rw [val_main_v64_apply, val_main_v62_apply, val_main_v60_apply, val_main_v61_apply, val_main_cst_apply, val_main_v63_apply]
  have h1 : ∀ n : Fin 64, lidx_main_v60 (ix4 b h i j) n = ix4 b h i n := fun n => funext fun a => Fin.ext (by
    match a with | ⟨0, _⟩ => rfl | ⟨1, _⟩ => rfl | ⟨2, _⟩ => rfl | ⟨3, _⟩ => rfl)
  have h2 : ∀ n : Fin 64, ridx_main_v60 (ix4 b h i j) n = ix4 b h j n := fun n => funext fun a => Fin.ext (by
    match a with | ⟨0, _⟩ => rfl | ⟨1, _⟩ => rfl | ⟨2, _⟩ => rfl | ⟨3, _⟩ => rfl)
  have h3 : idx_main_v63 (ix4 b h i j) = ix4 b (0 : Fin 1) (0 : Fin 1) j := funext fun a => Fin.ext (by
    match a with | ⟨0, _⟩ => rfl | ⟨1, _⟩ => rfl | ⟨2, _⟩ => rfl | ⟨3, _⟩ => rfl)
  simp only [h1, h2, h3, hq, hk]
  rw [Ideal.addf_def, Ideal.hostDivf_def, Ideal.ofBits_def, eight, Ideal.div_coe (by norm_num : (8 : ℝ) ≠ 0)]
  rfl

end Attend

section Softmax

variable (x0 : (⟨S16x512x768, .f32⟩ : BufTy).Contents (Elt Ideal)) (x1 : (⟨S16x1x1x512, .f32⟩ : BufTy).Contents (Elt Ideal))
  (x2 : (⟨S8x768x768, .f32⟩ : BufTy).Contents (Elt Ideal)) (x3 : (⟨S8x768, .f32⟩ : BufTy).Contents (Elt Ideal))
  (x4 : (⟨S8x768x768, .f32⟩ : BufTy).Contents (Elt Ideal)) (x5 : (⟨S8x768, .f32⟩ : BufTy).Contents (Elt Ideal))
  (x8 : (⟨S16, .i32⟩ : BufTy).Contents (Elt Ideal))

/-- Head `h`, query row `i` of sequence `b`: the row of masked scores over the key positions. -/
abbrev srow (b : Fin 16) (h : Fin 12) (i : Fin 512) : Fin 512 → EReal :=
  fun j => val_main_v64 (F := Ideal) x0 x1 x2 x3 x4 x5 x8 (ix4 b h i j)

/-- The row maximum: the fold of `max` from −∞ over the key axis, then once more against −∞, which changes nothing. -/
theorem v67_at (b : Fin 16) (h : Fin 12) (i : Fin 512) :
    val_main_v67 (F := Ideal) x0 x1 x2 x3 x4 x5 x8 (ix3 b h i) = Cert.Attn.rowmax (srow x0 x1 x2 x3 x4 x5 x8 b h i) := by
  have hR : S16x12x512x512.Reduces [3] S16x12x512 := by decide
  rw [val_main_v67_apply, val_main_v66_apply, val_main_cst_12_apply]
  unfold val_main_v65
  rw [Host.reduce_eq_fold_single FloatOps.maximumf _ _ reducesTo_S16x12x512x512_S16x12x512_d3 hR h_S_]
  rw [val_main_cst_11_apply]
  simp only [Ideal.ofBits_def, neg_inf, Ideal.maximumf_def]
  rw [max_eq_right bot_le]
  have hf : (val_main_v64 (F := Ideal) x0 x1 x2 x3 x4 x5 x8 ∘ hR.lift (ix3 b h i)) = srow x0 x1 x2 x3 x4 x5 x8 b h i :=
    funext fun n => congrArg (val_main_v64 (F := Ideal) x0 x1 x2 x3 x4 x5 x8) (funext fun a => Fin.ext (by
      match a with | ⟨0, _⟩ => rfl | ⟨1, _⟩ => rfl | ⟨2, _⟩ => rfl | ⟨3, _⟩ => rfl))
  rw [hf]
  rfl

end Softmax

section Softmax2

variable (x0 : (⟨S16x512x768, .f32⟩ : BufTy).Contents (Elt Ideal)) (x1 : (⟨S16x1x1x512, .f32⟩ : BufTy).Contents (Elt Ideal))
  (x2 : (⟨S8x768x768, .f32⟩ : BufTy).Contents (Elt Ideal)) (x3 : (⟨S8x768, .f32⟩ : BufTy).Contents (Elt Ideal))
  (x4 : (⟨S8x768x768, .f32⟩ : BufTy).Contents (Elt Ideal)) (x5 : (⟨S8x768, .f32⟩ : BufTy).Contents (Elt Ideal))
  (x6 : (⟨S8x768x768, .f32⟩ : BufTy).Contents (Elt Ideal)) (x7 : (⟨S8x768, .f32⟩ : BufTy).Contents (Elt Ideal))
  (x8 : (⟨S16, .i32⟩ : BufTy).Contents (Elt Ideal))

/-- The shifted exponential of one score. -/
theorem v71_at (b : Fin 16) (h : Fin 12) (i j : Fin 512) :
    val_main_v71 (F := Ideal) x0 x1 x2 x3 x4 x5 x8 (ix4 b h i j)
      = Ideal.exp (srow x0 x1 x2 x3 x4 x5 x8 b h i j - Cert.Attn.rowmax (srow x0 x1 x2 x3 x4 x5 x8 b h i)) := by
  rw [val_main_v71_apply, val_main_v70_apply, val_main_v69_apply, val_main_v68_apply]
  have hi : idx_main_v68 (idx_main_v69 (ix4 b h i j)) = ix3 b h i := funext fun a => Fin.ext (by
    match a with | ⟨0, _⟩ => rfl | ⟨1, _⟩ => rfl | ⟨2, _⟩ => rfl)
  rw [hi, v67_at, Ideal.hostUnary_exp_def, Ideal.subf_def]

/-- The row's sum of shifted exponentials, started from zero. -/
theorem v72_at (b : Fin 16) (h : Fin 12) (i : Fin 512) :
    val_main_v72 (F := Ideal) x0 x1 x2 x3 x4 x5 x8 (ix3 b h i)
      = ∑ j' : Fin 512, Ideal.exp (srow x0 x1 x2 x3 x4 x5 x8 b h i j' - Cert.Attn.rowmax (srow x0 x1 x2 x3 x4 x5 x8 b h i)) := by
  rw [val_main_v72_apply, val_main_cst_13_apply, Ideal.ofBits_def, Ideal.ofBits_zero_f32, zero_add]
  have hi : ∀ n : Fin 512, idx_main_v72 (ix3 b h i) n = ix4 b h i n := fun n => funext fun a => Fin.ext (by
    match a with | ⟨0, _⟩ => rfl | ⟨1, _⟩ => rfl | ⟨2, _⟩ => rfl | ⟨3, _⟩ => rfl)
  simp only [hi, v71_at]

/-- The softmax weight of key position `j`. -/
theorem v75_at (b : Fin 16) (h : Fin 12) (i j : Fin 512) :
    val_main_v75 (F := Ideal) x0 x1 x2 x3 x4 x5 x8 (ix4 b h i j) = Cert.Attn.weight (srow x0 x1 x2 x3 x4 x5 x8 b h i) j := by
  rw [val_main_v75_apply, val_main_v74_apply, val_main_v73_apply]
  have hi : idx_main_v73 (idx_main_v74 (ix4 b h i j)) = ix3 b h i := funext fun a => Fin.ext (by
    match a with | ⟨0, _⟩ => rfl | ⟨1, _⟩ => rfl | ⟨2, _⟩ => rfl)
  rw [hi, v71_at, v72_at, Ideal.hostDivf_def]
  rfl

/-- The context: the value rows of the head averaged by the weights. -/
theorem v76_at (b : Fin 16) (v : Fin 512 → Fin 768 → EReal)
    (hv : ∀ (h : Fin 12) (s : Fin 512) (d : Fin 64), val_main_v59 (F := Ideal) x0 x6 x7 x8 (ix4 b h s d) = v s (Cert.Attn.col h d))
    (h : Fin 12) (i : Fin 512) (d : Fin 64) :
    val_main_v76 (F := Ideal) x0 x1 x2 x3 x4 x5 x6 x7 x8 (ix4 b h i d)
      = ∑ j : Fin 512, Cert.Attn.weight (srow x0 x1 x2 x3 x4 x5 x8 b h i) j * v j (Cert.Attn.col h d) := by
  rw [val_main_v76_apply]
  have h1 : ∀ n : Fin 512, lidx_main_v76 (ix4 b h i d) n = ix4 b h i n := fun n => funext fun a => Fin.ext (by
    match a with | ⟨0, _⟩ => rfl | ⟨1, _⟩ => rfl | ⟨2, _⟩ => rfl | ⟨3, _⟩ => rfl)
  have h2 : ∀ n : Fin 512, ridx_main_v76 (ix4 b h i d) n = ix4 b h n d := fun n => funext fun a => Fin.ext (by
    match a with | ⟨0, _⟩ => rfl | ⟨1, _⟩ => rfl | ⟨2, _⟩ => rfl | ⟨3, _⟩ => rfl)
  simp only [h1, h2, v75_at, hv]

end Softmax2

/-! ## The result -/

theorem result_apply (x0 : (⟨S16x512x768, .f32⟩ : BufTy).Contents (Elt Ideal)) (x1 : (⟨S16x1x1x512, .f32⟩ : BufTy).Contents (Elt Ideal)) (x2 : (⟨S8x768x768, .f32⟩ : BufTy).Contents (Elt Ideal)) (x3 : (⟨S8x768, .f32⟩ : BufTy).Contents (Elt Ideal)) (x4 : (⟨S8x768x768, .f32⟩ : BufTy).Contents (Elt Ideal)) (x5 : (⟨S8x768, .f32⟩ : BufTy).Contents (Elt Ideal)) (x6 : (⟨S8x768x768, .f32⟩ : BufTy).Contents (Elt Ideal)) (x7 : (⟨S8x768, .f32⟩ : BufTy).Contents (Elt Ideal)) (x8 : (⟨S16, .i32⟩ : BufTy).Contents (Elt Ideal))
    (e : Fin 16 → Fin 8) (he : ∀ b : Fin 16, x8 (ix1 b) = BitVec.ofNat 32 (e b).val)
    (b : Fin 16) (s : Fin 512) (o : Fin 768) :
    val_main_v78 (F := Ideal) x0 x1 x2 x3 x4 x5 x6 x7 x8 (ix3 b s o)
      = Cert.Attn.batch (fun s d => x0 (ix3 b s d)) (fun j => x1 (ix4 b (0 : Fin 1) (0 : Fin 1) j))
          (fun o d => x2 (ix3 (e b) o d)) (fun o => x3 (ix2 (e b) o))
          (fun o d => x4 (ix3 (e b) o d)) (fun o => x5 (ix2 (e b) o))
          (fun o d => x6 (ix3 (e b) o d)) (fun o => x7 (ix2 (e b) o)) s o := by
  rw [val_main_v78_apply, val_main_v77_apply]
  have hb := b.isLt; have hs := s.isLt; have ho := o.isLt
  -- the output column `o` is lane `o % 64` of head `o / 64`
  have hi : idx_main_v77 (idx_main_v78 (ix3 b s o)) = ix4 b (Cert.Attn.headOf o) s (Cert.Attn.laneOf o) := funext fun a => Fin.ext (by
    match a with
    | ⟨0, _⟩ => show ((b.val * 512 + s.val) * 768 + o.val) / 393216 = b.val; omega
    | ⟨1, _⟩ => show ((b.val * 512 + s.val) * 768 + o.val) / 64 % 12 = o.val / 64; omega
    | ⟨2, _⟩ => show ((b.val * 512 + s.val) * 768 + o.val) / 768 % 512 = s.val; omega
    | ⟨3, _⟩ => show ((b.val * 512 + s.val) * 768 + o.val) % 64 = o.val % 64; omega)
  rw [hi]
  -- the three projections of sequence `b`, split into heads
  have hq := v19_at x0 x2 x3 x8 e he b
  have hk : ∀ (h : Fin 12) (s : Fin 512) (d : Fin 64), val_main_v39 (F := Ideal) x0 x4 x5 x8 (ix4 b h s d) = _ := v19_at x0 x4 x5 x8 e he b
  have hv : ∀ (h : Fin 12) (s : Fin 512) (d : Fin 64), val_main_v59 (F := Ideal) x0 x6 x7 x8 (ix4 b h s d) = _ := v19_at x0 x6 x7 x8 e he b
  rw [v76_at x0 x1 x2 x3 x4 x5 x6 x7 x8 b _ hv]
  -- the score row is the specification's
  have hrow : srow x0 x1 x2 x3 x4 x5 x8 b (Cert.Attn.headOf o) s = Cert.Attn.score _ _ (maskOf x1 b) (Cert.Attn.headOf o) s :=
    funext fun j => v64_at x0 x1 x2 x3 x4 x5 x8 b _ _ hq hk (Cert.Attn.headOf o) s j
  rw [hrow]
  rfl

end Cert.ReferenceIdeal.RefValue

end
-- ==== Proof.Bridge.lean ====
/-
  The two results are one array. The reference's result at (b, s, o) is attention of sequence b with the weights of
  expert `expert_idx[b]` (`RefValue.result_apply`); the kernel's array `KValue.G` is the same with the CLIPPED expert;
  under the precondition the index is in 0 … 7, where the clip changes nothing.
-/
import proofs.«429140_j38534446579845_3_alg».proof.Defs
import proofs.«429140_j38534446579845_3_alg».proof.Proof.PreDecode
import proofs.«429140_j38534446579845_3_alg».proof.Proof.Tables
import proofs.«429140_j38534446579845_3_alg».proof.Proof.KernelValue
import proofs.«429140_j38534446579845_3_alg».proof.Proof.RefValue

set_option maxRecDepth 16384

noncomputable section

namespace Cert.Bridge

open Idealize.ShloMosaic Idealize.ShloMosaic.TcCoe Idealize.ShloMosaic.ValueIdx Idealize.SL.Sem

variable (m : (ℓ : Loc Cert.KernelIdeal.nD Cert.KernelIdeal.τ Cert.KernelIdeal.sig) → Buf (Elt Ideal) ℓ)

set_option maxHeartbeats 1000000 in
/-- Under the precondition every expert-index word of the launch memory is below 8. -/
theorem idx_lt (hpre : Cert.Pre_KernelIdeal m) (j : Fin 16) : ((m ((((0 : Dev Cert.KernelIdeal.nD).tc : Thread Cert.KernelIdeal.nD Cert.KernelIdeal.τ)).loc Cert.KernelIdeal.main_arg8)) (ix1 j)).toNat < 8 := by
  have h0 := hpre 0
  unfold Cert.Pre_KernelIdeal at h0
  exact Cert.PreDecode.idx_lt (F := Ideal) _ _ _ _ _ _ _ _ _ h0 j

/-- The reference's result stage on the kernel's argument arrays is the kernel's array. -/
theorem result_eq (hpre : Cert.Pre_KernelIdeal m) :
    Cert.ReferenceIdeal.Read.val_main_v78 (F := Ideal) (m ((((0 : Dev Cert.KernelIdeal.nD).tc : Thread Cert.KernelIdeal.nD Cert.KernelIdeal.τ)).loc Cert.KernelIdeal.main_arg0)) (m ((((0 : Dev Cert.KernelIdeal.nD).tc : Thread Cert.KernelIdeal.nD Cert.KernelIdeal.τ)).loc Cert.KernelIdeal.main_arg1)) (m ((((0 : Dev Cert.KernelIdeal.nD).tc : Thread Cert.KernelIdeal.nD Cert.KernelIdeal.τ)).loc Cert.KernelIdeal.main_arg2)) (m ((((0 : Dev Cert.KernelIdeal.nD).tc : Thread Cert.KernelIdeal.nD Cert.KernelIdeal.τ)).loc Cert.KernelIdeal.main_arg3)) (m ((((0 : Dev Cert.KernelIdeal.nD).tc : Thread Cert.KernelIdeal.nD Cert.KernelIdeal.τ)).loc Cert.KernelIdeal.main_arg4)) (m ((((0 : Dev Cert.KernelIdeal.nD).tc : Thread Cert.KernelIdeal.nD Cert.KernelIdeal.τ)).loc Cert.KernelIdeal.main_arg5)) (m ((((0 : Dev Cert.KernelIdeal.nD).tc : Thread Cert.KernelIdeal.nD Cert.KernelIdeal.τ)).loc Cert.KernelIdeal.main_arg6)) (m ((((0 : Dev Cert.KernelIdeal.nD).tc : Thread Cert.KernelIdeal.nD Cert.KernelIdeal.τ)).loc Cert.KernelIdeal.main_arg7)) (m ((((0 : Dev Cert.KernelIdeal.nD).tc : Thread Cert.KernelIdeal.nD Cert.KernelIdeal.τ)).loc Cert.KernelIdeal.main_arg8))
      = Cert.KernelIdeal.KValue.G m 0 := by
  have hlt := idx_lt m hpre
  have he := Cert.PreDecode.word_eq (m ((((0 : Dev Cert.KernelIdeal.nD).tc : Thread Cert.KernelIdeal.nD Cert.KernelIdeal.τ)).loc Cert.KernelIdeal.main_arg8)) hlt
  funext i
  obtain ⟨b, s, o, rfl⟩ : ∃ (b : Fin 16) (s : Fin 512) (o : Fin 768), i = ix3 b s o := ⟨i 0, i 1, i 2, eq_ix3 i⟩
  refine (Cert.ReferenceIdeal.RefValue.result_apply (m ((((0 : Dev Cert.KernelIdeal.nD).tc : Thread Cert.KernelIdeal.nD Cert.KernelIdeal.τ)).loc Cert.KernelIdeal.main_arg0)) (m ((((0 : Dev Cert.KernelIdeal.nD).tc : Thread Cert.KernelIdeal.nD Cert.KernelIdeal.τ)).loc Cert.KernelIdeal.main_arg1)) (m ((((0 : Dev Cert.KernelIdeal.nD).tc : Thread Cert.KernelIdeal.nD Cert.KernelIdeal.τ)).loc Cert.KernelIdeal.main_arg2)) (m ((((0 : Dev Cert.KernelIdeal.nD).tc : Thread Cert.KernelIdeal.nD Cert.KernelIdeal.τ)).loc Cert.KernelIdeal.main_arg3)) (m ((((0 : Dev Cert.KernelIdeal.nD).tc : Thread Cert.KernelIdeal.nD Cert.KernelIdeal.τ)).loc Cert.KernelIdeal.main_arg4)) (m ((((0 : Dev Cert.KernelIdeal.nD).tc : Thread Cert.KernelIdeal.nD Cert.KernelIdeal.τ)).loc Cert.KernelIdeal.main_arg5)) (m ((((0 : Dev Cert.KernelIdeal.nD).tc : Thread Cert.KernelIdeal.nD Cert.KernelIdeal.τ)).loc Cert.KernelIdeal.main_arg6)) (m ((((0 : Dev Cert.KernelIdeal.nD).tc : Thread Cert.KernelIdeal.nD Cert.KernelIdeal.τ)).loc Cert.KernelIdeal.main_arg7)) (m ((((0 : Dev Cert.KernelIdeal.nD).tc : Thread Cert.KernelIdeal.nD Cert.KernelIdeal.τ)).loc Cert.KernelIdeal.main_arg8))
    (Cert.PreDecode.expert (m ((((0 : Dev Cert.KernelIdeal.nD).tc : Thread Cert.KernelIdeal.nD Cert.KernelIdeal.τ)).loc Cert.KernelIdeal.main_arg8)) hlt) he b s o).trans ?_
  have hb : Cert.KernelIdeal.Tab.eclip m b = Cert.PreDecode.expert (m ((((0 : Dev Cert.KernelIdeal.nD).tc : Thread Cert.KernelIdeal.nD Cert.KernelIdeal.τ)).loc Cert.KernelIdeal.main_arg8)) hlt b :=
    Cert.KernelIdeal.Tab.eclip_of_eq m b _ (he b)
  show _ = Cert.Attn.batch (fun s d => (m ((((0 : Dev Cert.KernelIdeal.nD).tc : Thread Cert.KernelIdeal.nD Cert.KernelIdeal.τ)).loc Cert.KernelIdeal.main_arg0)) (ix3 b s d)) (fun j => (m ((((0 : Dev Cert.KernelIdeal.nD).tc : Thread Cert.KernelIdeal.nD Cert.KernelIdeal.τ)).loc Cert.KernelIdeal.main_arg1)) (ix4 b (0 : Fin 1) (0 : Fin 1) j))
    (fun o d => (m ((((0 : Dev Cert.KernelIdeal.nD).tc : Thread Cert.KernelIdeal.nD Cert.KernelIdeal.τ)).loc Cert.KernelIdeal.main_arg2)) (ix3 (Cert.KernelIdeal.Tab.eclip m b) o d)) (fun o => (m ((((0 : Dev Cert.KernelIdeal.nD).tc : Thread Cert.KernelIdeal.nD Cert.KernelIdeal.τ)).loc Cert.KernelIdeal.main_arg3)) (ix2 (Cert.KernelIdeal.Tab.eclip m b) o))
    (fun o d => (m ((((0 : Dev Cert.KernelIdeal.nD).tc : Thread Cert.KernelIdeal.nD Cert.KernelIdeal.τ)).loc Cert.KernelIdeal.main_arg4)) (ix3 (Cert.KernelIdeal.Tab.eclip m b) o d)) (fun o => (m ((((0 : Dev Cert.KernelIdeal.nD).tc : Thread Cert.KernelIdeal.nD Cert.KernelIdeal.τ)).loc Cert.KernelIdeal.main_arg5)) (ix2 (Cert.KernelIdeal.Tab.eclip m b) o))
    (fun o d => (m ((((0 : Dev Cert.KernelIdeal.nD).tc : Thread Cert.KernelIdeal.nD Cert.KernelIdeal.τ)).loc Cert.KernelIdeal.main_arg6)) (ix3 (Cert.KernelIdeal.Tab.eclip m b) o d)) (fun o => (m ((((0 : Dev Cert.KernelIdeal.nD).tc : Thread Cert.KernelIdeal.nD Cert.KernelIdeal.τ)).loc Cert.KernelIdeal.main_arg7)) (ix2 (Cert.KernelIdeal.Tab.eclip m b) o)) s o
  rw [hb]

end Cert.Bridge

end
-- ==== Proof.lean ====
/-
  Fused multi-head self-attention with per-sequence expert weights, against its jnp reference, over the extended
  reals. Under the precondition (every float input finite, every expert index in 0 … 7) both programs leave the
  array whose entry (b, s, o) is `Attn.batch` of sequence b with the weights of expert `expert_idx[b]`:

  * the kernel clips the indices (a no-op in range), visits the sequences in the order of an argsort of the clipped
    indices — a permutation, so every output block is written — and each grid point computes attention of the
    sequence it staged (Proof/Tables, Proof/BodyPieces, Proof/BodyMath, Proof/KernelValue);
  * the reference gathers the weights by index and computes the same sums, the same scaled and masked scores
    (division by 8 is multiplication by 1/8 on every extended real), the same shifted softmax and the same context
    (Proof/RefValue); the two arrays are one (Proof/Bridge).

  The frames: the kernel's two generated frames hold whenever the table-indexed blocks lie inside their arrays,
  which the clip guarantees for any index input (Proof/Tables, Proof/TablesBits); the reference's frame is its run.
  The idealization rewrote nothing, so `preserves` is `True`.
-/
import proofs.«429140_j38534446579845_3_alg».proof.Defs
import proofs.«429140_j38534446579845_3_alg».proof.Proof.Gen.Kernel
import proofs.«429140_j38534446579845_3_alg».proof.Proof.Gen.Kernel.Frame
import proofs.«429140_j38534446579845_3_alg».proof.Proof.Gen.KernelIdeal
import proofs.«429140_j38534446579845_3_alg».proof.Proof.Gen.KernelIdeal.Frame
import proofs.«429140_j38534446579845_3_alg».proof.Proof.Gen.ReferenceIdeal
import proofs.«429140_j38534446579845_3_alg».proof.Proof.Gen.ReferenceIdeal.Run
import proofs.«429140_j38534446579845_3_alg».proof.Proof.Gen.ReferenceIdeal.Read
import proofs.«429140_j38534446579845_3_alg».proof.Proof.Gen.Pre_finite_inputs
import proofs.«429140_j38534446579845_3_alg».proof.Proof.AttnSpec
import proofs.«429140_j38534446579845_3_alg».proof.Proof.PreDecode
import proofs.«429140_j38534446579845_3_alg».proof.Proof.Tables
import proofs.«429140_j38534446579845_3_alg».proof.Proof.TablesBits
import proofs.«429140_j38534446579845_3_alg».proof.Proof.KernelValue
import proofs.«429140_j38534446579845_3_alg».proof.Proof.RefValue
import proofs.«429140_j38534446579845_3_alg».proof.Proof.Bridge
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ (Cert.Kernel.Tab.ok m)
theorem frame_ki : Cert.frame_KernelIdeal := fun m ρ _ => Cert.KernelIdeal.Gen.frame m ρ (Cert.KernelIdeal.Tab.ok m)
theorem frame_ri : Cert.frame_ReferenceIdeal := fun m ρ _ =>
  (θ_run Cert.ReferenceIdeal.defs _ _).mono (fun _ h c => (h c).2) (Cert.ReferenceIdeal.Value.run (F := Ideal) m ρ)

set_option maxHeartbeats 1000000 in
/-- Both programs leave `Attn.batch` of each sequence with its expert's weights: the kernel's array `KValue.G` with
    the clipped expert, the reference's result with the expert itself; in range the clip changes nothing. -/
theorem algebraic : Cert.algebraic_KernelIdeal_ReferenceIdeal := by
  intro m ρ m' ρ' hpre hagree
  refine ⟨fun c => Cert.KernelIdeal.KValue.G m c, Cert.KernelIdeal.KValue.run m ρ (Cert.KernelIdeal.Tab.ok m), ?_⟩
  refine (θ_run Cert.ReferenceIdeal.defs _ _).mono (fun _ h c => ⟨(h c).1.trans ?_, (h c).2⟩)
    (Cert.ReferenceIdeal.Value.run (F := Ideal) m' ρ')
  obtain rfl : c = 0 := Subsingleton.elim _ _
  rw [Cert.ReferenceIdeal.Read.val_main_v78_eq]
  obtain ⟨a0, a1, a2, a3, a4, a5, a6, a7, a8⟩ := hagree 0
  rw [a0, a1, a2, a3, a4, a5, a6, a7, a8]
  exact Cert.Bridge.result_eq m hpre

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
